-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x128 : Shape := ⟨2, ![64, 128]⟩
abbrev S128x256 : Shape := ⟨2, ![128, 256]⟩
abbrev S128 : Shape := ⟨1, ![128]⟩
abbrev S256 : Shape := ⟨1, ![256]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S128 .f32) (main_arg10 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S64x128 .f32) (main_arg5 : FVec F S128 .f32) (main_arg6 : FVec F S128 .f32) (main_arg7 : FVec F S256 .f32) (main_arg8 : FVec F S256 .f32) (main_arg9 : FVec F S128 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x64 .f32) (main_arg1 : FVec F S4096x4096 .f32) (main_arg2 : FVec F S64x128 .f32) (main_arg3 : FVec F S128x256 .f32) (main_arg4 : FVec F S64x128 .f32) (main_arg5 : FVec F S128 .f32) (main_arg6 : FVec F S128 .f32) (main_arg7 : FVec F S256 .f32) (main_arg8 : FVec F S256 .f32) (main_arg9 : FVec F S128 .f32) (main_arg10 : FVec F S128 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_v13 main_v16
-- ==== Kernel.lean ====
abbrev S4096x64 : Shape := ⟨2, ![4096, 64]⟩
abbrev S4096x4096 : Shape := ⟨2, ![4096, 4096]⟩
abbrev S64x128 : Shape := ⟨2, ![64, 128]⟩
abbrev S128x256 : Shape := ⟨2, ![128, 256]⟩
abbrev S128 : Shape := ⟨1, ![128]⟩
abbrev S256 : Shape := ⟨1, ![256]⟩
abbrev S_ : Shape := ⟨0, ![]⟩
abbrev S64x256 : Shape := ⟨2, ![64, 256]⟩
abbrev S1x256 : Shape := ⟨2, ![1, 256]⟩
abbrev S4096x256 : Shape := ⟨2, ![4096, 256]⟩
abbrev S512x4096 : Shape := ⟨2, ![512, 4096]⟩
abbrev S512x256 : Shape := ⟨2, ![512, 256]⟩
abbrev S4096x128 : Shape := ⟨2, ![4096, 128]⟩
abbrev S512x512 : Shape := ⟨2, ![512, 512]⟩
abbrev S512x128 : Shape := ⟨2, ![512, 128]⟩

abbrev nBuf : Space → Nat
  | .hbm => 33
  | .vmem => 28
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x128, .f32⟩
  | .hbm, ⟨3, _⟩ => ⟨S128x256, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S1x256, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x128, .f32⟩
  | .hbm, ⟨29, _⟩ => ⟨S4096x128, .f32⟩
  | .hbm, ⟨30, _⟩ => ⟨S4096x256, .f32⟩
  | .hbm, ⟨31, _⟩ => ⟨S4096x256, .f32⟩
  | .hbm, ⟨32, _⟩ => ⟨S4096x4096, .f32⟩
  | .local _ .vmem, ⟨0, _⟩ => ⟨S4096x64, .f32⟩
  | .local _ .vmem, ⟨1, _⟩ => ⟨S64x256, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | .local _ .vmem, ⟨5, _⟩ => ⟨S4096x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S4096x128, .f32⟩
  | .local _ .vmem, ⟨11, _⟩ => ⟨S128x256, .f32⟩
  | .local _ .vmem, ⟨12, _⟩ => ⟨S4096x256, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x256, .f32⟩
  | .local _ .vmem, ⟨22, _⟩ => ⟨S1x256, .f32⟩
  | .local _ .vmem, ⟨23, _⟩ => ⟨S512x256, .f32⟩
  | .local _ .vmem, ⟨24, _⟩ => ⟨S512x256, .f32⟩
  | .local _ .vmem, ⟨25, _⟩ => ⟨S512x512, .f32⟩
  | .local _ .vmem, ⟨26, _⟩ => ⟨S512x512, .f32⟩
  | .local _ .vmem, ⟨27, _⟩ => ⟨S512x256, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc3_stg7_1 : Ref sig .tc := ⟨.vmem, 26, rfl⟩
abbrev cc3_scratch0 : Ref sig .tc := ⟨.vmem, 27, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem5_0 : DmaSem sig := 22
abbrev cc3_sem6_0 : DmaSem sig := 23
abbrev cc3_sem6_1 : DmaSem sig := 24
abbrev cc3_sem7_0 : DmaSem sig := 25
abbrev cc3_sem7_1 : DmaSem sig := 26

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_15 : BitVec 32 := 0#32
  let v20 : BitVec 1 := Scalar.cmpi .ne v19 c0_i32_15
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S512x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  concatenates_S64x128_S64x128_S64x256_d1 : Shape.Concatenates [S64x128, S64x128] S64x256 1
  concatenates_S128_S128_S256_d0 : Shape.Concatenates [S128, S128] S256 0
  bcast_S_S256 : S_.BroadcastsInDim S256 (![] : Fin 0 → Fin S256.rank)
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x256_S4096x256_0_0 : ∀ a, (![0, 0] : Fin 2 → Nat) a + S4096x256.size a ≤ S4096x256.size a
  h_S4096x256 : 0 < S4096x256.numel
  inb_S512x4096_S512x4096_0_0 : ∀ a, (![0, 0] : Fin 2 → Nat) a + S512x4096.size a ≤ S512x4096.size a
  h_S512x4096 : 0 < S512x4096.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  slices_S4096x256_S4096x128_0_0 : S4096x256.Slices ![0, 0] S4096x128
  slices_S4096x256_S4096x128_0_128 : S4096x256.Slices ![0, 128] S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S4096x64_S64x256_S4096x256_1_0_0_1_n_n_wf : DotDims.WF S4096x64 S64x256 S4096x256 [1] [0] [0] [1] [] []
  dot_S512x4096_S4096x256_S512x256_1_0_0_1_n_n_wf : DotDims.WF S512x4096 S4096x256 S512x256 [1] [0] [0] [1] [] []
  dot_S4096x128_S128x256_S4096x256_1_0_0_1_n_n_wf : DotDims.WF S4096x128 S128x256 S4096x256 [1] [0] [0] [1] [] []
  dot_S512x512_S512x256_S512x256_1_0_0_1_n_n_wf : DotDims.WF S512x512 S512x256 S512x256 [1] [0] [0] [1] [] []
  dot_S512x128_S512x128_S512x512_1_1_0_0_n_n_wf : DotDims.WF S512x128 S512x128 S512x512 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .f32 = 32 ∨ (Rect.block (s := S4096x4096) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S4096x128.size a
  hwx3_2 : ∀ i : grid3.Coords, EltTy.bits .f32 = 32 ∨ (Rect.block (s := S4096x128) S512x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x256.size a ≤ S4096x256.size a
  hwx3_6 : ∀ i : grid3.Coords, EltTy.bits .f32 = 32 ∨ (Rect.block (s := S4096x256) S512x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x512.size a ≤ S4096x4096.size a
  hwx3_7 : ∀ i : grid3.Coords, EltTy.bits .f32 = 32 ∨ (Rect.block (s := S4096x4096) S512x512.size (cc3_transform_7 i) (hinb3_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v13) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v15) false false (stage2_0 0) (sem2_0 0) (Memref.isWhole_whole _) (hstage2_0 0)

abbrev win2_1 : Pipeline.Window sig grid2 :=
  Pipeline.Window.whole (Memref.whole main_arg3) false false (stage2_1 0) (sem2_1 0) (Memref.isWhole_whole _) (hstage2_1 0)

abbrev win2_2 : Pipeline.Window sig grid2 :=
  Pipeline.Window.whole (Memref.whole main_v17) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S512x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v12) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18_0) S512x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v18_1) S512x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun i => !(k3_cond2 i == 1#1) | 7 => fun _ => false | ⟨_ + 8, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S64x128 : Shape := ⟨2, ![64, 128]⟩
abbrev S128x256 : Shape := ⟨2, ![128, 256]⟩
abbrev S128 : Shape := ⟨1, ![128]⟩
abbrev S256 : Shape := ⟨1, ![256]⟩
abbrev S4096x128 : Shape := ⟨2, ![4096, 128]⟩
abbrev S_ : Shape := ⟨0, ![]⟩
abbrev S1x128 : Shape := ⟨2, ![1, 128]⟩
abbrev S4096x256 : Shape := ⟨2, ![4096, 256]⟩
abbrev S1x256 : Shape := ⟨2, ![1, 256]⟩
abbrev S128x4096 : Shape := ⟨2, ![128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x128, .f32⟩
  | .hbm, ⟨3, _⟩ => ⟨S128x256, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S128, .f32⟩
  | .hbm, ⟨10, _⟩ => ⟨S128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S1x128, .f32⟩
  | .hbm, ⟨25, _⟩ => ⟨S4096x128, .f32⟩
  | .hbm, ⟨26, _⟩ => ⟨S4096x128, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S1x128, .f32⟩
  | .hbm, ⟨54, _⟩ => ⟨S4096x128, .f32⟩
  | .hbm, ⟨55, _⟩ => ⟨S4096x128, .f32⟩
  | .hbm, ⟨56, _⟩ => ⟨S1x128, .f32⟩
  | .hbm, ⟨57, _⟩ => ⟨S4096x128, .f32⟩
  | .hbm, ⟨58, _⟩ => ⟨S4096x128, .f32⟩
  | .hbm, ⟨59, _⟩ => ⟨S128x4096, .f32⟩
  | .hbm, ⟨60, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x128_S128x4096_1_0 : S4096x128.Transposes [1, 0] S128x4096
  dot_S4096x64_S64x128_S4096x128_1_0_0_1_n_n_wf : DotDims.WF S4096x64 S64x128 S4096x128 [1] [0] [0] [1] [] []
  dot_S4096x4096_S4096x128_S4096x128_1_0_0_1_n_n_wf : DotDims.WF S4096x4096 S4096x128 S4096x128 [1] [0] [0] [1] [] []
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []
  dot_S4096x128_S128x4096_S4096x4096_1_0_0_1_n_n_wf : DotDims.WF S4096x128 S128x4096 S4096x4096 [1] [0] [0] [1] [] []

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.K.R0.lean ====
/-
  The first pallas_call — one whole-array matrix product `t = y · [W_fd1 | W_sd1]`, no grid — as a pipeline of one
  point: what its body leaves in the output's staging buffer as a function of the two input blocks, the body's
  triple, the pipeline's proof data at the contents `V` the region is entered with, and the body obligation.
  Stated for any float instance.
-/
import proofs.«137728_g481036337837_cont_8to1_c_49_2_alg».proof.Proof.Gen.Kernel.Launch
import proofs.«137728_g481036337837_cont_8to1_c_49_2_alg».proof.Proof.Gen.Kernel.Skeleton
import proofs.«137728_g481036337837_cont_8to1_c_49_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_x : Rect S4096x64 := Rect.unit (s := S4096x64) ![0, 0] S4096x64.size inb_S4096x64_S4096x64_0_0
abbrev r0_w : Rect S64x256 := Rect.unit (s := S64x256) ![0, 0] S64x256.size inb_S64x256_S64x256_0_0
abbrev r0_o : Rect S4096x256 := Rect.unit (s := S4096x256) ![0, 0] S4096x256.size inb_S4096x256_S4096x256_0_0

/-- The output's staging buffer after the body: its one store, the product of the two loaded blocks. -/
def out0_2 (x0 : Vec F S4096x64 .f32) (x1 : Vec F S64x256 .f32) : Vec F S4096x256 .f32 :=
  View.canon [⟨r0_o, k0_pay1 (View.ld x0 r0_x) (View.ld x1 r0_w)⟩]

/-- The store covers the buffer. -/
theorem cover0_2 (p0 : Vec F S4096x256 .f32) (y : S4096x256.Idx) :
    ∃ pc ∈ ([⟨r0_o, p0⟩] : List (View.Piece (Elt F) S4096x256 .f32)), y ∈ pc.1.set :=
  View.cover_of_tiled [⟨r0_o, p0⟩] S4096x256.size (by rfl) y

/-! ## The body's triple -/

set_option maxHeartbeats 1000000 in
/-- On whole staging memrefs, the inputs' at contents `x0`, `x1` and the output's at anything, the body runs to
    the continuation holding the inputs' as they were and the output's at `out0_2 x0 x1`. -/
theorem sound_kernel0 (c : Dev nD) (E : Set ℕ) (arg0 : Memref sig .tc .vmem S4096x64 .f32) (harg0 : arg0.IsWhole)
    (arg1 : Memref sig .tc .vmem S64x256 .f32) (harg1 : arg1.IsWhole) (arg2 : Memref sig .tc .vmem S4096x256 .f32) (harg2 : arg2.IsWhole)
    (x0 : Vec F S4096x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each input's buffer at its block and the output's at the
    product of the input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second pallas_call — per block of 512 rows of the adjacency, `hs = max (adj · t) 0 · scale + shift` with the
  1×256 rows `scale` and `shift` broadcast down the block — as a pipeline over 8 points: what its body leaves in the
  output's staging buffer as a function of the four input blocks, the body's triple, the pipeline's proof data at the
  contents `V` the region is entered with, and the body obligation. Stated for any float instance.
-/
import proofs.«137728_g481036337837_cont_8to1_c_49_2_alg».proof.Proof.Gen.Kernel.Launch
import proofs.«137728_g481036337837_cont_8to1_c_49_2_alg».proof.Proof.Gen.Kernel.Skeleton
import proofs.«137728_g481036337837_cont_8to1_c_49_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_a : Rect S512x4096 := Rect.unit (s := S512x4096) ![0, 0] S512x4096.size inb_S512x4096_S512x4096_0_0
abbrev r1_t : Rect S4096x256 := Rect.unit (s := S4096x256) ![0, 0] S4096x256.size inb_S4096x256_S4096x256_0_0
abbrev r1_s : Rect S1x256 := Rect.unit (s := S1x256) ![0, 0] S1x256.size inb_S1x256_S1x256_0_0
abbrev r1_o : Rect S512x256 := Rect.unit (s := S512x256) ![0, 0] S512x256.size inb_S512x256_S512x256_0_0

/-- The output's staging buffer after the body: its one store, the rectified product scaled and shifted. -/
def out1_4 (x0 : Vec F S512x4096 .f32) (x1 : Vec F S4096x256 .f32) (x2 : Vec F S1x256 .f32) (x3 : Vec F S1x256 .f32) : Vec F S512x256 .f32 :=
  View.canon [⟨r1_o, k1_pay1 (View.ld x0 r1_a) (View.ld x1 r1_t) (View.ld x2 r1_s) (View.ld x3 r1_s)⟩]

/-- The store covers the buffer. -/
theorem cover1_4 (p0 : Vec F S512x256 .f32) (y : S512x256.Idx) :
    ∃ pc ∈ ([⟨r1_o, p0⟩] : List (View.Piece (Elt F) S512x256 .f32)), y ∈ pc.1.set :=
  View.cover_of_tiled [⟨r1_o, p0⟩] S512x256.size (by rfl) y

/-! ## The body's triple -/

set_option maxHeartbeats 1000000 in
/-- On whole staging memrefs, the inputs' at contents `x0 … x3` and the output's at anything, the body runs to the
    continuation holding the inputs' as they were and the output's at `out1_4 x0 x1 x2 x3`. -/
theorem sound_kernel1 (c : Dev nD) (E : Set ℕ) (i : grid1.Coords) (arg1 : Memref sig .tc .vmem S512x4096 .f32) (harg1 : arg1.IsWhole)
    (arg2 : Memref sig .tc .vmem S4096x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S512x256 .f32) (harg5 : arg5.IsWhole)
    (x0 : Vec F S512x4096 .f32) (x1 : Vec F S4096x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer1_kernel i arg1 harg1 arg2 harg2 arg3 harg3 arg4 harg4 arg5 harg5) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body each input's buffer at its block and the output's at
    `out1_4` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The third pallas_call — one whole-array matrix product `u = h · W_fd2`, no grid — as a pipeline of one
  point: what its body leaves in the output's staging buffer as a function of the two input blocks, the body's
  triple, the pipeline's proof data at the contents `V` the region is entered with, and the body obligation.
  Stated for any float instance.
-/
import proofs.«137728_g481036337837_cont_8to1_c_49_2_alg».proof.Proof.Gen.Kernel.Launch
import proofs.«137728_g481036337837_cont_8to1_c_49_2_alg».proof.Proof.Gen.Kernel.Skeleton
import proofs.«137728_g481036337837_cont_8to1_c_49_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_x : Rect S4096x128 := Rect.unit (s := S4096x128) ![0, 0] S4096x128.size inb_S4096x128_S4096x128_0_0
abbrev r2_w : Rect S128x256 := Rect.unit (s := S128x256) ![0, 0] S128x256.size inb_S128x256_S128x256_0_0
abbrev r2_o : Rect S4096x256 := Rect.unit (s := S4096x256) ![0, 0] S4096x256.size inb_S4096x256_S4096x256_0_0

/-- The output's staging buffer after the body: its one store, the product of the two loaded blocks. -/
def out2_2 (x0 : Vec F S4096x128 .f32) (x1 : Vec F S128x256 .f32) : Vec F S4096x256 .f32 :=
  View.canon [⟨r2_o, k2_pay1 (View.ld x0 r2_x) (View.ld x1 r2_w)⟩]

/-- The store covers the buffer. -/
theorem cover2_2 (p0 : Vec F S4096x256 .f32) (y : S4096x256.Idx) :
    ∃ pc ∈ ([⟨r2_o, p0⟩] : List (View.Piece (Elt F) S4096x256 .f32)), y ∈ pc.1.set :=
  View.cover_of_tiled [⟨r2_o, p0⟩] S4096x256.size (by rfl) y

/-! ## The body's triple -/

set_option maxHeartbeats 1000000 in
/-- On whole staging memrefs, the inputs' at contents `x0`, `x1` and the output's at anything, the body runs to
    the continuation holding the inputs' as they were and the output's at `out2_2 x0 x1`. -/
theorem sound_kernel2 (c : Dev nD) (E : Set ℕ) (arg0 : Memref sig .tc .vmem S4096x128 .f32) (harg0 : arg0.IsWhole)
    (arg1 : Memref sig .tc .vmem S128x256 .f32) (harg1 : arg1.IsWhole) (arg2 : Memref sig .tc .vmem S4096x256 .f32) (harg2 : arg2.IsWhole)
    (x0 : Vec F S4096x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_kernel arg0 harg0 arg1 harg1 arg2 harg2) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body each input's buffer at its block and the output's at the
    product of the input blocks; the invariant the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Defs.lean ====
/-
  The last pallas_call — per (row block i, column block j) of the adjacency: `acc ← (j = 0 ? 0 : acc) + adj[i,j] · u[j]`,
  `struct[i,j] ← s1[i] · s1[j]ᵀ`, and at `j = 7` `feat[i] ← max acc 0 · sc + b` — as a pipeline over 64 points:
  the windows' blocks, the accumulator the kernel carries between points in its scratch buffer, the region
  invariant that names the scratch's contents, and the pipeline's proof data. Stated for any float instance.
  The two windows that read the rows and the columns of `s1` share one array and hold it at complementary shares.
-/
import proofs.«137728_g481036337837_cont_8to1_c_49_2_alg».proof.Proof.Gen.Kernel.Launch
import proofs.«137728_g481036337837_cont_8to1_c_49_2_alg».proof.Proof.Gen.Kernel.Skeleton
import proofs.«137728_g481036337837_cont_8to1_c_49_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator -/

/-- What the scratch buffer holds after the body at position `n`: at the first column block of a row block
    (`n ≡ 0 mod 8`) the product of the point's adjacency tile and `u` tile added to zero, elsewhere added to what the
    point before left. -/
def acc3 (c : Dev nD) : (n : ℕ) → n < cfg3.N → Vec F S512x256 .f32
  | 0, hn => k3_pay2 (k3_pay1 (F := F)) (iblk3 V c 0 ⟨0, hn⟩) (iblk3 V c 1 ⟨0, hn⟩)
  | n + 1, hn =>
    if (n + 1) % 8 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- At the first column block the accumulator restarts from zero. -/
theorem acc3_reset (c : Dev nD) (t : Fin cfg3.N) (h : t.val % 8 = 0) :
    acc3 V c t.val t.isLt = k3_pay2 (k3_pay1 (F := F)) (iblk3 V c 0 t) (iblk3 V c 1 t) := by
  obtain ⟨n, hn⟩ := t
  cases n with
  | zero => rfl
  | succ n => exact if_pos h

/-- Elsewhere it adds to what the point before left. -/
theorem acc3_step (c : Dev nD) (t : Fin cfg3.N) (h : ¬t.val % 8 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

/-! ## The region invariant -/

/-- The scratch operand: a whole scoped buffer of the kernel's own. -/
abbrev scM3 : Memref sig .tc .vmem S512x256 .f32 := Memref.whole cc3_scratch0

/-- Before the first point: the scoped buffers no window stages (the other calls' staging buffers and the scratch)
    at anything, and the generator register at some state. After point `n`: the same, with the scratch at the
    accumulator's value there. -/
def Phi3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c n hn)) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c n hn)) ∗ (∃ r, prngReg c r)) := rfl

theorem Phi3_pos (c : Dev nD) (n : ℕ) (h : n ≤ cfg3.N) (hz : n ≠ 0) :
    Phi3 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c (n - 1) (by omega))) ∗ (∃ r, prngReg c r)) := by
  cases n with
  | zero => exact absurd rfl hz
  | succ n => rfl

/-- The invariant before the first point, with the scratch as a memref owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ d, owns (c : Thread nD τ) scM3 fullShare d)) ∗ (∃ r, prngReg c r)) := by
  unfold Pipeline.ΦA; rw [scopedRest3_eq]; simp only [scM3, owns_whole]; try rfl

/-! ## The pipeline's proof data -/

/-- The arrays as the region finds them; after the body each input's buffer at its block, the structure output's at
    the product of the two `s1` blocks, the feature output's at the rectified, scaled and shifted accumulator; the
    invariant `Phi3`; nothing owed; the two windows on `s1` at the two halves of the full share, the rest full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay4 (acc3 V c t.val t.isLt) (iblk3 V c 4 t) (iblk3 V c 5 t)
    | ⟨7, _⟩ => k3_pay3 (iblk3 V c 2 t) (iblk3 V c 3 t)
  Φ t := Phi3 V c t.val (Nat.le_of_lt_succ t.isLt)
  q w := match w with
    | ⟨2, _⟩ => fullShare.left
    | ⟨3, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = k3_pay4 (acc3 V c t.val t.isLt) (iblk3 V c 4 t) (iblk3 V c 5 t) := by dsimp only [dat3]
theorem after3_7 (c : Dev nD) (t : Fin cfg3.N) : (dat3 V c).after 7 t = k3_pay3 (iblk3 V c 2 t) (iblk3 V c 3 t) := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

end Cert.Kernel.Hand

end
-- ==== Proof.K.R3.lean ====
/-
  The last pallas_call's body obligation. At grid point (row block i, column block j) the body restarts its scratch
  accumulator from zero when j = 0, adds the product of the adjacency tile and the `u` tile to it, stores the product
  of the two `s1` tiles into the structure output's buffer, and when j = 7 stores the accumulator, rectified, scaled
  and shifted, into the feature output's buffer. Three cases of the two conditions meet a point (first, middle and last
  column block); in each the body's triple is stated on whole memrefs at explicit contents, every access being the
  whole buffer, so that a covering store reads back as its payload and a load reads the contents. Over the proof data
  `dat3` the three cases give the obligation at every point: the invariant names the scratch's contents, the
  accumulator of the point before going in and this point's coming out, and the feature output's buffer, idle off the
  last column block, is handed back as found there. Stated for any float instance.
-/
import proofs.«137728_g481036337837_cont_8to1_c_49_2_alg».proof.Proof.Gen.Kernel.Launch
import proofs.«137728_g481036337837_cont_8to1_c_49_2_alg».proof.Proof.Gen.Kernel.Skeleton
import proofs.«137728_g481036337837_cont_8to1_c_49_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137728_g481036337837_cont_8to1_c_49_2_alg».proof.Proof.K.R3Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions and the whole-buffer offsets -/

/-- The condition under which the body resets the scratch: the column block is the first. -/
abbrev cond3_0 (i : grid3.Coords) : Prop := (Scalar.cmpi .ne (Scalar.extui (Scalar.cmpi .eq (BitVec.ofNat 32 (i 1).val) 0#32)) 0#32) = 1#1
/-- The condition under which it stores the feature block: the column block is the last. -/
abbrev cond3_1 (i : grid3.Coords) : Prop := k3_cond2 i = 1#1

/-- Every access of the body is at offsets zero. -/
theorem hz3 : (![0, 0] : Fin 2 → Nat) = fun _ => 0 := funext fun a => by fin_cases a <;> rfl

/-- A store through the whole-buffer rectangle, made last, reads back as its payload, whatever the buffer held and
    whatever was stored before: the rectangle holds every index. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body's triple, case by case -/

set_option maxHeartbeats 1000000 in
/-- At a first column block that is not the last: on whole memrefs, the inputs' at `x0 … x5`, the feature output's at
    `xi6`, the structure output's and the scratch at anything, the body runs to the continuation holding the inputs' and
    the feature output's as they were, the structure output's at the product of the two `s1` blocks, and the scratch at
    the adjacency tile times the `u` tile added to zero. -/
theorem sound_kernel3_first (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : cond3_0 i) (hc1 : ¬cond3_1 i) (x0 : Vec F S512x512 .f32) (x1 : Vec F S512x256 .f32) (x2 x3 : Vec F S512x128 .f32) (x4 x5 : Vec F S1x256 .f32)
    (xi6 : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (k3_pay3 x2 x3)
            ∗ owns (c : Thread nD τ) arg10 fullShare (k3_pay2 (k3_pay1 (F := F)) x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

set_option maxHeartbeats 1000000 in
/-- At a column block neither first nor last: the same with the scratch found at `xs` and left at the tile product
    added to `xs`. -/
theorem sound_kernel3_mid (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : ¬cond3_0 i) (hc1 : ¬cond3_1 i) (x0 : Vec F S512x512 .f32) (x1 : Vec F S512x256 .f32) (x2 x3 : Vec F S512x128 .f32) (x4 x5 : Vec F S1x256 .f32)
    (xi6 : Vec F S512x256 .f32) (xs : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (k3_pay3 x2 x3)
            ∗ owns (c : Thread nD τ) arg10 fullShare (k3_pay2 xs x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

set_option maxHeartbeats 1000000 in
/-- At a last column block that is not the first: the scratch found at `xs` is left at the tile product added to
    `xs`, and the feature output's buffer, found at anything, at that sum rectified, scaled and shifted. -/
theorem sound_kernel3_last (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : ¬cond3_0 i) (hc1 : cond3_1 i) (x0 : Vec F S512x512 .f32) (x1 : Vec F S512x256 .f32) (x2 x3 : Vec F S512x128 .f32) (x4 x5 : Vec F S1x256 .f32)
    (xs : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k3_pay4 (k3_pay2 xs x0 x1) x4 x5) ∗ owns (c : Thread nD τ) arg9 fullShare (k3_pay3 x2 x3)
            ∗ owns (c : Thread nD τ) arg10 fullShare (k3_pay2 xs x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

/-! ## The body's branch conditions, in closed form over the grid -/

/-- The reset condition holds at the first column block of each row block; -/
theorem hcond3_0 : ∀ t : Fin cfg3.N, cond3_0 (grid3.coords t) ↔ t.val % 8 = 0 :=
  (by decide +kernel : ∀ t : Fin grid3.N, cond3_0 (grid3.coords t) ↔ t.val % 8 = 0)
/-- the finishing condition at the last. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs and the structure output are stored or held at every point; -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl
theorem liveAt3_4 (t : Fin cfg3.N) : cfg3.idle 4 (grid3.coords t) = false := rfl
theorem liveAt3_5 (t : Fin cfg3.N) : cfg3.idle 5 (grid3.coords t) = false := rfl
theorem liveAt3_7 (t : Fin cfg3.N) : cfg3.idle 7 (grid3.coords t) = false := rfl
/-- the feature output is idle, and not written back, off the last column block, -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- and live at it. -/
theorem liveAt3_6 : ∀ t : Fin cfg3.N, cond3_1 (grid3.coords t) → cfg3.idle 6 (grid3.coords t) = false := by decide +kernel

/-! ## What the inputs' staging buffers hold -/

/-- An input's current staging buffer holds its block at every point, fetched there or not: where it is not fetched
    its block index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-! ## What the body leaves, window by window -/

/-- At a point live for a window the obligation's post for it is its buffer at `after`. -/
theorem leaves3_0 (c : Dev nD) (t : Fin cfg3.N) :
    (dat3 V c).leavesExact 0 t = owns (c : Thread nD τ) (st3_0 t) fullShare ((dat3 V c).after 0 t) := by
  unfold Dat.leavesExact; rw [liveAt3_0 t]
theorem leaves3_1 (c : Dev nD) (t : Fin cfg3.N) :
    (dat3 V c).leavesExact 1 t = owns (c : Thread nD τ) (st3_1 t) fullShare ((dat3 V c).after 1 t) := by
  unfold Dat.leavesExact; rw [liveAt3_1 t]
theorem leaves3_2 (c : Dev nD) (t : Fin cfg3.N) :
    (dat3 V c).leavesExact 2 t = owns (c : Thread nD τ) (st3_2 t) fullShare ((dat3 V c).after 2 t) := by
  unfold Dat.leavesExact; rw [liveAt3_2 t]
theorem leaves3_3 (c : Dev nD) (t : Fin cfg3.N) :
    (dat3 V c).leavesExact 3 t = owns (c : Thread nD τ) (st3_3 t) fullShare ((dat3 V c).after 3 t) := by
  unfold Dat.leavesExact; rw [liveAt3_3 t]
theorem leaves3_4 (c : Dev nD) (t : Fin cfg3.N) :
    (dat3 V c).leavesExact 4 t = owns (c : Thread nD τ) (st3_4 t) fullShare ((dat3 V c).after 4 t) := by
  unfold Dat.leavesExact; rw [liveAt3_4 t]
theorem leaves3_5 (c : Dev nD) (t : Fin cfg3.N) :
    (dat3 V c).leavesExact 5 t = owns (c : Thread nD τ) (st3_5 t) fullShare ((dat3 V c).after 5 t) := by
  unfold Dat.leavesExact; rw [liveAt3_5 t]
theorem leaves3_7 (c : Dev nD) (t : Fin cfg3.N) :
    (dat3 V c).leavesExact 7 t = owns (c : Thread nD τ) (st3_7 t) fullShare ((dat3 V c).after 7 t) := by
  unfold Dat.leavesExact; rw [liveAt3_7 t]
theorem leaves3_6 (c : Dev nD) (t : Fin cfg3.N) (h : cond3_1 (grid3.coords t)) :
    (dat3 V c).leavesExact 6 t = owns (c : Thread nD τ) (st3_6 t) fullShare ((dat3 V c).after 6 t) := by
  unfold Dat.leavesExact; rw [liveAt3_6 t h]

/-! ## The body obligation, at a generic point -/

/-- What the body is called with at point `t`: the invariant, what the core owes, and each window's current staging
    buffer at what it then holds; -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
/-- The body at any point. The inputs' buffers hold their blocks; the closed forms of the two conditions say which of
    the three cases the point is in; the invariant hands the body the scratch at the accumulator's value at the point
    before (at anything before the first point) and takes it back at this point's: the restart from zero at a first
    column block, the sum with what was there elsewhere. The feature output's buffer is handed back as found off the
    last column block, where it is idle and not written back, and holds the finished block at it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, leaves3_4, leaves3_5, leaves3_7,
    after3_0, after3_1, after3_2, after3_3, after3_4, after3_5, after3_7]
  have hN : t.val < 64 := lt_of_lt_of_eq t.isLt (show cfg3.N = 64 from N_3)
  by_cases h0 : t.val % 8 = 0
  · have h1 : ¬t.val % 8 = 7 := by omega
    rw [Dat.leavesExact_idle (dat3 V c) 6 t (idleAt3_6 t (fun h => h1 ((hcond3_1 t).mp h))) (noFlush3_6 t (fun h => h1 ((hcond3_1 t).mp h)))]
    rw [acc3_reset V c t h0]
    by_cases hz : t.val = 0
    · rw [Phi3_castSucc V c t, Phi3_zero V c _ _ hz, PhiA3_eq]
      iintro ⟨⟨⟨B0, B1, B2, B3, B4, B5, B6, B7, B8, B9, B10, B11, B12, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_first c Set.univ (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
    · rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_first c Set.univ (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
  · have hz : t.val ≠ 0 := by omega
    by_cases h1 : t.val % 8 = 7
    · rw [leaves3_6 V c t ((hcond3_1 t).mpr h1), after3_6]
      rw [acc3_step V c t h0]
      rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_last c Set.univ (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat3 V c) 6 t (idleAt3_6 t (fun h => h1 ((hcond3_1 t).mp h))) (noFlush3_6 t (fun h => h1 ((hcond3_1 t).mp h)))]
      rw [acc3_step V c t h0]
      rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_mid c Set.univ (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) ((dat3 V c).before 6 t d6) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives it back: the scratch's named contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), PhiA3_eq]
  iintro ⟨⟨B0, B1, B2, B3, B4, B5, B6, B7, B8, B9, B10, B11, B12, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexists _; iexact HS
  iexact Hg

end Cert.Kernel.Hand

end
-- ==== Proof.K.Chain.lean ====
/-
  The program's four pallas_calls chained: what every unscoped buffer holds between two items of @main — the launch
  contents, then each host stretch's operations applied, then after each call its output array at what the pipeline's
  write-backs leave —, every pipeline's proof data at the contents its call is entered with, and each call as a segment
  between two such states. Stated for any float instance.
-/
import proofs.«137728_g481036337837_cont_8to1_c_49_2_alg».proof.Proof.K.R0
import proofs.«137728_g481036337837_cont_8to1_c_49_2_alg».proof.Proof.K.R1
import proofs.«137728_g481036337837_cont_8to1_c_49_2_alg».proof.Proof.K.R2
import proofs.«137728_g481036337837_cont_8to1_c_49_2_alg».proof.Proof.K.R3
import proofs.«137728_g481036337837_cont_8to1_c_49_2_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.SL.BI (bigSepL bigSep_eq_bigSepL_of_eq bigSepL_cons_cons bigSepL_singleton)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Before the first call: the launch contents with the first host stretch applied. -/
abbrev U1 (c : Dev nD) (b : Ref sig .tc) : Buf (Elt F) ((c : Thread nD τ).loc b) := V1 m c b
/-- After the first call: its output array `t` at what its one write-back leaves. -/
def W2 (c : Dev nD) : Valuation τ sig (Elt F) := Function.update (V1 m c) main_v13 ((dat0 (U1 m) c).arrAt 2 cfg0.N)
abbrev U2 (c : Dev nD) (b : Ref sig .tc) : Buf (Elt F) ((c : Thread nD τ).loc b) := W2 m c b
/-- After the second call: its output array `hs` at what its eight write-backs leave. -/
def W3 (c : Dev nD) : Valuation τ sig (Elt F) := Function.update (W2 m c) main_v14 ((dat1 (U2 m) c).arrAt 4 cfg1.N)
abbrev U3 (c : Dev nD) (b : Ref sig .tc) : Buf (Elt F) ((c : Thread nD τ).loc b) := W3 m c b
/-- After the two column slices. -/
def W4 (c : Dev nD) : Valuation τ sig (Elt F) := StableHlo.after hostOps2 (W3 m c)
abbrev U4 (c : Dev nD) (b : Ref sig .tc) : Buf (Elt F) ((c : Thread nD τ).loc b) := W4 m c b
/-- After the third call: its output array `u`. -/
def W5 (c : Dev nD) : Valuation τ sig (Elt F) := Function.update (W4 m c) main_v17 ((dat2 (U4 m) c).arrAt 2 cfg2.N)
abbrev U5 (c : Dev nD) (b : Ref sig .tc) : Buf (Elt F) ((c : Thread nD τ).loc b) := W5 m c b
/-- After the last call: the two result arrays. -/
def W6 (c : Dev nD) : Valuation τ sig (Elt F) :=
  Function.update (Function.update (W5 m c) main_v18_0 ((dat3 (U5 m) c).arrAt 6 cfg3.N)) main_v18_1 ((dat3 (U5 m) c).arrAt 7 cfg3.N)

/-- What the calls leave, as the family of contents the conditional run is stated over. -/
def outsK : Outs (F := F) := fun J r c =>
  match J with
  | 2 => W2 m c r
  | 3 => W3 m c r
  | 5 => W5 m c r
  | 6 => W6 m c r
  | _ => V0 m c r

theorem V2_eq (c : Dev nD) : V2 m (outsK m) c = W2 m c := by
  show Function.update (V1 m c) main_v13 (W2 m c main_v13) = W2 m c
  unfold W2; rw [Function.update_self]
theorem V3_eq (c : Dev nD) : V3 m (outsK m) c = W3 m c := by
  show Function.update (V2 m (outsK m) c) main_v14 (W3 m c main_v14) = W3 m c
  rw [V2_eq]; unfold W3; rw [Function.update_self]
theorem V4_eq (c : Dev nD) : V4 m (outsK m) c = W4 m c := by
  show StableHlo.after hostOps2 (V3 m (outsK m) c) = W4 m c
  rw [V3_eq]; rfl
theorem V5_eq (c : Dev nD) : V5 m (outsK m) c = W5 m c := by
  show Function.update (V4 m (outsK m) c) main_v17 (W5 m c main_v17) = W5 m c
  rw [V4_eq]; unfold W5; rw [Function.update_self]

/-! ## The proof data family -/

/-- Every pipeline's proof data, each at its call's entry contents. -/
def pdats : (p : Fin 4) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U4 m) c
  | ⟨3, _⟩ => fun c => dat3 (U5 m) c

/-! ## The thread state beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The calls as segments -/

/-! ### Call 0 -/

theorem W2_self (c : Dev nD) : W2 m c main_v13 = (dat0 (U1 m) c).arrAt 2 cfg0.N := by
  unfold W2; exact Function.update_self _ _ _
theorem W2_of_ne (c : Dev nD) (b : Ref sig .tc) (h : b ≠ main_v13) : W2 m c b = V1 m c b := by
  unfold W2; exact Function.update_of_ne (StableHlo.devRef_ne_of_ne h) _ _

theorem hF0 (c : Dev nD) (w : Fin cfg0.W) : (pdats m 0 c).arrAt w cfg0.N = U2 m c (Pipeline.arrRef spec0 w) := by
  match w with
  | ⟨0, _⟩ => exact (((pdats m 0 c).arrAt_in 0 rfl _).trans (A_eq0 (U1 m) c 0)).trans (W2_of_ne m c _ (by decide)).symm
  | ⟨1, _⟩ => exact (((pdats m 0 c).arrAt_in 1 rfl _).trans (A_eq0 (U1 m) c 1)).trans (W2_of_ne m c _ (by decide)).symm
  | ⟨2, _⟩ => exact (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

set_option backward.isDefEq.respectTransparency.types false in
/-- Call 0 as a segment: entered from every unscoped buffer at the contents before it, left at the contents after it;
    its arrays split out of the unscoped buffers and put back; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 1 -/

theorem W3_self (c : Dev nD) : W3 m c main_v14 = (dat1 (U2 m) c).arrAt 4 cfg1.N := by
  unfold W3; exact Function.update_self _ _ _
theorem W3_of_ne (c : Dev nD) (b : Ref sig .tc) (h : b ≠ main_v14) : W3 m c b = W2 m c b := by
  unfold W3; exact Function.update_of_ne (StableHlo.devRef_ne_of_ne h) _ _

theorem hF1 (c : Dev nD) (w : Fin cfg1.W) : (pdats m 1 c).arrAt w cfg1.N = U3 m c (Pipeline.arrRef spec1 w) := by
  match w with
  | ⟨0, _⟩ => exact (((pdats m 1 c).arrAt_in 0 rfl _).trans (A_eq1 (U2 m) c 0)).trans (W3_of_ne m c _ (by decide)).symm
  | ⟨1, _⟩ => exact (((pdats m 1 c).arrAt_in 1 rfl _).trans (A_eq1 (U2 m) c 1)).trans (W3_of_ne m c _ (by decide)).symm
  | ⟨2, _⟩ => exact (((pdats m 1 c).arrAt_in 2 rfl _).trans (A_eq1 (U2 m) c 2)).trans (W3_of_ne m c _ (by decide)).symm
  | ⟨3, _⟩ => exact (((pdats m 1 c).arrAt_in 3 rfl _).trans (A_eq1 (U2 m) c 3)).trans (W3_of_ne m c _ (by decide)).symm
  | ⟨4, _⟩ => exact (W3_self m c).symm
theorem hrest1 (c : Dev nD) : ∀ b, b ∉ Finset.univ.image (Pipeline.arrRef spec1) → U3 m c b = U2 m c b :=
  fun b hb => W3_of_ne m c b fun e => hb (Finset.mem_image.mpr ⟨4, Finset.mem_univ _, e.symm⟩)

set_option backward.isDefEq.respectTransparency.types false in
/-- Call 1 as a segment: entered from every unscoped buffer at the contents before it, left at the contents after it;
    its arrays split out of the unscoped buffers and put back; the generator register into the invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 2 -/

theorem W5_self (c : Dev nD) : W5 m c main_v17 = (dat2 (U4 m) c).arrAt 2 cfg2.N := by
  unfold W5; exact Function.update_self _ _ _
theorem W5_of_ne (c : Dev nD) (b : Ref sig .tc) (h : b ≠ main_v17) : W5 m c b = W4 m c b := by
  unfold W5; exact Function.update_of_ne (StableHlo.devRef_ne_of_ne h) _ _

theorem hF2 (c : Dev nD) (w : Fin cfg2.W) : (pdats m 2 c).arrAt w cfg2.N = U5 m c (Pipeline.arrRef spec2 w) := by
  match w with
  | ⟨0, _⟩ => exact (((pdats m 2 c).arrAt_in 0 rfl _).trans (A_eq2 (U4 m) c 0)).trans (W5_of_ne m c _ (by decide)).symm
  | ⟨1, _⟩ => exact (((pdats m 2 c).arrAt_in 1 rfl _).trans (A_eq2 (U4 m) c 1)).trans (W5_of_ne m c _ (by decide)).symm
  | ⟨2, _⟩ => exact (W5_self m c).symm
theorem hrest2 (c : Dev nD) : ∀ b, b ∉ Finset.univ.image (Pipeline.arrRef spec2) → U5 m c b = U4 m c b :=
  fun b hb => W5_of_ne m c b fun e => hb (Finset.mem_image.mpr ⟨2, Finset.mem_univ _, e.symm⟩)

set_option backward.isDefEq.respectTransparency.types false in
/-- Call 2 as a segment: entered from every unscoped buffer at the contents before it, left at the contents after it;
    its arrays split out of the unscoped buffers and put back; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last call: two of its windows read one array -/

theorem W6_v18_0 (c : Dev nD) : W6 m c main_v18_0 = (dat3 (U5 m) c).arrAt 6 cfg3.N := by
  unfold W6
  rw [Function.update_of_ne (StableHlo.devRef_ne_of_ne (by decide : main_v18_0 ≠ main_v18_1))]
  exact Function.update_self _ _ _
theorem W6_v18_1 (c : Dev nD) : W6 m c main_v18_1 = (dat3 (U5 m) c).arrAt 7 cfg3.N := by
  unfold W6; exact Function.update_self _ _ _
theorem W6_of_ne (c : Dev nD) (b : Ref sig .tc) (h0 : b ≠ main_v18_0) (h1 : b ≠ main_v18_1) : W6 m c b = W5 m c b := by
  unfold W6
  rw [Function.update_of_ne (StableHlo.devRef_ne_of_ne h1), Function.update_of_ne (StableHlo.devRef_ne_of_ne h0)]
abbrev U6 (c : Dev nD) (b : Ref sig .tc) : Buf (Elt F) ((c : Thread nD τ).loc b) := W6 m c b

theorem V6_eq (c : Dev nD) : V6 m (outsK m) c = W6 m c := by
  show Function.update (Function.update (V5 m (outsK m) c) main_v18_0 (W6 m c main_v18_0)) main_v18_1 (W6 m c main_v18_1) = W6 m c
  rw [V5_eq, W6_v18_0, W6_v18_1]; rfl

theorem hF3 (c : Dev nD) (w : Fin cfg3.W) : (pdats m 3 c).arrAt w cfg3.N = U6 m c (Pipeline.arrRef spec3 w) := by
  match w with
  | ⟨0, _⟩ => exact (((pdats m 3 c).arrAt_in 0 rfl _).trans (A_eq3 (U5 m) c 0)).trans (W6_of_ne m c _ (by decide) (by decide)).symm
  | ⟨1, _⟩ => exact (((pdats m 3 c).arrAt_in 1 rfl _).trans (A_eq3 (U5 m) c 1)).trans (W6_of_ne m c _ (by decide) (by decide)).symm
  | ⟨2, _⟩ => exact (((pdats m 3 c).arrAt_in 2 rfl _).trans (A_eq3 (U5 m) c 2)).trans (W6_of_ne m c _ (by decide) (by decide)).symm
  | ⟨3, _⟩ => exact (((pdats m 3 c).arrAt_in 3 rfl _).trans (A_eq3 (U5 m) c 3)).trans (W6_of_ne m c _ (by decide) (by decide)).symm
  | ⟨4, _⟩ => exact (((pdats m 3 c).arrAt_in 4 rfl _).trans (A_eq3 (U5 m) c 4)).trans (W6_of_ne m c _ (by decide) (by decide)).symm
  | ⟨5, _⟩ => exact (((pdats m 3 c).arrAt_in 5 rfl _).trans (A_eq3 (U5 m) c 5)).trans (W6_of_ne m c _ (by decide) (by decide)).symm
  | ⟨6, _⟩ => exact (W6_v18_0 m c).symm
  | ⟨7, _⟩ => exact (W6_v18_1 m c).symm

/-- The distinct buffers behind the last call's arrays. -/
theorem arrImage3 : Finset.univ.image (Pipeline.arrRef spec3) = ([main_arg1, main_v17, main_v16, main_v11, main_v12, main_v18_0, main_v18_1] : List (Ref sig .tc)).toFinset := by decide

section Shared

variable (V : (c : Dev nD) → (b : Ref sig .tc) → Buf (Elt F) ((c : Thread nD τ).loc b))

/-- The shares the last call's proof data hold its arrays at. -/
theorem share3_0 (c : Dev nD) : (dat3 V c).share 0 = fullShare := rfl
theorem share3_1 (c : Dev nD) : (dat3 V c).share 1 = fullShare := rfl
theorem share3_2 (c : Dev nD) : (dat3 V c).share 2 = fullShare.left := rfl
theorem share3_3 (c : Dev nD) : (dat3 V c).share 3 = fullShare.right := rfl
theorem share3_4 (c : Dev nD) : (dat3 V c).share 4 = fullShare := rfl
theorem share3_5 (c : Dev nD) : (dat3 V c).share 5 = fullShare := rfl
theorem share3_6 (c : Dev nD) : (dat3 V c).share 6 = fullShare := rfl
theorem share3_7 (c : Dev nD) : (dat3 V c).share 7 = fullShare := rfl

end Shared

section Shared

variable (V : (c : Dev nD) → (b : Ref sig .tc) → Buf (Elt F) ((c : Thread nD τ).loc b))

/-- The distinct buffers behind the last call's arrays, one by one. -/
theorem arrBufs3_eq (c : Dev nD) (Vv : (b : Ref sig .tc) → Buf (Elt F) ((c : Thread nD τ).loc b)) :
    (Pipeline.arrBufs (Ix := Unit) (Name := ℕ) (U := UR sig nD τ) (Lvl := ℕ) spec3 c Vv : sProp 𝕄)
      = iprop((((c : Thread nD τ).loc main_arg1) ↦{fullShare} Vv main_arg1)
        ∗ (((c : Thread nD τ).loc main_v17) ↦{fullShare} Vv main_v17)
        ∗ (((c : Thread nD τ).loc main_v16) ↦{fullShare} Vv main_v16)
        ∗ (((c : Thread nD τ).loc main_v11) ↦{fullShare} Vv main_v11)
        ∗ (((c : Thread nD τ).loc main_v12) ↦{fullShare} Vv main_v12)
        ∗ (((c : Thread nD τ).loc main_v18_0) ↦{fullShare} Vv main_v18_0)
        ∗ (((c : Thread nD τ).loc main_v18_1) ↦{fullShare} Vv main_v18_1)) := by
  unfold Pipeline.arrBufs; exact bigSep_eq_bigSepL_of_eq _ arrImage3 (by decide) _

/-- The last call's arrays as the proof data hold them: each a whole buffer, at its window's share. -/
theorem arrays3_eq (c : Dev nD) (Fw : (w : Fin cfg3.W) → Buf (Elt F) ((cfg3.win w).arr.view.loc (c.tc : Thread nD τ))) :
    (dat3 V c).arrays Fw
      = bigSep Finset.univ fun w : Fin cfg3.W => (((c : Thread nD τ).loc (Pipeline.arrRef spec3 w)) ↦{(dat3 V c).share w} Fw w : sProp 𝕄) := by
  unfold Dat.arrays
  exact bigSep_congr fun w _ => by rw [(arr_whole3 w).set_eq_univ]

/-- The buffers behind the last call's arrays, each whole at the full share, are its arrays as the proof data hold
    them: the array two windows read is split into the two halves of the full share. -/
theorem arr3_split (c : Dev nD) (Vv : (b : Ref sig .tc) → Buf (Elt F) ((c : Thread nD τ).loc b)) :
    (Pipeline.arrBufs (Ix := Unit) (Name := ℕ) (U := UR sig nD τ) (Lvl := ℕ) spec3 c Vv : sProp 𝕄)
      ⊢ (dat3 V c).arrays (fun w => Vv (Pipeline.arrRef spec3 w)) := by
  rw [arrBufs3_eq, arrays3_eq, bigSep_W3]
  iintro ⟨H0, H1, H23, H4, H5, H6, H7⟩
  ihave H23' := (pointsTo_share (PosShare.mem_left_op_right fullShare)).1 $$ H23
  icases H23' with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- And back: the two halves rejoin. -/
theorem arr3_join (c : Dev nD) (Vv : (b : Ref sig .tc) → Buf (Elt F) ((c : Thread nD τ).loc b)) :
    (dat3 V c).arrays (fun w => Vv (Pipeline.arrRef spec3 w))
      ⊢ (Pipeline.arrBufs (Ix := Unit) (Name := ℕ) (U := UR sig nD τ) (Lvl := ℕ) spec3 c Vv : sProp 𝕄) := by
  rw [arrBufs3_eq, arrays3_eq, bigSep_W3]
  iintro ⟨H0, H1, Ha, Hb, H4, H5, H6, H7⟩
  ihave H23 := (pointsTo_share (PosShare.mem_left_op_right fullShare)).2 $$ [Ha Hb]
  · isplitl [Ha]
    · iexact Ha
    iexact Hb
  isplitl [H0]; · iexact H0
  isplitl [H1]; · iexact H1
  isplitl [H23]; · iexact H23
  isplitl [H4]; · iexact H4
  isplitl [H5]; · iexact H5
  isplitl [H6]; · iexact H6
  iexact H7

end Shared

theorem hrest3 (c : Dev nD) : ∀ b, b ∉ Finset.univ.image (Pipeline.arrRef spec3) → U6 m c b = U5 m c b :=
  fun b hb => W6_of_ne m c b (fun e => hb (Finset.mem_image.mpr ⟨6, Finset.mem_univ _, e.symm⟩))
    (fun e => hb (Finset.mem_image.mpr ⟨7, Finset.mem_univ _, e.symm⟩))

section Last

set_option backward.isDefEq.respectTransparency.types false in
/-- The last call as a segment. Its arrays are split out of the unscoped buffers with the array two windows read dealt
    between them in two half shares, and put back with the halves rejoined; the rest as for the other calls. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (U5 m c)
  hentry c := by
    rw [Pipeline.ownSems0_none]
    have hsp := Pipeline.unscopedBufs_split₀ (Pipeline.pin (pcfgs (F := F)) adm) (3 : Fin 4) winFacts₀3.arr_unscoped c
      (Ix := Unit) (Name := ℕ) (U := UR sig nD τ) (Lvl := ℕ) (U5 m c)
    rw [Pipeline.unscopedBufs_held] at hsp
    have hsplit : StableHlo.held (c : Thread nD τ) (Pipeline.ucRefs τ sig) (W5 m c)
        ⊢ (iprop((pdats m 3 c).arrays ((pdats m 3 c).arrAt · 0)
            ∗ Pipeline.unscopedRest (Ix := Unit) (Name := ℕ) (U := UR sig nD τ) (Lvl := ℕ) spec3 c (U5 m c)) : sProp 𝕄) := by
      rw [hsp]; exact sep_mono (arr3_split (U5 m) c (U5 m c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (U5 m) c)
    unfold Pipeline.ΦA
    iintro ⟨Hp, -, Hr⟩
    isplitl [Hr]; · iexact Hr
    iexact Hp
  hout c := by
    rw [Pipeline.ownSems0_none]
    refine (hout3 (U5 m) c).trans ?_
    unfold Pipeline.ΦA
    iintro ⟨Hr, Hp⟩
    isplitl [Hp]; · iexact Hp
    isplitr; · iempintro
    iexact Hr
  hexit c := by
    have hsp := Pipeline.unscopedBufs_split₀ (Pipeline.pin (pcfgs (F := F)) adm) (3 : Fin 4) winFacts₀3.arr_unscoped c
      (Ix := Unit) (Name := ℕ) (U := UR sig nD τ) (Lvl := ℕ) (U6 m c)
    rw [Pipeline.unscopedBufs_held] at hsp
    have hjoin : (iprop((pdats m 3 c).arrays ((pdats m 3 c).arrAt · cfg3.N)
          ∗ Pipeline.unscopedRest (Ix := Unit) (Name := ℕ) (U := UR sig nD τ) (Lvl := ℕ) spec3 c (U5 m c)) : sProp 𝕄)
        ⊢ StableHlo.held (c : Thread nD τ) (Pipeline.ucRefs τ sig) (W6 m c) := by
      rw [hsp]
      refine sep_mono ?_ (Entails.of_eq ?_)
      · rw [show ((pdats m 3 c).arrAt · cfg3.N) = fun w => U6 m c (Pipeline.arrRef spec3 w) from funext (hF3 m c)]
        exact arr3_join (U5 m) c (U6 m c)
      · unfold Pipeline.unscopedRest
        exact bigSep_congr fun b hb => by rw [hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting, and every
    final memory holds each unscoped buffer at the last of the contents above: the arguments as launched (no item writes
    one) and the two result arrays at what the last call's write-backs leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  have h := run_cond m emb₁ () 𝒱₀ L lv (fun _ _ => rfl) ρ (outsK m) (pdats m) (O₀ := 0) (G := fun _ => (BI.emp : sProp 𝕄))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄)
          ⊢ bigSep Finset.univ (fun c : Dev nD => R c) := bigSep_mono fun c _ => hc c
      iintro ⟨H, -⟩
      imodintro
      iapply hmono; iexact H)
    (hE4 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V4_eq]; exact .rfl) (hpost2 := fun c => by rw [V5_eq]; exact .rfl)
    (R3 := reg3 m) (hpre3 := fun c => by rw [V5_eq]; exact .rfl) (hpost3 := fun c => by rw [V6_eq]; exact .rfl)
  refine (θ_run defs _ _).mono (fun _ h c b hb => ?_) h
  rw [h c b hb, V6_eq]

end Last

end Cert.Kernel.Hand

end
-- ==== Proof.K.Main.lean ====
/-
  The kernel program's run, whole: every weakly fair execution of @main terminates, nothing faulting, with each
  unscoped buffer at the contents the chain of calls and host operations computes — and, read at the argument arrays,
  the frame: they end as launched. Stated for any float instance.
-/
import proofs.«137728_g481036337837_cont_8to1_c_49_2_alg».proof.Proof.K.Chain

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-- The run. -/
theorem run_main :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  run_all m ρ

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W6_main_arg0 (c : Dev nD) : W6 m c main_arg0 = m ((c : Thread nD τ).loc main_arg0) :=
  (congrFun (V6_eq m c).symm _).trans (V6_main_arg0 m (outsK m) c)
theorem W6_main_arg1 (c : Dev nD) : W6 m c main_arg1 = m ((c : Thread nD τ).loc main_arg1) :=
  (congrFun (V6_eq m c).symm _).trans (V6_main_arg1 m (outsK m) c)
theorem W6_main_arg2 (c : Dev nD) : W6 m c main_arg2 = m ((c : Thread nD τ).loc main_arg2) :=
  (congrFun (V6_eq m c).symm _).trans (V6_main_arg2 m (outsK m) c)
theorem W6_main_arg3 (c : Dev nD) : W6 m c main_arg3 = m ((c : Thread nD τ).loc main_arg3) :=
  (congrFun (V6_eq m c).symm _).trans (V6_main_arg3 m (outsK m) c)
theorem W6_main_arg4 (c : Dev nD) : W6 m c main_arg4 = m ((c : Thread nD τ).loc main_arg4) :=
  (congrFun (V6_eq m c).symm _).trans (V6_main_arg4 m (outsK m) c)
theorem W6_main_arg5 (c : Dev nD) : W6 m c main_arg5 = m ((c : Thread nD τ).loc main_arg5) :=
  (congrFun (V6_eq m c).symm _).trans (V6_main_arg5 m (outsK m) c)
theorem W6_main_arg6 (c : Dev nD) : W6 m c main_arg6 = m ((c : Thread nD τ).loc main_arg6) :=
  (congrFun (V6_eq m c).symm _).trans (V6_main_arg6 m (outsK m) c)
theorem W6_main_arg7 (c : Dev nD) : W6 m c main_arg7 = m ((c : Thread nD τ).loc main_arg7) :=
  (congrFun (V6_eq m c).symm _).trans (V6_main_arg7 m (outsK m) c)
theorem W6_main_arg8 (c : Dev nD) : W6 m c main_arg8 = m ((c : Thread nD τ).loc main_arg8) :=
  (congrFun (V6_eq m c).symm _).trans (V6_main_arg8 m (outsK m) c)
theorem W6_main_arg9 (c : Dev nD) : W6 m c main_arg9 = m ((c : Thread nD τ).loc main_arg9) :=
  (congrFun (V6_eq m c).symm _).trans (V6_main_arg9 m (outsK m) c)
theorem W6_main_arg10 (c : Dev nD) : W6 m c main_arg10 = m ((c : Thread nD τ).loc main_arg10) :=
  (congrFun (V6_eq m c).symm _).trans (V6_main_arg10 m (outsK m) c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c),
      (h c _ (mem_uc main_arg10 (by decide))).trans (W6_main_arg10 m c)⟩) (run_main m ρ)

end Cert.Kernel.Hand

end
-- ==== Proof.KI.R0.lean ====
/-
  The first pallas_call — one whole-array matrix product `t = y · [W_fd1 | W_sd1]`, no grid — as a pipeline of one
  point: what its body leaves in the output's staging buffer as a function of the two input blocks, the body's
  triple, the pipeline's proof data at the contents `V` the region is entered with, and the body obligation.
  Stated for any float instance.
-/
import proofs.«137728_g481036337837_cont_8to1_c_49_2_alg».proof.Proof.Gen.KernelIdeal.Launch
import proofs.«137728_g481036337837_cont_8to1_c_49_2_alg».proof.Proof.Gen.KernelIdeal.Skeleton
import proofs.«137728_g481036337837_cont_8to1_c_49_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_x : Rect S4096x64 := Rect.unit (s := S4096x64) ![0, 0] S4096x64.size inb_S4096x64_S4096x64_0_0
abbrev r0_w : Rect S64x256 := Rect.unit (s := S64x256) ![0, 0] S64x256.size inb_S64x256_S64x256_0_0
abbrev r0_o : Rect S4096x256 := Rect.unit (s := S4096x256) ![0, 0] S4096x256.size inb_S4096x256_S4096x256_0_0

/-- The output's staging buffer after the body: its one store, the product of the two loaded blocks. -/
def out0_2 (x0 : Vec F S4096x64 .f32) (x1 : Vec F S64x256 .f32) : Vec F S4096x256 .f32 :=
  View.canon [⟨r0_o, k0_pay1 (View.ld x0 r0_x) (View.ld x1 r0_w)⟩]

/-- The store covers the buffer. -/
theorem cover0_2 (p0 : Vec F S4096x256 .f32) (y : S4096x256.Idx) :
    ∃ pc ∈ ([⟨r0_o, p0⟩] : List (View.Piece (Elt F) S4096x256 .f32)), y ∈ pc.1.set :=
  View.cover_of_tiled [⟨r0_o, p0⟩] S4096x256.size (by rfl) y

/-! ## The body's triple -/

set_option maxHeartbeats 1000000 in
/-- On whole staging memrefs, the inputs' at contents `x0`, `x1` and the output's at anything, the body runs to
    the continuation holding the inputs' as they were and the output's at `out0_2 x0 x1`. -/
theorem sound_kernel0 (c : Dev nD) (E : Set ℕ) (arg0 : Memref sig .tc .vmem S4096x64 .f32) (harg0 : arg0.IsWhole)
    (arg1 : Memref sig .tc .vmem S64x256 .f32) (harg1 : arg1.IsWhole) (arg2 : Memref sig .tc .vmem S4096x256 .f32) (harg2 : arg2.IsWhole)
    (x0 : Vec F S4096x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each input's buffer at its block and the output's at the
    product of the input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second pallas_call — per block of 512 rows of the adjacency, `hs = max (adj · t) 0 · scale + shift` with the
  1×256 rows `scale` and `shift` broadcast down the block — as a pipeline over 8 points: what its body leaves in the
  output's staging buffer as a function of the four input blocks, the body's triple, the pipeline's proof data at the
  contents `V` the region is entered with, and the body obligation. Stated for any float instance.
-/
import proofs.«137728_g481036337837_cont_8to1_c_49_2_alg».proof.Proof.Gen.KernelIdeal.Launch
import proofs.«137728_g481036337837_cont_8to1_c_49_2_alg».proof.Proof.Gen.KernelIdeal.Skeleton
import proofs.«137728_g481036337837_cont_8to1_c_49_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_a : Rect S512x4096 := Rect.unit (s := S512x4096) ![0, 0] S512x4096.size inb_S512x4096_S512x4096_0_0
abbrev r1_t : Rect S4096x256 := Rect.unit (s := S4096x256) ![0, 0] S4096x256.size inb_S4096x256_S4096x256_0_0
abbrev r1_s : Rect S1x256 := Rect.unit (s := S1x256) ![0, 0] S1x256.size inb_S1x256_S1x256_0_0
abbrev r1_o : Rect S512x256 := Rect.unit (s := S512x256) ![0, 0] S512x256.size inb_S512x256_S512x256_0_0

/-- The output's staging buffer after the body: its one store, the rectified product scaled and shifted. -/
def out1_4 (x0 : Vec F S512x4096 .f32) (x1 : Vec F S4096x256 .f32) (x2 : Vec F S1x256 .f32) (x3 : Vec F S1x256 .f32) : Vec F S512x256 .f32 :=
  View.canon [⟨r1_o, k1_pay1 (View.ld x0 r1_a) (View.ld x1 r1_t) (View.ld x2 r1_s) (View.ld x3 r1_s)⟩]

/-- The store covers the buffer. -/
theorem cover1_4 (p0 : Vec F S512x256 .f32) (y : S512x256.Idx) :
    ∃ pc ∈ ([⟨r1_o, p0⟩] : List (View.Piece (Elt F) S512x256 .f32)), y ∈ pc.1.set :=
  View.cover_of_tiled [⟨r1_o, p0⟩] S512x256.size (by rfl) y

/-! ## The body's triple -/

set_option maxHeartbeats 1000000 in
/-- On whole staging memrefs, the inputs' at contents `x0 … x3` and the output's at anything, the body runs to the
    continuation holding the inputs' as they were and the output's at `out1_4 x0 x1 x2 x3`. -/
theorem sound_kernel1 (c : Dev nD) (E : Set ℕ) (i : grid1.Coords) (arg1 : Memref sig .tc .vmem S512x4096 .f32) (harg1 : arg1.IsWhole)
    (arg2 : Memref sig .tc .vmem S4096x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S512x256 .f32) (harg5 : arg5.IsWhole)
    (x0 : Vec F S512x4096 .f32) (x1 : Vec F S4096x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer1_kernel i arg1 harg1 arg2 harg2 arg3 harg3 arg4 harg4 arg5 harg5) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body each input's buffer at its block and the output's at
    `out1_4` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The third pallas_call — one whole-array matrix product `u = h · W_fd2`, no grid — as a pipeline of one
  point: what its body leaves in the output's staging buffer as a function of the two input blocks, the body's
  triple, the pipeline's proof data at the contents `V` the region is entered with, and the body obligation.
  Stated for any float instance.
-/
import proofs.«137728_g481036337837_cont_8to1_c_49_2_alg».proof.Proof.Gen.KernelIdeal.Launch
import proofs.«137728_g481036337837_cont_8to1_c_49_2_alg».proof.Proof.Gen.KernelIdeal.Skeleton
import proofs.«137728_g481036337837_cont_8to1_c_49_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_x : Rect S4096x128 := Rect.unit (s := S4096x128) ![0, 0] S4096x128.size inb_S4096x128_S4096x128_0_0
abbrev r2_w : Rect S128x256 := Rect.unit (s := S128x256) ![0, 0] S128x256.size inb_S128x256_S128x256_0_0
abbrev r2_o : Rect S4096x256 := Rect.unit (s := S4096x256) ![0, 0] S4096x256.size inb_S4096x256_S4096x256_0_0

/-- The output's staging buffer after the body: its one store, the product of the two loaded blocks. -/
def out2_2 (x0 : Vec F S4096x128 .f32) (x1 : Vec F S128x256 .f32) : Vec F S4096x256 .f32 :=
  View.canon [⟨r2_o, k2_pay1 (View.ld x0 r2_x) (View.ld x1 r2_w)⟩]

/-- The store covers the buffer. -/
theorem cover2_2 (p0 : Vec F S4096x256 .f32) (y : S4096x256.Idx) :
    ∃ pc ∈ ([⟨r2_o, p0⟩] : List (View.Piece (Elt F) S4096x256 .f32)), y ∈ pc.1.set :=
  View.cover_of_tiled [⟨r2_o, p0⟩] S4096x256.size (by rfl) y

/-! ## The body's triple -/

set_option maxHeartbeats 1000000 in
/-- On whole staging memrefs, the inputs' at contents `x0`, `x1` and the output's at anything, the body runs to
    the continuation holding the inputs' as they were and the output's at `out2_2 x0 x1`. -/
theorem sound_kernel2 (c : Dev nD) (E : Set ℕ) (arg0 : Memref sig .tc .vmem S4096x128 .f32) (harg0 : arg0.IsWhole)
    (arg1 : Memref sig .tc .vmem S128x256 .f32) (harg1 : arg1.IsWhole) (arg2 : Memref sig .tc .vmem S4096x256 .f32) (harg2 : arg2.IsWhole)
    (x0 : Vec F S4096x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_kernel arg0 harg0 arg1 harg1 arg2 harg2) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body each input's buffer at its block and the output's at the
    product of the input blocks; the invariant the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Defs.lean ====
/-
  The last pallas_call — per (row block i, column block j) of the adjacency: `acc ← (j = 0 ? 0 : acc) + adj[i,j] · u[j]`,
  `struct[i,j] ← s1[i] · s1[j]ᵀ`, and at `j = 7` `feat[i] ← max acc 0 · sc + b` — as a pipeline over 64 points:
  the windows' blocks, the accumulator the kernel carries between points in its scratch buffer, the region
  invariant that names the scratch's contents, and the pipeline's proof data. Stated for any float instance.
  The two windows that read the rows and the columns of `s1` share one array and hold it at complementary shares.
-/
import proofs.«137728_g481036337837_cont_8to1_c_49_2_alg».proof.Proof.Gen.KernelIdeal.Launch
import proofs.«137728_g481036337837_cont_8to1_c_49_2_alg».proof.Proof.Gen.KernelIdeal.Skeleton
import proofs.«137728_g481036337837_cont_8to1_c_49_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator -/

/-- What the scratch buffer holds after the body at position `n`: at the first column block of a row block
    (`n ≡ 0 mod 8`) the product of the point's adjacency tile and `u` tile added to zero, elsewhere added to what the
    point before left. -/
def acc3 (c : Dev nD) : (n : ℕ) → n < cfg3.N → Vec F S512x256 .f32
  | 0, hn => k3_pay2 (k3_pay1 (F := F)) (iblk3 V c 0 ⟨0, hn⟩) (iblk3 V c 1 ⟨0, hn⟩)
  | n + 1, hn =>
    if (n + 1) % 8 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- At the first column block the accumulator restarts from zero. -/
theorem acc3_reset (c : Dev nD) (t : Fin cfg3.N) (h : t.val % 8 = 0) :
    acc3 V c t.val t.isLt = k3_pay2 (k3_pay1 (F := F)) (iblk3 V c 0 t) (iblk3 V c 1 t) := by
  obtain ⟨n, hn⟩ := t
  cases n with
  | zero => rfl
  | succ n => exact if_pos h

/-- Elsewhere it adds to what the point before left. -/
theorem acc3_step (c : Dev nD) (t : Fin cfg3.N) (h : ¬t.val % 8 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

/-! ## The region invariant -/

/-- The scratch operand: a whole scoped buffer of the kernel's own. -/
abbrev scM3 : Memref sig .tc .vmem S512x256 .f32 := Memref.whole cc3_scratch0

/-- Before the first point: the scoped buffers no window stages (the other calls' staging buffers and the scratch)
    at anything, and the generator register at some state. After point `n`: the same, with the scratch at the
    accumulator's value there. -/
def Phi3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c n hn)) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c n hn)) ∗ (∃ r, prngReg c r)) := rfl

theorem Phi3_pos (c : Dev nD) (n : ℕ) (h : n ≤ cfg3.N) (hz : n ≠ 0) :
    Phi3 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ owns (c : Thread nD τ) scM3 fullShare (acc3 V c (n - 1) (by omega))) ∗ (∃ r, prngReg c r)) := by
  cases n with
  | zero => exact absurd rfl hz
  | succ n => rfl

/-- The invariant before the first point, with the scratch as a memref owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ d, owns (c : Thread nD τ) scM3 fullShare d)) ∗ (∃ r, prngReg c r)) := by
  unfold Pipeline.ΦA; rw [scopedRest3_eq]; simp only [scM3, owns_whole]; try rfl

/-! ## The pipeline's proof data -/

/-- The arrays as the region finds them; after the body each input's buffer at its block, the structure output's at
    the product of the two `s1` blocks, the feature output's at the rectified, scaled and shifted accumulator; the
    invariant `Phi3`; nothing owed; the two windows on `s1` at the two halves of the full share, the rest full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay4 (acc3 V c t.val t.isLt) (iblk3 V c 4 t) (iblk3 V c 5 t)
    | ⟨7, _⟩ => k3_pay3 (iblk3 V c 2 t) (iblk3 V c 3 t)
  Φ t := Phi3 V c t.val (Nat.le_of_lt_succ t.isLt)
  q w := match w with
    | ⟨2, _⟩ => fullShare.left
    | ⟨3, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = k3_pay4 (acc3 V c t.val t.isLt) (iblk3 V c 4 t) (iblk3 V c 5 t) := by dsimp only [dat3]
theorem after3_7 (c : Dev nD) (t : Fin cfg3.N) : (dat3 V c).after 7 t = k3_pay3 (iblk3 V c 2 t) (iblk3 V c 3 t) := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

end Cert.KernelIdeal.Hand

end
-- ==== Proof.KI.R3.lean ====
/-
  The last pallas_call's body obligation. At grid point (row block i, column block j) the body restarts its scratch
  accumulator from zero when j = 0, adds the product of the adjacency tile and the `u` tile to it, stores the product
  of the two `s1` tiles into the structure output's buffer, and when j = 7 stores the accumulator, rectified, scaled
  and shifted, into the feature output's buffer. Three cases of the two conditions meet a point (first, middle and last
  column block); in each the body's triple is stated on whole memrefs at explicit contents, every access being the
  whole buffer, so that a covering store reads back as its payload and a load reads the contents. Over the proof data
  `dat3` the three cases give the obligation at every point: the invariant names the scratch's contents, the
  accumulator of the point before going in and this point's coming out, and the feature output's buffer, idle off the
  last column block, is handed back as found there. Stated for any float instance.
-/
import proofs.«137728_g481036337837_cont_8to1_c_49_2_alg».proof.Proof.Gen.KernelIdeal.Launch
import proofs.«137728_g481036337837_cont_8to1_c_49_2_alg».proof.Proof.Gen.KernelIdeal.Skeleton
import proofs.«137728_g481036337837_cont_8to1_c_49_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137728_g481036337837_cont_8to1_c_49_2_alg».proof.Proof.KI.R3Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions and the whole-buffer offsets -/

/-- The condition under which the body resets the scratch: the column block is the first. -/
abbrev cond3_0 (i : grid3.Coords) : Prop := (Scalar.cmpi .ne (Scalar.extui (Scalar.cmpi .eq (BitVec.ofNat 32 (i 1).val) 0#32)) 0#32) = 1#1
/-- The condition under which it stores the feature block: the column block is the last. -/
abbrev cond3_1 (i : grid3.Coords) : Prop := k3_cond2 i = 1#1

/-- Every access of the body is at offsets zero. -/
theorem hz3 : (![0, 0] : Fin 2 → Nat) = fun _ => 0 := funext fun a => by fin_cases a <;> rfl

/-- A store through the whole-buffer rectangle, made last, reads back as its payload, whatever the buffer held and
    whatever was stored before: the rectangle holds every index. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body's triple, case by case -/

set_option maxHeartbeats 1000000 in
/-- At a first column block that is not the last: on whole memrefs, the inputs' at `x0 … x5`, the feature output's at
    `xi6`, the structure output's and the scratch at anything, the body runs to the continuation holding the inputs' and
    the feature output's as they were, the structure output's at the product of the two `s1` blocks, and the scratch at
    the adjacency tile times the `u` tile added to zero. -/
theorem sound_kernel3_first (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : cond3_0 i) (hc1 : ¬cond3_1 i) (x0 : Vec F S512x512 .f32) (x1 : Vec F S512x256 .f32) (x2 x3 : Vec F S512x128 .f32) (x4 x5 : Vec F S1x256 .f32)
    (xi6 : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (k3_pay3 x2 x3)
            ∗ owns (c : Thread nD τ) arg10 fullShare (k3_pay2 (k3_pay1 (F := F)) x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

set_option maxHeartbeats 1000000 in
/-- At a column block neither first nor last: the same with the scratch found at `xs` and left at the tile product
    added to `xs`. -/
theorem sound_kernel3_mid (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : ¬cond3_0 i) (hc1 : ¬cond3_1 i) (x0 : Vec F S512x512 .f32) (x1 : Vec F S512x256 .f32) (x2 x3 : Vec F S512x128 .f32) (x4 x5 : Vec F S1x256 .f32)
    (xi6 : Vec F S512x256 .f32) (xs : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (k3_pay3 x2 x3)
            ∗ owns (c : Thread nD τ) arg10 fullShare (k3_pay2 xs x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

set_option maxHeartbeats 1000000 in
/-- At a last column block that is not the first: the scratch found at `xs` is left at the tile product added to
    `xs`, and the feature output's buffer, found at anything, at that sum rectified, scaled and shifted. -/
theorem sound_kernel3_last (c : Dev nD) (E : Set ℕ) (i : grid3.Coords) (arg2 : Memref sig .tc .vmem S512x512 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S512x256 .f32) (harg8 : arg8.IsWhole) (arg9 : Memref sig .tc .vmem S512x512 .f32) (harg9 : arg9.IsWhole)
    (arg10 : Memref sig .tc .vmem S512x256 .f32) (harg10 : arg10.IsWhole)
    (hc0 : ¬cond3_0 i) (hc1 : cond3_1 i) (x0 : Vec F S512x512 .f32) (x1 : Vec F S512x256 .f32) (x2 x3 : Vec F S512x128 .f32) (x4 x5 : Vec F S1x256 .f32)
    (xs : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k3_pay4 (k3_pay2 xs x0 x1) x4 x5) ∗ owns (c : Thread nD τ) arg9 fullShare (k3_pay3 x2 x3)
            ∗ owns (c : Thread nD τ) arg10 fullShare (k3_pay2 xs x0 x1)) -∗ K ⟨⟩))
      ⊢ wp frame (wpE (defs₀ (F := F)) Variants.none c none) E (cc3__layer2_kernel i arg2 harg2 arg3 harg3 arg4 harg4 arg5 harg5 arg6 harg6 arg7 harg7 arg8 harg8 arg9 harg9 arg10 harg10) K := by
  simp only [cc3__layer2_kernel_eq_skeleton]; unfold cc3__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  isplitl [H7]
  · iexists _; isplitr
    swap; · iexact H7
    ipureintro
    sl_unfold_words
    refine (read_writes_cons_whole _ _ hz3 _ _ _).trans ?_
    simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]
  iexists _; isplitr
  swap; · iexact HS
  ipureintro
  sl_unfold_words
  refine (read_writes_cons_whole _ _ hz3 _ _ _).trans ?_
  simp only [View.readCov_unit_zero (S := S512x256) _ hz3, View.readAt_eq_ld, View.ld_unit_zero (S := S512x512) hz3, View.ld_unit_zero (S := S512x256) hz3, View.ld_unit_zero (S := S512x128) hz3, View.ld_unit_zero (S := S1x256) hz3]

/-! ## The body's branch conditions, in closed form over the grid -/

/-- The reset condition holds at the first column block of each row block; -/
theorem hcond3_0 : ∀ t : Fin cfg3.N, cond3_0 (grid3.coords t) ↔ t.val % 8 = 0 :=
  (by decide +kernel : ∀ t : Fin grid3.N, cond3_0 (grid3.coords t) ↔ t.val % 8 = 0)
/-- the finishing condition at the last. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs and the structure output are stored or held at every point; -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl
theorem liveAt3_4 (t : Fin cfg3.N) : cfg3.idle 4 (grid3.coords t) = false := rfl
theorem liveAt3_5 (t : Fin cfg3.N) : cfg3.idle 5 (grid3.coords t) = false := rfl
theorem liveAt3_7 (t : Fin cfg3.N) : cfg3.idle 7 (grid3.coords t) = false := rfl
/-- the feature output is idle, and not written back, off the last column block, -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- and live at it. -/
theorem liveAt3_6 : ∀ t : Fin cfg3.N, cond3_1 (grid3.coords t) → cfg3.idle 6 (grid3.coords t) = false := by decide +kernel

/-! ## What the inputs' staging buffers hold -/

/-- An input's current staging buffer holds its block at every point, fetched there or not: where it is not fetched
    its block index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-! ## What the body leaves, window by window -/

/-- At a point live for a window the obligation's post for it is its buffer at `after`. -/
theorem leaves3_0 (c : Dev nD) (t : Fin cfg3.N) :
    (dat3 V c).leavesExact 0 t = owns (c : Thread nD τ) (st3_0 t) fullShare ((dat3 V c).after 0 t) := by
  unfold Dat.leavesExact; rw [liveAt3_0 t]
theorem leaves3_1 (c : Dev nD) (t : Fin cfg3.N) :
    (dat3 V c).leavesExact 1 t = owns (c : Thread nD τ) (st3_1 t) fullShare ((dat3 V c).after 1 t) := by
  unfold Dat.leavesExact; rw [liveAt3_1 t]
theorem leaves3_2 (c : Dev nD) (t : Fin cfg3.N) :
    (dat3 V c).leavesExact 2 t = owns (c : Thread nD τ) (st3_2 t) fullShare ((dat3 V c).after 2 t) := by
  unfold Dat.leavesExact; rw [liveAt3_2 t]
theorem leaves3_3 (c : Dev nD) (t : Fin cfg3.N) :
    (dat3 V c).leavesExact 3 t = owns (c : Thread nD τ) (st3_3 t) fullShare ((dat3 V c).after 3 t) := by
  unfold Dat.leavesExact; rw [liveAt3_3 t]
theorem leaves3_4 (c : Dev nD) (t : Fin cfg3.N) :
    (dat3 V c).leavesExact 4 t = owns (c : Thread nD τ) (st3_4 t) fullShare ((dat3 V c).after 4 t) := by
  unfold Dat.leavesExact; rw [liveAt3_4 t]
theorem leaves3_5 (c : Dev nD) (t : Fin cfg3.N) :
    (dat3 V c).leavesExact 5 t = owns (c : Thread nD τ) (st3_5 t) fullShare ((dat3 V c).after 5 t) := by
  unfold Dat.leavesExact; rw [liveAt3_5 t]
theorem leaves3_7 (c : Dev nD) (t : Fin cfg3.N) :
    (dat3 V c).leavesExact 7 t = owns (c : Thread nD τ) (st3_7 t) fullShare ((dat3 V c).after 7 t) := by
  unfold Dat.leavesExact; rw [liveAt3_7 t]
theorem leaves3_6 (c : Dev nD) (t : Fin cfg3.N) (h : cond3_1 (grid3.coords t)) :
    (dat3 V c).leavesExact 6 t = owns (c : Thread nD τ) (st3_6 t) fullShare ((dat3 V c).after 6 t) := by
  unfold Dat.leavesExact; rw [liveAt3_6 t h]

/-! ## The body obligation, at a generic point -/

/-- What the body is called with at point `t`: the invariant, what the core owes, and each window's current staging
    buffer at what it then holds; -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
/-- The body at any point. The inputs' buffers hold their blocks; the closed forms of the two conditions say which of
    the three cases the point is in; the invariant hands the body the scratch at the accumulator's value at the point
    before (at anything before the first point) and takes it back at this point's: the restart from zero at a first
    column block, the sum with what was there elsewhere. The feature output's buffer is handed back as found off the
    last column block, where it is idle and not written back, and holds the finished block at it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, leaves3_4, leaves3_5, leaves3_7,
    after3_0, after3_1, after3_2, after3_3, after3_4, after3_5, after3_7]
  have hN : t.val < 64 := lt_of_lt_of_eq t.isLt (show cfg3.N = 64 from N_3)
  by_cases h0 : t.val % 8 = 0
  · have h1 : ¬t.val % 8 = 7 := by omega
    rw [Dat.leavesExact_idle (dat3 V c) 6 t (idleAt3_6 t (fun h => h1 ((hcond3_1 t).mp h))) (noFlush3_6 t (fun h => h1 ((hcond3_1 t).mp h)))]
    rw [acc3_reset V c t h0]
    by_cases hz : t.val = 0
    · rw [Phi3_castSucc V c t, Phi3_zero V c _ _ hz, PhiA3_eq]
      iintro ⟨⟨⟨B0, B1, B2, B3, B4, B5, B6, B7, B8, B9, B10, B11, B12, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_first c Set.univ (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
    · rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_first c Set.univ (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
  · have hz : t.val ≠ 0 := by omega
    by_cases h1 : t.val % 8 = 7
    · rw [leaves3_6 V c t ((hcond3_1 t).mpr h1), after3_6]
      rw [acc3_step V c t h0]
      rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_last c Set.univ (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat3 V c) 6 t (idleAt3_6 t (fun h => h1 ((hcond3_1 t).mp h))) (noFlush3_6 t (fun h => h1 ((hcond3_1 t).mp h)))]
      rw [acc3_step V c t h0]
      rw [Phi3_castSucc V c t, Phi3_pos V c _ _ hz]
      iintro ⟨⟨⟨B0, B1, B2, B3, B4, B5, B6, B7, B8, B9, B10, B11, B12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_mid c Set.univ (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) ((dat3 V c).before 6 t d6) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [B0 B1 B2 B3 B4 B5 B6 B7 B8 B9 B10 B11 B12 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives it back: the scratch's named contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), PhiA3_eq]
  iintro ⟨⟨B0, B1, B2, B3, B4, B5, B6, B7, B8, B9, B10, B11, B12, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexists _; iexact HS
  iexact Hg

end Cert.KernelIdeal.Hand

end
-- ==== Proof.KI.Chain.lean ====
/-
  The program's four pallas_calls chained: what every unscoped buffer holds between two items of @main — the launch
  contents, then each host stretch's operations applied, then after each call its output array at what the pipeline's
  write-backs leave —, every pipeline's proof data at the contents its call is entered with, and each call as a segment
  between two such states. Stated for any float instance.
-/
import proofs.«137728_g481036337837_cont_8to1_c_49_2_alg».proof.Proof.KI.R0
import proofs.«137728_g481036337837_cont_8to1_c_49_2_alg».proof.Proof.KI.R1
import proofs.«137728_g481036337837_cont_8to1_c_49_2_alg».proof.Proof.KI.R2
import proofs.«137728_g481036337837_cont_8to1_c_49_2_alg».proof.Proof.KI.R3
import proofs.«137728_g481036337837_cont_8to1_c_49_2_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.SL.BI (bigSepL bigSep_eq_bigSepL_of_eq bigSepL_cons_cons bigSepL_singleton)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Before the first call: the launch contents with the first host stretch applied. -/
abbrev U1 (c : Dev nD) (b : Ref sig .tc) : Buf (Elt F) ((c : Thread nD τ).loc b) := V1 m c b
/-- After the first call: its output array `t` at what its one write-back leaves. -/
def W2 (c : Dev nD) : Valuation τ sig (Elt F) := Function.update (V1 m c) main_v13 ((dat0 (U1 m) c).arrAt 2 cfg0.N)
abbrev U2 (c : Dev nD) (b : Ref sig .tc) : Buf (Elt F) ((c : Thread nD τ).loc b) := W2 m c b
/-- After the second call: its output array `hs` at what its eight write-backs leave. -/
def W3 (c : Dev nD) : Valuation τ sig (Elt F) := Function.update (W2 m c) main_v14 ((dat1 (U2 m) c).arrAt 4 cfg1.N)
abbrev U3 (c : Dev nD) (b : Ref sig .tc) : Buf (Elt F) ((c : Thread nD τ).loc b) := W3 m c b
/-- After the two column slices. -/
def W4 (c : Dev nD) : Valuation τ sig (Elt F) := StableHlo.after hostOps2 (W3 m c)
abbrev U4 (c : Dev nD) (b : Ref sig .tc) : Buf (Elt F) ((c : Thread nD τ).loc b) := W4 m c b
/-- After the third call: its output array `u`. -/
def W5 (c : Dev nD) : Valuation τ sig (Elt F) := Function.update (W4 m c) main_v17 ((dat2 (U4 m) c).arrAt 2 cfg2.N)
abbrev U5 (c : Dev nD) (b : Ref sig .tc) : Buf (Elt F) ((c : Thread nD τ).loc b) := W5 m c b
/-- After the last call: the two result arrays. -/
def W6 (c : Dev nD) : Valuation τ sig (Elt F) :=
  Function.update (Function.update (W5 m c) main_v18_0 ((dat3 (U5 m) c).arrAt 6 cfg3.N)) main_v18_1 ((dat3 (U5 m) c).arrAt 7 cfg3.N)

/-- What the calls leave, as the family of contents the conditional run is stated over. -/
def outsK : Outs (F := F) := fun J r c =>
  match J with
  | 2 => W2 m c r
  | 3 => W3 m c r
  | 5 => W5 m c r
  | 6 => W6 m c r
  | _ => V0 m c r

theorem V2_eq (c : Dev nD) : V2 m (outsK m) c = W2 m c := by
  show Function.update (V1 m c) main_v13 (W2 m c main_v13) = W2 m c
  unfold W2; rw [Function.update_self]
theorem V3_eq (c : Dev nD) : V3 m (outsK m) c = W3 m c := by
  show Function.update (V2 m (outsK m) c) main_v14 (W3 m c main_v14) = W3 m c
  rw [V2_eq]; unfold W3; rw [Function.update_self]
theorem V4_eq (c : Dev nD) : V4 m (outsK m) c = W4 m c := by
  show StableHlo.after hostOps2 (V3 m (outsK m) c) = W4 m c
  rw [V3_eq]; rfl
theorem V5_eq (c : Dev nD) : V5 m (outsK m) c = W5 m c := by
  show Function.update (V4 m (outsK m) c) main_v17 (W5 m c main_v17) = W5 m c
  rw [V4_eq]; unfold W5; rw [Function.update_self]

/-! ## The proof data family -/

/-- Every pipeline's proof data, each at its call's entry contents. -/
def pdats : (p : Fin 4) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U4 m) c
  | ⟨3, _⟩ => fun c => dat3 (U5 m) c

/-! ## The thread state beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The calls as segments -/

/-! ### Call 0 -/

theorem W2_self (c : Dev nD) : W2 m c main_v13 = (dat0 (U1 m) c).arrAt 2 cfg0.N := by
  unfold W2; exact Function.update_self _ _ _
theorem W2_of_ne (c : Dev nD) (b : Ref sig .tc) (h : b ≠ main_v13) : W2 m c b = V1 m c b := by
  unfold W2; exact Function.update_of_ne (StableHlo.devRef_ne_of_ne h) _ _

theorem hF0 (c : Dev nD) (w : Fin cfg0.W) : (pdats m 0 c).arrAt w cfg0.N = U2 m c (Pipeline.arrRef spec0 w) := by
  match w with
  | ⟨0, _⟩ => exact (((pdats m 0 c).arrAt_in 0 rfl _).trans (A_eq0 (U1 m) c 0)).trans (W2_of_ne m c _ (by decide)).symm
  | ⟨1, _⟩ => exact (((pdats m 0 c).arrAt_in 1 rfl _).trans (A_eq0 (U1 m) c 1)).trans (W2_of_ne m c _ (by decide)).symm
  | ⟨2, _⟩ => exact (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

set_option backward.isDefEq.respectTransparency.types false in
/-- Call 0 as a segment: entered from every unscoped buffer at the contents before it, left at the contents after it;
    its arrays split out of the unscoped buffers and put back; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 1 -/

theorem W3_self (c : Dev nD) : W3 m c main_v14 = (dat1 (U2 m) c).arrAt 4 cfg1.N := by
  unfold W3; exact Function.update_self _ _ _
theorem W3_of_ne (c : Dev nD) (b : Ref sig .tc) (h : b ≠ main_v14) : W3 m c b = W2 m c b := by
  unfold W3; exact Function.update_of_ne (StableHlo.devRef_ne_of_ne h) _ _

theorem hF1 (c : Dev nD) (w : Fin cfg1.W) : (pdats m 1 c).arrAt w cfg1.N = U3 m c (Pipeline.arrRef spec1 w) := by
  match w with
  | ⟨0, _⟩ => exact (((pdats m 1 c).arrAt_in 0 rfl _).trans (A_eq1 (U2 m) c 0)).trans (W3_of_ne m c _ (by decide)).symm
  | ⟨1, _⟩ => exact (((pdats m 1 c).arrAt_in 1 rfl _).trans (A_eq1 (U2 m) c 1)).trans (W3_of_ne m c _ (by decide)).symm
  | ⟨2, _⟩ => exact (((pdats m 1 c).arrAt_in 2 rfl _).trans (A_eq1 (U2 m) c 2)).trans (W3_of_ne m c _ (by decide)).symm
  | ⟨3, _⟩ => exact (((pdats m 1 c).arrAt_in 3 rfl _).trans (A_eq1 (U2 m) c 3)).trans (W3_of_ne m c _ (by decide)).symm
  | ⟨4, _⟩ => exact (W3_self m c).symm
theorem hrest1 (c : Dev nD) : ∀ b, b ∉ Finset.univ.image (Pipeline.arrRef spec1) → U3 m c b = U2 m c b :=
  fun b hb => W3_of_ne m c b fun e => hb (Finset.mem_image.mpr ⟨4, Finset.mem_univ _, e.symm⟩)

set_option backward.isDefEq.respectTransparency.types false in
/-- Call 1 as a segment: entered from every unscoped buffer at the contents before it, left at the contents after it;
    its arrays split out of the unscoped buffers and put back; the generator register into the invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 2 -/

theorem W5_self (c : Dev nD) : W5 m c main_v17 = (dat2 (U4 m) c).arrAt 2 cfg2.N := by
  unfold W5; exact Function.update_self _ _ _
theorem W5_of_ne (c : Dev nD) (b : Ref sig .tc) (h : b ≠ main_v17) : W5 m c b = W4 m c b := by
  unfold W5; exact Function.update_of_ne (StableHlo.devRef_ne_of_ne h) _ _

theorem hF2 (c : Dev nD) (w : Fin cfg2.W) : (pdats m 2 c).arrAt w cfg2.N = U5 m c (Pipeline.arrRef spec2 w) := by
  match w with
  | ⟨0, _⟩ => exact (((pdats m 2 c).arrAt_in 0 rfl _).trans (A_eq2 (U4 m) c 0)).trans (W5_of_ne m c _ (by decide)).symm
  | ⟨1, _⟩ => exact (((pdats m 2 c).arrAt_in 1 rfl _).trans (A_eq2 (U4 m) c 1)).trans (W5_of_ne m c _ (by decide)).symm
  | ⟨2, _⟩ => exact (W5_self m c).symm
theorem hrest2 (c : Dev nD) : ∀ b, b ∉ Finset.univ.image (Pipeline.arrRef spec2) → U5 m c b = U4 m c b :=
  fun b hb => W5_of_ne m c b fun e => hb (Finset.mem_image.mpr ⟨2, Finset.mem_univ _, e.symm⟩)

set_option backward.isDefEq.respectTransparency.types false in
/-- Call 2 as a segment: entered from every unscoped buffer at the contents before it, left at the contents after it;
    its arrays split out of the unscoped buffers and put back; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last call: two of its windows read one array -/

theorem W6_v18_0 (c : Dev nD) : W6 m c main_v18_0 = (dat3 (U5 m) c).arrAt 6 cfg3.N := by
  unfold W6
  rw [Function.update_of_ne (StableHlo.devRef_ne_of_ne (by decide : main_v18_0 ≠ main_v18_1))]
  exact Function.update_self _ _ _
theorem W6_v18_1 (c : Dev nD) : W6 m c main_v18_1 = (dat3 (U5 m) c).arrAt 7 cfg3.N := by
  unfold W6; exact Function.update_self _ _ _
theorem W6_of_ne (c : Dev nD) (b : Ref sig .tc) (h0 : b ≠ main_v18_0) (h1 : b ≠ main_v18_1) : W6 m c b = W5 m c b := by
  unfold W6
  rw [Function.update_of_ne (StableHlo.devRef_ne_of_ne h1), Function.update_of_ne (StableHlo.devRef_ne_of_ne h0)]
abbrev U6 (c : Dev nD) (b : Ref sig .tc) : Buf (Elt F) ((c : Thread nD τ).loc b) := W6 m c b

theorem V6_eq (c : Dev nD) : V6 m (outsK m) c = W6 m c := by
  show Function.update (Function.update (V5 m (outsK m) c) main_v18_0 (W6 m c main_v18_0)) main_v18_1 (W6 m c main_v18_1) = W6 m c
  rw [V5_eq, W6_v18_0, W6_v18_1]; rfl

theorem hF3 (c : Dev nD) (w : Fin cfg3.W) : (pdats m 3 c).arrAt w cfg3.N = U6 m c (Pipeline.arrRef spec3 w) := by
  match w with
  | ⟨0, _⟩ => exact (((pdats m 3 c).arrAt_in 0 rfl _).trans (A_eq3 (U5 m) c 0)).trans (W6_of_ne m c _ (by decide) (by decide)).symm
  | ⟨1, _⟩ => exact (((pdats m 3 c).arrAt_in 1 rfl _).trans (A_eq3 (U5 m) c 1)).trans (W6_of_ne m c _ (by decide) (by decide)).symm
  | ⟨2, _⟩ => exact (((pdats m 3 c).arrAt_in 2 rfl _).trans (A_eq3 (U5 m) c 2)).trans (W6_of_ne m c _ (by decide) (by decide)).symm
  | ⟨3, _⟩ => exact (((pdats m 3 c).arrAt_in 3 rfl _).trans (A_eq3 (U5 m) c 3)).trans (W6_of_ne m c _ (by decide) (by decide)).symm
  | ⟨4, _⟩ => exact (((pdats m 3 c).arrAt_in 4 rfl _).trans (A_eq3 (U5 m) c 4)).trans (W6_of_ne m c _ (by decide) (by decide)).symm
  | ⟨5, _⟩ => exact (((pdats m 3 c).arrAt_in 5 rfl _).trans (A_eq3 (U5 m) c 5)).trans (W6_of_ne m c _ (by decide) (by decide)).symm
  | ⟨6, _⟩ => exact (W6_v18_0 m c).symm
  | ⟨7, _⟩ => exact (W6_v18_1 m c).symm

/-- The distinct buffers behind the last call's arrays. -/
theorem arrImage3 : Finset.univ.image (Pipeline.arrRef spec3) = ([main_arg1, main_v17, main_v16, main_v11, main_v12, main_v18_0, main_v18_1] : List (Ref sig .tc)).toFinset := by decide

section Shared

variable (V : (c : Dev nD) → (b : Ref sig .tc) → Buf (Elt F) ((c : Thread nD τ).loc b))

/-- The shares the last call's proof data hold its arrays at. -/
theorem share3_0 (c : Dev nD) : (dat3 V c).share 0 = fullShare := rfl
theorem share3_1 (c : Dev nD) : (dat3 V c).share 1 = fullShare := rfl
theorem share3_2 (c : Dev nD) : (dat3 V c).share 2 = fullShare.left := rfl
theorem share3_3 (c : Dev nD) : (dat3 V c).share 3 = fullShare.right := rfl
theorem share3_4 (c : Dev nD) : (dat3 V c).share 4 = fullShare := rfl
theorem share3_5 (c : Dev nD) : (dat3 V c).share 5 = fullShare := rfl
theorem share3_6 (c : Dev nD) : (dat3 V c).share 6 = fullShare := rfl
theorem share3_7 (c : Dev nD) : (dat3 V c).share 7 = fullShare := rfl

end Shared

section Shared

variable (V : (c : Dev nD) → (b : Ref sig .tc) → Buf (Elt F) ((c : Thread nD τ).loc b))

/-- The distinct buffers behind the last call's arrays, one by one. -/
theorem arrBufs3_eq (c : Dev nD) (Vv : (b : Ref sig .tc) → Buf (Elt F) ((c : Thread nD τ).loc b)) :
    (Pipeline.arrBufs (Ix := Unit) (Name := ℕ) (U := UR sig nD τ) (Lvl := ℕ) spec3 c Vv : sProp 𝕄)
      = iprop((((c : Thread nD τ).loc main_arg1) ↦{fullShare} Vv main_arg1)
        ∗ (((c : Thread nD τ).loc main_v17) ↦{fullShare} Vv main_v17)
        ∗ (((c : Thread nD τ).loc main_v16) ↦{fullShare} Vv main_v16)
        ∗ (((c : Thread nD τ).loc main_v11) ↦{fullShare} Vv main_v11)
        ∗ (((c : Thread nD τ).loc main_v12) ↦{fullShare} Vv main_v12)
        ∗ (((c : Thread nD τ).loc main_v18_0) ↦{fullShare} Vv main_v18_0)
        ∗ (((c : Thread nD τ).loc main_v18_1) ↦{fullShare} Vv main_v18_1)) := by
  unfold Pipeline.arrBufs; exact bigSep_eq_bigSepL_of_eq _ arrImage3 (by decide) _

/-- The last call's arrays as the proof data hold them: each a whole buffer, at its window's share. -/
theorem arrays3_eq (c : Dev nD) (Fw : (w : Fin cfg3.W) → Buf (Elt F) ((cfg3.win w).arr.view.loc (c.tc : Thread nD τ))) :
    (dat3 V c).arrays Fw
      = bigSep Finset.univ fun w : Fin cfg3.W => (((c : Thread nD τ).loc (Pipeline.arrRef spec3 w)) ↦{(dat3 V c).share w} Fw w : sProp 𝕄) := by
  unfold Dat.arrays
  exact bigSep_congr fun w _ => by rw [(arr_whole3 w).set_eq_univ]

/-- The buffers behind the last call's arrays, each whole at the full share, are its arrays as the proof data hold
    them: the array two windows read is split into the two halves of the full share. -/
theorem arr3_split (c : Dev nD) (Vv : (b : Ref sig .tc) → Buf (Elt F) ((c : Thread nD τ).loc b)) :
    (Pipeline.arrBufs (Ix := Unit) (Name := ℕ) (U := UR sig nD τ) (Lvl := ℕ) spec3 c Vv : sProp 𝕄)
      ⊢ (dat3 V c).arrays (fun w => Vv (Pipeline.arrRef spec3 w)) := by
  rw [arrBufs3_eq, arrays3_eq, bigSep_W3]
  iintro ⟨H0, H1, H23, H4, H5, H6, H7⟩
  ihave H23' := (pointsTo_share (PosShare.mem_left_op_right fullShare)).1 $$ H23
  icases H23' with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- And back: the two halves rejoin. -/
theorem arr3_join (c : Dev nD) (Vv : (b : Ref sig .tc) → Buf (Elt F) ((c : Thread nD τ).loc b)) :
    (dat3 V c).arrays (fun w => Vv (Pipeline.arrRef spec3 w))
      ⊢ (Pipeline.arrBufs (Ix := Unit) (Name := ℕ) (U := UR sig nD τ) (Lvl := ℕ) spec3 c Vv : sProp 𝕄) := by
  rw [arrBufs3_eq, arrays3_eq, bigSep_W3]
  iintro ⟨H0, H1, Ha, Hb, H4, H5, H6, H7⟩
  ihave H23 := (pointsTo_share (PosShare.mem_left_op_right fullShare)).2 $$ [Ha Hb]
  · isplitl [Ha]
    · iexact Ha
    iexact Hb
  isplitl [H0]; · iexact H0
  isplitl [H1]; · iexact H1
  isplitl [H23]; · iexact H23
  isplitl [H4]; · iexact H4
  isplitl [H5]; · iexact H5
  isplitl [H6]; · iexact H6
  iexact H7

end Shared

theorem hrest3 (c : Dev nD) : ∀ b, b ∉ Finset.univ.image (Pipeline.arrRef spec3) → U6 m c b = U5 m c b :=
  fun b hb => W6_of_ne m c b (fun e => hb (Finset.mem_image.mpr ⟨6, Finset.mem_univ _, e.symm⟩))
    (fun e => hb (Finset.mem_image.mpr ⟨7, Finset.mem_univ _, e.symm⟩))

section Last

set_option backward.isDefEq.respectTransparency.types false in
/-- The last call as a segment. Its arrays are split out of the unscoped buffers with the array two windows read dealt
    between them in two half shares, and put back with the halves rejoined; the rest as for the other calls. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (U5 m c)
  hentry c := by
    rw [Pipeline.ownSems0_none]
    have hsp := Pipeline.unscopedBufs_split₀ (Pipeline.pin (pcfgs (F := F)) adm) (3 : Fin 4) winFacts₀3.arr_unscoped c
      (Ix := Unit) (Name := ℕ) (U := UR sig nD τ) (Lvl := ℕ) (U5 m c)
    rw [Pipeline.unscopedBufs_held] at hsp
    have hsplit : StableHlo.held (c : Thread nD τ) (Pipeline.ucRefs τ sig) (W5 m c)
        ⊢ (iprop((pdats m 3 c).arrays ((pdats m 3 c).arrAt · 0)
            ∗ Pipeline.unscopedRest (Ix := Unit) (Name := ℕ) (U := UR sig nD τ) (Lvl := ℕ) spec3 c (U5 m c)) : sProp 𝕄) := by
      rw [hsp]; exact sep_mono (arr3_split (U5 m) c (U5 m c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (U5 m) c)
    unfold Pipeline.ΦA
    iintro ⟨Hp, -, Hr⟩
    isplitl [Hr]; · iexact Hr
    iexact Hp
  hout c := by
    rw [Pipeline.ownSems0_none]
    refine (hout3 (U5 m) c).trans ?_
    unfold Pipeline.ΦA
    iintro ⟨Hr, Hp⟩
    isplitl [Hp]; · iexact Hp
    isplitr; · iempintro
    iexact Hr
  hexit c := by
    have hsp := Pipeline.unscopedBufs_split₀ (Pipeline.pin (pcfgs (F := F)) adm) (3 : Fin 4) winFacts₀3.arr_unscoped c
      (Ix := Unit) (Name := ℕ) (U := UR sig nD τ) (Lvl := ℕ) (U6 m c)
    rw [Pipeline.unscopedBufs_held] at hsp
    have hjoin : (iprop((pdats m 3 c).arrays ((pdats m 3 c).arrAt · cfg3.N)
          ∗ Pipeline.unscopedRest (Ix := Unit) (Name := ℕ) (U := UR sig nD τ) (Lvl := ℕ) spec3 c (U5 m c)) : sProp 𝕄)
        ⊢ StableHlo.held (c : Thread nD τ) (Pipeline.ucRefs τ sig) (W6 m c) := by
      rw [hsp]
      refine sep_mono ?_ (Entails.of_eq ?_)
      · rw [show ((pdats m 3 c).arrAt · cfg3.N) = fun w => U6 m c (Pipeline.arrRef spec3 w) from funext (hF3 m c)]
        exact arr3_join (U5 m) c (U6 m c)
      · unfold Pipeline.unscopedRest
        exact bigSep_congr fun b hb => by rw [hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting, and every
    final memory holds each unscoped buffer at the last of the contents above: the arguments as launched (no item writes
    one) and the two result arrays at what the last call's write-backs leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  have h := run_cond m emb₁ () 𝒱₀ L lv (fun _ _ => rfl) ρ (outsK m) (pdats m) (O₀ := 0) (G := fun _ => (BI.emp : sProp 𝕄))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄)
          ⊢ bigSep Finset.univ (fun c : Dev nD => R c) := bigSep_mono fun c _ => hc c
      iintro ⟨H, -⟩
      imodintro
      iapply hmono; iexact H)
    (hE4 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V4_eq]; exact .rfl) (hpost2 := fun c => by rw [V5_eq]; exact .rfl)
    (R3 := reg3 m) (hpre3 := fun c => by rw [V5_eq]; exact .rfl) (hpost3 := fun c => by rw [V6_eq]; exact .rfl)
  refine (θ_run defs _ _).mono (fun _ h c b hb => ?_) h
  rw [h c b hb, V6_eq]

end Last

end Cert.KernelIdeal.Hand

end
-- ==== Proof.KI.Main.lean ====
/-
  The kernel program's run, whole: every weakly fair execution of @main terminates, nothing faulting, with each
  unscoped buffer at the contents the chain of calls and host operations computes — and, read at the argument arrays,
  the frame: they end as launched. Stated for any float instance.
-/
import proofs.«137728_g481036337837_cont_8to1_c_49_2_alg».proof.Proof.KI.Chain

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The run. -/
theorem run_main :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  run_all m ρ

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W6_main_arg0 (c : Dev nD) : W6 m c main_arg0 = m ((c : Thread nD τ).loc main_arg0) :=
  (congrFun (V6_eq m c).symm _).trans (V6_main_arg0 m (outsK m) c)
theorem W6_main_arg1 (c : Dev nD) : W6 m c main_arg1 = m ((c : Thread nD τ).loc main_arg1) :=
  (congrFun (V6_eq m c).symm _).trans (V6_main_arg1 m (outsK m) c)
theorem W6_main_arg2 (c : Dev nD) : W6 m c main_arg2 = m ((c : Thread nD τ).loc main_arg2) :=
  (congrFun (V6_eq m c).symm _).trans (V6_main_arg2 m (outsK m) c)
theorem W6_main_arg3 (c : Dev nD) : W6 m c main_arg3 = m ((c : Thread nD τ).loc main_arg3) :=
  (congrFun (V6_eq m c).symm _).trans (V6_main_arg3 m (outsK m) c)
theorem W6_main_arg4 (c : Dev nD) : W6 m c main_arg4 = m ((c : Thread nD τ).loc main_arg4) :=
  (congrFun (V6_eq m c).symm _).trans (V6_main_arg4 m (outsK m) c)
theorem W6_main_arg5 (c : Dev nD) : W6 m c main_arg5 = m ((c : Thread nD τ).loc main_arg5) :=
  (congrFun (V6_eq m c).symm _).trans (V6_main_arg5 m (outsK m) c)
theorem W6_main_arg6 (c : Dev nD) : W6 m c main_arg6 = m ((c : Thread nD τ).loc main_arg6) :=
  (congrFun (V6_eq m c).symm _).trans (V6_main_arg6 m (outsK m) c)
theorem W6_main_arg7 (c : Dev nD) : W6 m c main_arg7 = m ((c : Thread nD τ).loc main_arg7) :=
  (congrFun (V6_eq m c).symm _).trans (V6_main_arg7 m (outsK m) c)
theorem W6_main_arg8 (c : Dev nD) : W6 m c main_arg8 = m ((c : Thread nD τ).loc main_arg8) :=
  (congrFun (V6_eq m c).symm _).trans (V6_main_arg8 m (outsK m) c)
theorem W6_main_arg9 (c : Dev nD) : W6 m c main_arg9 = m ((c : Thread nD τ).loc main_arg9) :=
  (congrFun (V6_eq m c).symm _).trans (V6_main_arg9 m (outsK m) c)
theorem W6_main_arg10 (c : Dev nD) : W6 m c main_arg10 = m ((c : Thread nD τ).loc main_arg10) :=
  (congrFun (V6_eq m c).symm _).trans (V6_main_arg10 m (outsK m) c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c),
      (h c _ (mem_uc main_arg10 (by decide))).trans (W6_main_arg10 m c)⟩) (run_main m ρ)

end Cert.KernelIdeal.Hand

end
-- ==== Proof.Spec.lean ====
/-
  The mathematics both programs compute, on the extended reals, with matrices as functions of two coordinates.

  One graph-convolution layer with its batch normalisation folded, as the kernel spells it:
      layer adj x W g b  n j = max (∑ l, adj n l · (∑ q, x l q · W q j)) 0 · (g j · iv) + b j
  where `iv = 1 / √c` and `c` is the float32 nearest 1 + 10⁻⁵.  The reference divides the rectified sum by `√c`
  and then multiplies by `g j`; on the extended reals division by a nonzero real is the product with its
  reciprocal and the product is commutative and associative, so the two spellings agree everywhere (`layerRef_eq`).
  The feature output is two layers, the structure output the Gram matrix of one layer's rows.
-/
import Idealize.ShloMosaic.PureOps.Ideal
import Idealize.ShloMosaic.Lib.ValueIdx

noncomputable section

open scoped BigOperators

namespace Cert.Spec

open Idealize.ShloMosaic Idealize.ShloMosaic.ValueIdx

/-- A matrix as a function of its row and its column. -/
abbrev Mat (a b : ℕ) := Fin a → Fin b → EReal

/-- An array of rank 2 read by coordinates. -/
abbrev mat {a b : ℕ} (f : (⟨2, ![a, b]⟩ : Shape).Idx → EReal) : Mat a b := fun i j => f (ix2 i j)
/-- An array of rank 1 read by its coordinate. -/
abbrev vec {a : ℕ} (f : (⟨1, ![a]⟩ : Shape).Idx → EReal) : Fin a → EReal := fun i => f (ix1 i)

/-- The square root both programs take of the float32 nearest `1 + 10⁻⁵`. -/
def sC : EReal := Ideal.sqrt (Ideal.ofBits .f32 0x3F800054#32)
/-- Its reciprocal as the kernel's host code forms it: `1 / √c`. -/
def iv : EReal := Ideal.div (Ideal.ofBits .f32 0x3F800000#32) sC

/-- The rectifier. -/
def relu (x : EReal) : EReal := max x 0

/-- The matrix product. -/
def mm {a k b : ℕ} (x : Mat a k) (w : Mat k b) : Mat a b := fun i j => ∑ l : Fin k, x i l * w l j

/-- One layer, the normalisation's scale folded into the affine scale (the kernel's spelling). -/
def layer {K N : ℕ} (adj : Mat 4096 4096) (x : Mat 4096 K) (W : Mat K N) (g b : Fin N → EReal) : Mat 4096 N :=
  fun n j => relu (mm adj (mm x W) n j) * (g j * iv) + b j

/-- One layer as the reference spells it: divide by `√c`, then scale and shift. -/
def layerRef {K N : ℕ} (adj : Mat 4096 4096) (x : Mat 4096 K) (W : Mat K N) (g b : Fin N → EReal) : Mat 4096 N :=
  fun n j => Ideal.div (relu (mm adj (mm x W) n j)) sC * g j + b j

/-- The feature output: two layers. -/
def feat (adj : Mat 4096 4096) (y : Mat 4096 64) (W1 : Mat 64 128) (W2 : Mat 128 256)
    (g1 b1 : Fin 128 → EReal) (g2 b2 : Fin 256 → EReal) : Mat 4096 256 :=
  layer adj (layer adj y W1 g1 b1) W2 g2 b2

/-- The structure output: the Gram matrix of the rows of one layer. -/
def struct (adj : Mat 4096 4096) (y : Mat 4096 64) (W3 : Mat 64 128) (g3 b3 : Fin 128 → EReal) : Mat 4096 4096 :=
  fun r s => ∑ k : Fin 128, layer adj y W3 g3 b3 r k * layer adj y W3 g3 b3 s k

end Cert.Spec

end
-- ==== Proof.KI.R0Val.lean ====
/-
  The first matrix product's output array at the ideal values: every entry of `t` is the sum, over the contracted
  coordinate, of the products of an entry of `y` and an entry of the concatenated weights.
-/
import proofs.«137728_g481036337837_cont_8to1_c_49_2_alg».proof.Proof.KI.R0
import proofs.«137728_g481036337837_cont_8to1_c_49_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandVal

open Cert.KernelIdeal Cert.KernelIdeal.Gen Cert.KernelIdeal.Hand Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The product's operand indices, axis by axis -/

theorem lhs0_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs0_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs0_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs0_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-! ## The payload at an index -/

/-- The body's product at row `n`, column `j`: the sum over the contracted coordinate. -/
theorem pay0_apply (x0 : Vec Ideal S4096x64 .f32) (x1 : Vec Ideal S64x256 .f32) (n : Fin 4096) (j : Fin 256) :
    k0_pay1 x0 x1 (ix2 n j) = ∑ l : Fin 64, x0 (ix2 n l) * x1 (ix2 l j) := by
  unfold k0_pay1
  rw [shapeCast_self]
  refine (Ideal.matmul_constant_zero_apply dot_S4096x64_S64x256_S4096x256_1_0_0_1_n_n none x0 x1 (ix2 n j)).trans ?_
  rw [← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 n j) ((contrEquiv1 dot_S4096x64_S64x256_S4096x256_1_0_0_1_n_n 64 rfl rfl).symm k) = ix2 n k := funext fun a => Fin.ext (by
    match a with
    | ⟨0, _⟩ => exact lhs0_0 _ _
    | ⟨1, _⟩ => exact (lhs0_1 _ _).trans hk)
  have er : dot_S4096x64_S64x256_S4096x256_1_0_0_1_n_n.rhsIdx (ix2 n j) ((contrEquiv1 dot_S4096x64_S64x256_S4096x256_1_0_0_1_n_n 64 rfl rfl).symm k) = ix2 k j := funext fun a => Fin.ext (by
    match a with
    | ⟨0, _⟩ => exact (rhs0_0 _ _).trans hk
    | ⟨1, _⟩ => exact rhs0_1 _ _)
  rw [el, er]

/-! ## From the one block to the array -/

theorem hz0 : (![0, 0] : Fin 2 → Nat) = fun _ => 0 := funext fun a => by fin_cases a <;> rfl

/-- A window's block is the whole array at block index 0: its entry `(p, l)` is the array's entry `(p, l)`. -/
theorem iblk0_0_apply (c : Dev nD) (t : Fin cfg0.N) (p : Fin 4096) (l : Fin 64) :
    iblk0 V c 0 t (ix2 p l) = V c main_arg0 (ix2 p l) := by
  show V c main_arg0 (((cfg0.win 0).blk t).view.emb (ix2 p l)) = V c main_arg0 (ix2 p l)
  refine congrArg _ (funext fun a => Fin.ext ?_)
  match a with
  | ⟨0, _⟩ => show win0_0.index t (0 : Fin 2) * 4096 + 1 * p.val = p.val; rw [show win0_0.index t (0 : Fin 2) = 0 from rfl]; omega
  | ⟨1, _⟩ => show win0_0.index t (1 : Fin 2) * 64 + 1 * l.val = l.val; rw [show win0_0.index t (1 : Fin 2) = 0 from rfl]; omega
theorem iblk0_1_apply (c : Dev nD) (t : Fin cfg0.N) (l : Fin 64) (q : Fin 256) :
    iblk0 V c 1 t (ix2 l q) = V c main_v2 (ix2 l q) := by
  show V c main_v2 (((cfg0.win 1).blk t).view.emb (ix2 l q)) = V c main_v2 (ix2 l q)
  refine congrArg _ (funext fun a => Fin.ext ?_)
  match a with
  | ⟨0, _⟩ => show win0_1.index t (0 : Fin 2) * 64 + 1 * l.val = l.val; rw [show win0_1.index t (0 : Fin 2) = 0 from rfl]; omega
  | ⟨1, _⟩ => show win0_1.index t (1 : Fin 2) * 256 + 1 * q.val = q.val; rw [show win0_1.index t (1 : Fin 2) = 0 from rfl]; omega
/-- The output's block sits at the array's origin. -/
theorem emb0_2 (t : Fin cfg0.N) (p : Fin 4096) (q : Fin 256) :
    ((cfg0.win 2).blk t).view.emb (ix2 p q) = ix2 p q := by
  refine funext fun a => Fin.ext ?_
  match a with
  | ⟨0, _⟩ => show win0_2.index t (0 : Fin 2) * 4096 + 1 * p.val = p.val; rw [show win0_2.index t (0 : Fin 2) = 0 from rfl]; omega
  | ⟨1, _⟩ => show win0_2.index t (1 : Fin 2) * 256 + 1 * q.val = q.val; rw [show win0_2.index t (1 : Fin 2) = 0 from rfl]; omega

/-- The product of the two arrays as the region finds them, entry by entry. -/
def G0 (c : Dev nD) : S4096x256.Idx → EReal := fun i => mm (mat (V c main_arg0)) (mat (V c main_v2)) (i 0) (i 1)

/-- What the one point writes back is the whole of `G0`. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz0]
  simp only [View.ld_unit_zero (S := S4096x64) hz0, View.ld_unit_zero (S := S64x256) hz0]
  funext y
  obtain ⟨p, q, rfl⟩ : ∃ (p : Fin 4096) (q : Fin 256), y = ix2 p q := ⟨y 0, y 1, eq_ix2 y⟩
  show k0_pay1 (iblk0 V c 0 t) (iblk0 V c 1 t) (ix2 p q) = G0 V c (((cfg0.win 2).blk t).view.emb (ix2 p q))
  rw [emb0_2]
  refine (pay0_apply _ _ p q).trans ?_
  show _ = ∑ l : Fin 64, mat (V c main_arg0) p l * mat (V c main_v2) l q
  refine Finset.sum_congr rfl fun l _ => ?_
  rw [iblk0_0_apply, iblk0_1_apply]

/-- An index of the array is in the point's block iff each coordinate is in the block's range on its axis. -/
theorem mem_blk0 (t : Fin cfg0.N) (i : S4096x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v13).slice (win0_2.rect t)).set ↔ _
  rw [View.set_slice_whole, Rect.mem_set_unit]
  exact Iff.rfl

/-- The one block covers the array. -/
theorem cover0 (i : S4096x256.Idx) : ∃ t : Fin cfg0.N, (cfg0.win 2).flush t = true ∧ i ∈ ((cfg0.win 2).blk t).view.set := by
  refine ⟨t0_0, flush0_2 t0_0, ?_⟩
  rw [mem_blk0]
  intro a
  match a with
  | ⟨0, _⟩ => show win0_2.index t0_0 (0 : Fin 2) * 4096 ≤ (i 0).val ∧ (i 0).val < win0_2.index t0_0 (0 : Fin 2) * 4096 + 4096; rw [show win0_2.index t0_0 (0 : Fin 2) = 0 from rfl]; have := idx2_lt0 i; omega
  | ⟨1, _⟩ => show win0_2.index t0_0 (1 : Fin 2) * 256 ≤ (i 1).val ∧ (i 1).val < win0_2.index t0_0 (1 : Fin 2) * 256 + 256; rw [show win0_2.index t0_0 (1 : Fin 2) = 0 from rfl]; have := idx2_lt1 i; omega

/-- The output array after the call: the matrix product of the two input arrays. -/
theorem final0 (c : Dev nD) (n : Fin 4096) (j : Fin 256) :
    ((dat0 (F := Ideal) V c).arrAt 2 cfg0.N : S4096x256.Idx → EReal) (ix2 n j) = mm (mat (V c main_arg0)) (mat (V c main_v2)) n j :=
  congrFun ((dat0 (F := Ideal) V c).arrAt_eq_of_cover 2 (G0 V c) (fun t _ => flushed0_eq V c t) cover0) (ix2 n j)

end Cert.KernelIdeal.HandVal

end
-- ==== Proof.KI.R1Val.lean ====
/-
  The values the second pallas_call leaves in its output array, on the extended reals. Per block of 512 rows of the
  adjacency the body stores `max (adj_block · t) 0 · scale + shift`, the 1×256 rows `scale` and `shift` broadcast down the
  block. Here: the block product at an index as a sum over the 4096 contracted positions; the stored block at an index; each
  input block as entries of its array (the adjacency's block at point `t` is rows `512·t … 512·t + 511`, the matrix and the
  two rows are whole); what point `t` writes back as block `t` of one matrix `hs1`; the eight blocks tile the 4096 rows
  (row `r` lies in the block of point `r / 512`); so the output array ends holding
      hs1 n j = max (∑ l, adj n l · t l j) 0 · scale 0 j + shift 0 j.
-/
import proofs.«137728_g481036337837_cont_8to1_c_49_2_alg».proof.Proof.KI.R1
import proofs.«137728_g481036337837_cont_8to1_c_49_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The block product at an index -/

theorem lhs1_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs1_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs1_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs1_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product of a 512×4096 block and a 4096×256 matrix into the zero accumulator, at row `p` and column `q`, is the
    sum over the 4096 contracted positions of the products of the entries. -/
theorem matmul1_apply (x0 : FVec Ideal S512x4096 .f32) (x1 : FVec Ideal S4096x256 .f32) (p : Fin 512) (q : Fin 256) :
    matmul dot_S512x4096_S4096x256_S512x256_1_0_0_1_n_n none x0 x1 (constant (F := Ideal) S512x256 .f32 0x00000000#32) (ix2 p q)
      = ∑ k : Fin 4096, x0 (ix2 p k) * x1 (ix2 k q) := by
  refine (Ideal.matmul_constant_zero_apply dot_S512x4096_S4096x256_S512x256_1_0_0_1_n_n none x0 x1 (ix2 p q)).trans ?_
  rw [← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhs1_0 _ _
    | ⟨1, _⟩ => exact (lhs1_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhs1_0 _ _).trans hk
    | ⟨1, _⟩ => exact rhs1_1 _ _)
  rw [el, er]

/-! ## The body's payload at an index -/

/-- The stored block at row `p` and column `q`: the rectified product of the adjacency block and the matrix, times the
    scale row's entry, plus the shift row's entry. -/
theorem pay1_apply (v0 : Vec Ideal S512x4096 .f32) (v1 : Vec Ideal S4096x256 .f32) (v6 : Vec Ideal S1x256 .f32) (v10 : Vec Ideal S1x256 .f32)
    (p : Fin 512) (q : Fin 256) :
    k1_pay1 (F := Ideal) v0 v1 v6 v10 (ix2 p q)
      = max (∑ k : Fin 4096, v0 (ix2 p k) * v1 (ix2 k q)) 0 * v6 (ix2 (0 : Fin 1) q) + v10 (ix2 (0 : Fin 1) q) := by
  unfold k1_pay1
  simp only [shapeCast_self]
  show max (matmul dot_S512x4096_S4096x256_S512x256_1_0_0_1_n_n none v0 v1 (constant (F := Ideal) S512x256 .f32 0x00000000#32) (ix2 p q)) (Ideal.ofBits .f32 0x00000000#32)
      * broadcastTo S512x256 v6 broadcasts_S1x256_S512x256 (ix2 p q) + broadcastTo S512x256 v10 broadcasts_S1x256_S512x256 (ix2 p q) = _
  rw [matmul1_apply, Ideal.ofBits_zero_f32, broadcastTo_1b_ab_apply, broadcastTo_1b_ab_apply]

/-! ## The blocks the body reads, as entries of the arrays -/

theorem hz1 : (![0, 0] : Fin 2 → Nat) = fun _ => 0 := funext fun a => by
  match a with
  | ⟨0, _⟩ => rfl
  | ⟨1, _⟩ => rfl

/-- The store through the whole buffer leaves the payload of the four whole-buffer loads. -/
theorem out1_4_eq (x0 : Vec Ideal S512x4096 .f32) (x1 : Vec Ideal S4096x256 .f32) (x2 : Vec Ideal S1x256 .f32) (x3 : Vec Ideal S1x256 .f32) :
    out1_4 (F := Ideal) x0 x1 x2 x3 = k1_pay1 (F := Ideal) x0 x1 x2 x3 := by
  unfold out1_4
  rw [View.canon_unit_zero hz1]
  simp only [View.ld_unit_zero (S := S512x4096) hz1, View.ld_unit_zero (S := S4096x256) hz1, View.ld_unit_zero (S := S1x256) hz1]

/-- The block indices at a point: the adjacency's and the output's row block is the point's number, its column block 0;
    the matrix and the two rows are one block each. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 8 := lt_of_lt_of_eq t.isLt N_1

/-- Row `p` of the block of point `t` is row `512 · t + p` of the array. -/
abbrev row1 (t : Fin cfg1.N) (p : Fin 512) : Fin 4096 := ⟨512 * t.val + p.val, by have := lt_N1 t; have := p.isLt; omega⟩

abbrev adjBlk1 (c : Dev nD) (t : Fin cfg1.N) : Vec Ideal S512x4096 .f32 := iblk1 V c 0 t
abbrev tBlk1 (c : Dev nD) (t : Fin cfg1.N) : Vec Ideal S4096x256 .f32 := iblk1 V c 1 t
abbrev scaleBlk1 (c : Dev nD) (t : Fin cfg1.N) : Vec Ideal S1x256 .f32 := iblk1 V c 2 t
abbrev shiftBlk1 (c : Dev nD) (t : Fin cfg1.N) : Vec Ideal S1x256 .f32 := iblk1 V c 3 t

/-- The adjacency's block at point `t` is rows `512 · t … 512 · t + 511` of the adjacency, all columns. -/
theorem adjBlk1_apply (c : Dev nD) (t : Fin cfg1.N) (p : Fin 512) (k : Fin 4096) :
    adjBlk1 V c t (ix2 p k) = mat (V c main_arg1) (row1 t p) k := by
  obtain ⟨e0, e1, -⟩ := idx_facts1 t
  show ((cfg1.win 0).blk t).view.read (Elt Ideal) (V c (Pipeline.arrRef spec1 0)) (ix2 p k) = _
  rw [View.read_apply]
  show V c main_arg1 _ = V c main_arg1 _
  congr 1
  funext a
  apply Fin.ext
  match a with
  | ⟨0, _⟩ => show win1_0.index t (0 : Fin 2) * 512 + 1 * p.val = 512 * t.val + p.val; rw [e0]; omega
  | ⟨1, _⟩ => show win1_0.index t (1 : Fin 2) * 4096 + 1 * k.val = k.val; rw [e1]; omega

/-- The matrix's block at any point is the whole matrix. -/
theorem tBlk1_apply (c : Dev nD) (t : Fin cfg1.N) (k : Fin 4096) (q : Fin 256) :
    tBlk1 V c t (ix2 k q) = mat (V c main_v13) k q := by
  obtain ⟨-, -, e0, e1, -⟩ := idx_facts1 t
  show ((cfg1.win 1).blk t).view.read (Elt Ideal) (V c (Pipeline.arrRef spec1 1)) (ix2 k q) = _
  rw [View.read_apply]
  show V c main_v13 _ = V c main_v13 _
  congr 1
  funext a
  apply Fin.ext
  match a with
  | ⟨0, _⟩ => show win1_1.index t (0 : Fin 2) * 4096 + 1 * k.val = k.val; rw [e0]; omega
  | ⟨1, _⟩ => show win1_1.index t (1 : Fin 2) * 256 + 1 * q.val = q.val; rw [e1]; omega

/-- The scale row's block at any point is the whole row. -/
theorem scaleBlk1_apply (c : Dev nD) (t : Fin cfg1.N) (q : Fin 256) :
    scaleBlk1 V c t (ix2 (0 : Fin 1) q) = mat (V c main_v6) 0 q := by
  obtain ⟨-, -, -, -, e0, e1, -⟩ := idx_facts1 t
  show ((cfg1.win 2).blk t).view.read (Elt Ideal) (V c (Pipeline.arrRef spec1 2)) (ix2 (0 : Fin 1) q) = _
  rw [View.read_apply]
  show V c main_v6 _ = V c main_v6 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- The shift row's block at any point is the whole row. -/
theorem shiftBlk1_apply (c : Dev nD) (t : Fin cfg1.N) (q : Fin 256) :
    shiftBlk1 V c t (ix2 (0 : Fin 1) q) = mat (V c main_v8) 0 q := by
  obtain ⟨-, -, -, -, -, -, e0, e1, -⟩ := idx_facts1 t
  show ((cfg1.win 3).blk t).view.read (Elt Ideal) (V c (Pipeline.arrRef spec1 3)) (ix2 (0 : Fin 1) q) = _
  rw [View.read_apply]
  show V c main_v8 _ = V c main_v8 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-! ## What a point writes back, and the array after the last point -/

/-- The layer's output as a matrix: the rectified product of the adjacency and the matrix, scaled and shifted column by
    column. -/
def hs1 (c : Dev nD) : Mat 4096 256 := fun n j =>
  relu (mm (mat (V c main_arg1)) (mat (V c main_v13)) n j) * mat (V c main_v6) 0 j + mat (V c main_v8) 0 j

/-- The same as contents of the output array. -/
def G1 (c : Dev nD) : S4096x256.Idx → EReal := fun i => hs1 V c (i 0) (i 1)

/-- The block point `t` leaves in the staging buffer, at row `p` and column `q`, is the layer's output at row
    `512 · t + p` and column `q`. -/
theorem out1_apply (c : Dev nD) (t : Fin cfg1.N) (p : Fin 512) (q : Fin 256) :
    out1_4 (F := Ideal) (adjBlk1 V c t) (tBlk1 V c t) (scaleBlk1 V c t) (shiftBlk1 V c t) (ix2 p q) = hs1 V c (row1 t p) q := by
  rw [out1_4_eq, pay1_apply, scaleBlk1_apply, shiftBlk1_apply]
  unfold hs1 relu mm
  simp only [adjBlk1_apply, tBlk1_apply]

/-- What point `t` writes back is block `t` of the layer's output. -/
theorem flushed1_eq (c : Dev nD) (t : Fin cfg1.N) :
    (dat1 (F := Ideal) V c).flushed 4 t = ((cfg1.win 4).blk t).view.read (Elt Ideal) (G1 V c) := by
  obtain ⟨-, -, -, -, -, -, -, -, e0, e1⟩ := idx_facts1 t
  show (cfg1.win 4).cut (grid1.coords t) ((dat1 (F := Ideal) V c).after 4 t) = _
  rw [after1_4]
  funext j
  have hp : (j 0).val < 512 := (j 0).isLt
  have hq : (j 1).val < 256 := (j 1).isLt
  have ej : (cfg1.win 4).xinj (grid1.coords t) j = ix2 (⟨(j 0).val, hp⟩ : Fin 512) (⟨(j 1).val, hq⟩ : Fin 256) := funext fun a => by
    match a with
    | ⟨0, _⟩ => rfl
    | ⟨1, _⟩ => rfl
  rw [View.read_apply]
  show out1_4 (F := Ideal) (adjBlk1 V c t) (tBlk1 V c t) (scaleBlk1 V c t) (shiftBlk1 V c t) ((cfg1.win 4).xinj (grid1.coords t) j)
      = hs1 V c ((((cfg1.win 4).blk t).view.emb j) 0) ((((cfg1.win 4).blk t).view.emb j) 1)
  rw [ej, out1_apply]
  refine congrArg₂ (hs1 V c) (Fin.ext ?_) (Fin.ext ?_)
  · show 512 * t.val + (j 0).val = win1_4.index t (0 : Fin 2) * 512 + 1 * (j 0).val; rw [e0]; omega
  · show (j 1).val = win1_4.index t (1 : Fin 2) * 256 + 1 * (j 1).val; rw [e1]; omega

/-- An index of the output array is in point `t`'s block iff each coordinate is in the block's range on its axis. -/
theorem mem_blk1 (t : Fin cfg1.N) (i : S4096x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_v14).slice (win1_4.rect t)).set ↔ _
  rw [View.set_slice_whole, Rect.mem_set_unit]
  exact Iff.rfl

/-- The eight blocks tile the 4096 rows: row `r` is in the block of point `r / 512`. -/
theorem cover1 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht⟩ : ∃ t : Fin cfg1.N, t.val = (i 0).val / 512 := ⟨⟨(i 0).val / 512, by rw [show cfg1.N = 8 from N_1]; omega⟩, rfl⟩
  obtain ⟨-, -, -, -, -, -, -, -, e0, e1⟩ := idx_facts1 t
  refine ⟨t, flush1_4 t, ?_⟩
  rw [mem_blk1]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 256 ≤ (i 1).val ∧ (i 1).val < win1_4.index t (1 : Fin 2) * 256 + 256; rw [e1]; omega

/-- The output array after the last point: the layer's output, entry by entry. -/
theorem final1 (c : Dev nD) (n : Fin 4096) (j : Fin 256) :
    ((dat1 (F := Ideal) V c).arrAt 4 cfg1.N : S4096x256.Idx → EReal) (ix2 n j)
      = relu (mm (mat (V c main_arg1)) (mat (V c main_v13)) n j) * mat (V c main_v6) 0 j + mat (V c main_v8) 0 j :=
  congrFun ((dat1 (F := Ideal) V c).arrAt_eq_of_cover 4 (G1 V c) (fun t _ => flushed1_eq V c t) (cover1)) (ix2 n j)

end Cert.KernelIdeal.HandVal

end
-- ==== Proof.KI.R2Val.lean ====
/-
  The second matrix product's output array at the ideal values: every entry of `u` is the sum, over the contracted
  coordinate, of the products of an entry of `h` and an entry of the weights `W`.
-/
import proofs.«137728_g481036337837_cont_8to1_c_49_2_alg».proof.Proof.KI.R2
import proofs.«137728_g481036337837_cont_8to1_c_49_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandVal

open Cert.KernelIdeal Cert.KernelIdeal.Gen Cert.KernelIdeal.Hand Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The product's operand indices, axis by axis -/

theorem lhs2_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs2_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs2_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs2_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-! ## The payload at an index -/

/-- The body's product at row `n`, column `j`: the sum over the contracted coordinate. -/
theorem pay2_apply (x0 : Vec Ideal S4096x128 .f32) (x1 : Vec Ideal S128x256 .f32) (n : Fin 4096) (j : Fin 256) :
    k2_pay1 x0 x1 (ix2 n j) = ∑ l : Fin 128, x0 (ix2 n l) * x1 (ix2 l j) := by
  unfold k2_pay1
  rw [shapeCast_self]
  refine (Ideal.matmul_constant_zero_apply dot_S4096x128_S128x256_S4096x256_1_0_0_1_n_n none x0 x1 (ix2 n j)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 n j) ((contrEquiv1 dot_S4096x128_S128x256_S4096x256_1_0_0_1_n_n 128 rfl rfl).symm k) = ix2 n k := funext fun a => Fin.ext (by
    match a with
    | ⟨0, _⟩ => exact lhs2_0 _ _
    | ⟨1, _⟩ => exact (lhs2_1 _ _).trans hk)
  have er : dot_S4096x128_S128x256_S4096x256_1_0_0_1_n_n.rhsIdx (ix2 n j) ((contrEquiv1 dot_S4096x128_S128x256_S4096x256_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ## From the one block to the array -/

theorem hz2 : (![0, 0] : Fin 2 → Nat) = fun _ => 0 := funext fun a => by fin_cases a <;> rfl

/-- A window's block is the whole array at block index 0: its entry `(p, l)` is the array's entry `(p, l)`. -/
theorem iblk2_0_apply (c : Dev nD) (t : Fin cfg2.N) (p : Fin 4096) (l : Fin 128) :
    iblk2 V c 0 t (ix2 p l) = V c main_v15 (ix2 p l) := by
  show V c main_v15 (((cfg2.win 0).blk t).view.emb (ix2 p l)) = V c main_v15 (ix2 p l)
  refine congrArg _ (funext fun a => Fin.ext ?_)
  match a with
  | ⟨0, _⟩ => show win2_0.index t (0 : Fin 2) * 4096 + 1 * p.val = p.val; rw [show win2_0.index t (0 : Fin 2) = 0 from rfl]; omega
  | ⟨1, _⟩ => show win2_0.index t (1 : Fin 2) * 128 + 1 * l.val = l.val; rw [show win2_0.index t (1 : Fin 2) = 0 from rfl]; omega
theorem iblk2_1_apply (c : Dev nD) (t : Fin cfg2.N) (l : Fin 128) (q : Fin 256) :
    iblk2 V c 1 t (ix2 l q) = V c main_arg3 (ix2 l q) := by
  show V c main_arg3 (((cfg2.win 1).blk t).view.emb (ix2 l q)) = V c main_arg3 (ix2 l q)
  refine congrArg _ (funext fun a => Fin.ext ?_)
  match a with
  | ⟨0, _⟩ => show win2_1.index t (0 : Fin 2) * 128 + 1 * l.val = l.val; rw [show win2_1.index t (0 : Fin 2) = 0 from rfl]; omega
  | ⟨1, _⟩ => show win2_1.index t (1 : Fin 2) * 256 + 1 * q.val = q.val; rw [show win2_1.index t (1 : Fin 2) = 0 from rfl]; omega
/-- The output's block sits at the array's origin. -/
theorem emb2_2 (t : Fin cfg2.N) (p : Fin 4096) (q : Fin 256) :
    ((cfg2.win 2).blk t).view.emb (ix2 p q) = ix2 p q := by
  refine funext fun a => Fin.ext ?_
  match a with
  | ⟨0, _⟩ => show win2_2.index t (0 : Fin 2) * 4096 + 1 * p.val = p.val; rw [show win2_2.index t (0 : Fin 2) = 0 from rfl]; omega
  | ⟨1, _⟩ => show win2_2.index t (1 : Fin 2) * 256 + 1 * q.val = q.val; rw [show win2_2.index t (1 : Fin 2) = 0 from rfl]; omega

/-- The product of the two arrays as the region finds them, entry by entry. -/
def G2 (c : Dev nD) : S4096x256.Idx → EReal := fun i => mm (mat (V c main_v15)) (mat (V c main_arg3)) (i 0) (i 1)

/-- What the one point writes back is the whole of `G2`. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  unfold out2_2
  rw [View.canon_unit_zero hz2]
  simp only [View.ld_unit_zero (S := S4096x128) hz2, View.ld_unit_zero (S := S128x256) hz2]
  funext y
  obtain ⟨p, q, rfl⟩ : ∃ (p : Fin 4096) (q : Fin 256), y = ix2 p q := ⟨y 0, y 1, eq_ix2 y⟩
  show k2_pay1 (iblk2 V c 0 t) (iblk2 V c 1 t) (ix2 p q) = G2 V c (((cfg2.win 2).blk t).view.emb (ix2 p q))
  rw [emb2_2]
  refine (pay2_apply _ _ p q).trans ?_
  show _ = ∑ l : Fin 128, mat (V c main_v15) p l * mat (V c main_arg3) l q
  refine Finset.sum_congr rfl fun l _ => ?_
  rw [iblk2_0_apply, iblk2_1_apply]

/-- An index of the array is in the point's block iff each coordinate is in the block's range on its axis. -/
theorem mem_blk2 (t : Fin cfg2.N) (i : S4096x256.Idx) :
    i ∈ ((cfg2.win 2).blk t).view.set ↔ ∀ a : Fin 2, win2_2.index t a * S4096x256.size a ≤ (i a).val ∧ (i a).val < win2_2.index t a * S4096x256.size a + S4096x256.size a := by
  show i ∈ ((View.whole main_v17).slice (win2_2.rect t)).set ↔ _
  rw [View.set_slice_whole, Rect.mem_set_unit]
  exact Iff.rfl

/-- The one block covers the array. -/
theorem cover2 (i : S4096x256.Idx) : ∃ t : Fin cfg2.N, (cfg2.win 2).flush t = true ∧ i ∈ ((cfg2.win 2).blk t).view.set := by
  refine ⟨t2_0, flush2_2 t2_0, ?_⟩
  rw [mem_blk2]
  intro a
  match a with
  | ⟨0, _⟩ => show win2_2.index t2_0 (0 : Fin 2) * 4096 ≤ (i 0).val ∧ (i 0).val < win2_2.index t2_0 (0 : Fin 2) * 4096 + 4096; rw [show win2_2.index t2_0 (0 : Fin 2) = 0 from rfl]; have := idx2_lt0 i; omega
  | ⟨1, _⟩ => show win2_2.index t2_0 (1 : Fin 2) * 256 ≤ (i 1).val ∧ (i 1).val < win2_2.index t2_0 (1 : Fin 2) * 256 + 256; rw [show win2_2.index t2_0 (1 : Fin 2) = 0 from rfl]; have := idx2_lt1 i; omega

/-- The output array after the call: the matrix product of the two input arrays. -/
theorem final2 (c : Dev nD) (n : Fin 4096) (j : Fin 256) :
    ((dat2 (F := Ideal) V c).arrAt 2 cfg2.N : S4096x256.Idx → EReal) (ix2 n j) = mm (mat (V c main_v15)) (mat (V c main_arg3)) n j :=
  congrFun ((dat2 (F := Ideal) V c).arrAt_eq_of_cover 2 (G2 V c) (fun t _ => flushed2_eq V c t) cover2) (ix2 n j)

end Cert.KernelIdeal.HandVal

end
-- ==== Proof.KI.R3Val.lean ====
/-
  The values the last pallas_call leaves in its two output arrays, on the extended reals.
  Structure output: tile (i, j) is s1[rows of tile i] · s1[rows of tile j]ᵀ, a sum over the 128 columns; the 64 tiles
  cover the array, so it ends holding the Gram matrix of the rows of s1.
  Feature output: within row block i the accumulator after column block j holds the partial products of the
  adjacency's row block with u over the first j + 1 column blocks (addition on the extended reals is commutative and
  associative and 0 + x = x, so the 8 partial sums of 512 terms are the one sum of 4096); at j = 7 the block written
  back is the rectified full product, scaled and shifted by the two rows; the 8 blocks written back cover the array.
-/
import proofs.«137728_g481036337837_cont_8to1_c_49_2_alg».proof.Proof.KI.R3Defs
import proofs.«137728_g481036337837_cont_8to1_c_49_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Cert.Spec Idealize.ShloMosaic Idealize.ShloMosaic.ValueIdx
open Idealize.ShloMosaic.TcCoe
open Idealize.ShloMosaic.Pipeline (Dat)
open scoped BigOperators

variable (V : (c : Dev nD) → (b : Ref sig .tc) → Buf (Elt Ideal) ((c : Thread nD τ).loc b))

/-! ## The Gram tile's product at an index -/

theorem lhs_gram_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_gram_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_gram_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_gram_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The structure tile at row p and column q: the rows p and q of the two tiles of s1 multiplied entry by entry
    and summed over the 128 columns. -/
theorem k3pay3_apply (x y : Vec Ideal S512x128 .f32) (p q : Fin 512) :
    k3_pay3 x y (ix2 p q) = ∑ k : Fin 128, x (ix2 p k) * y (ix2 q k) := by
  unfold k3_pay3
  simp only [shapeCast_self]
  refine (Ideal.matmul_constant_zero_apply dot_S512x128_S512x128_S512x512_1_1_0_0_n_n none x y (ix2 p q)).trans ?_
  rw [← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 p q) ((ValueIdx.contrEquiv1 dot_S512x128_S512x128_S512x512_1_1_0_0_n_n 128 rfl rfl).symm k) = ix2 p k := funext fun a => Fin.ext (by
    match a with
    | ⟨0, _⟩ => exact lhs_gram_0 _ _
    | ⟨1, _⟩ => exact (lhs_gram_1 _ _).trans hk)
  have er : dot_S512x128_S512x128_S512x512_1_1_0_0_n_n.rhsIdx (ix2 p q) ((ValueIdx.contrEquiv1 dot_S512x128_S512x128_S512x512_1_1_0_0_n_n 128 rfl rfl).symm k) = ix2 q k := funext fun a => Fin.ext (by
    match a with
    | ⟨0, _⟩ => exact rhs_gram_0 _ _
    | ⟨1, _⟩ => exact (rhs_gram_1 _ _).trans hk)
  rw [el, er]

/-! ## Where each window's block sits -/

/-- The printed index maps over the 64 points: point t is row block t / 8 and column block t % 8. -/
theorem idx3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = t.val % 8 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val / 8 ∧ win3_6.index t (1 : Fin 2) = 0
    ∧ win3_7.index t (0 : Fin 2) = t.val / 8 ∧ win3_7.index t (1 : Fin 2) = t.val % 8 :=
  (by decide +kernel : ∀ t : Fin grid3.N, _)

theorem N3 : cfg3.N = 64 := by decide +kernel

/-- The adjacency tile of point t: rows 512·(t / 8) + p, columns 512·(t % 8) + q. -/
abbrev adjBlk (c : Dev nD) (t : Fin cfg3.N) : Vec Ideal S512x512 .f32 := iblk3 V c 0 t
/-- The tile of u of point t: rows 512·(t % 8) + p. -/
abbrev uBlk (c : Dev nD) (t : Fin cfg3.N) : Vec Ideal S512x256 .f32 := iblk3 V c 1 t
/-- The rows' tile of s1 of point t: rows 512·(t / 8) + p. -/
abbrev s1rBlk (c : Dev nD) (t : Fin cfg3.N) : Vec Ideal S512x128 .f32 := iblk3 V c 2 t
/-- The columns' tile of s1 of point t: rows 512·(t % 8) + p. -/
abbrev s1cBlk (c : Dev nD) (t : Fin cfg3.N) : Vec Ideal S512x128 .f32 := iblk3 V c 3 t
/-- The scale row. -/
abbrev scBlk (c : Dev nD) (t : Fin cfg3.N) : Vec Ideal S1x256 .f32 := iblk3 V c 4 t
/-- The shift row. -/
abbrev shBlk (c : Dev nD) (t : Fin cfg3.N) : Vec Ideal S1x256 .f32 := iblk3 V c 5 t

theorem adjBlk_apply (c : Dev nD) (t : Fin cfg3.N) (p q : Fin 512) (r s : Fin 4096)
    (hr : r.val = 512 * (t.val / 8) + p.val) (hs : s.val = 512 * (t.val % 8) + q.val) :
    adjBlk V c t (ix2 p q) = mat (V c main_arg1) r s := by
  obtain ⟨e0, e1, -⟩ := idx3 t
  unfold adjBlk iblk3
  rw [View.read_apply]
  show V c main_arg1 _ = V c main_arg1 _
  congr 1
  funext a
  apply Fin.ext
  match a with
  | ⟨0, _⟩ => show win3_0.index t (0 : Fin 2) * 512 + 1 * p.val = r.val; rw [e0, hr]; omega
  | ⟨1, _⟩ => show win3_0.index t (1 : Fin 2) * 512 + 1 * q.val = s.val; rw [e1, hs]; omega

theorem uBlk_apply (c : Dev nD) (t : Fin cfg3.N) (p : Fin 512) (q : Fin 256) (r : Fin 4096)
    (hr : r.val = 512 * (t.val % 8) + p.val) :
    uBlk V c t (ix2 p q) = mat (V c main_v17) r q := by
  obtain ⟨-, -, e0, e1, -⟩ := idx3 t
  unfold uBlk iblk3
  rw [View.read_apply]
  show V c main_v17 _ = V c main_v17 _
  congr 1
  funext a
  apply Fin.ext
  match a with
  | ⟨0, _⟩ => show win3_1.index t (0 : Fin 2) * 512 + 1 * p.val = r.val; rw [e0, hr]; omega
  | ⟨1, _⟩ => show win3_1.index t (1 : Fin 2) * 256 + 1 * q.val = q.val; rw [e1]; omega

theorem s1rBlk_apply (c : Dev nD) (t : Fin cfg3.N) (p : Fin 512) (k : Fin 128) (r : Fin 4096)
    (hr : r.val = 512 * (t.val / 8) + p.val) :
    s1rBlk V c t (ix2 p k) = mat (V c main_v16) r k := by
  obtain ⟨-, -, -, -, e0, e1, -⟩ := idx3 t
  unfold s1rBlk iblk3
  rw [View.read_apply]
  show V c main_v16 _ = V c main_v16 _
  congr 1
  funext a
  apply Fin.ext
  match a with
  | ⟨0, _⟩ => show win3_2.index t (0 : Fin 2) * 512 + 1 * p.val = r.val; rw [e0, hr]; omega
  | ⟨1, _⟩ => show win3_2.index t (1 : Fin 2) * 128 + 1 * k.val = k.val; rw [e1]; omega

theorem s1cBlk_apply (c : Dev nD) (t : Fin cfg3.N) (p : Fin 512) (k : Fin 128) (r : Fin 4096)
    (hr : r.val = 512 * (t.val % 8) + p.val) :
    s1cBlk V c t (ix2 p k) = mat (V c main_v16) r k := by
  obtain ⟨-, -, -, -, -, -, e0, e1, -⟩ := idx3 t
  unfold s1cBlk iblk3
  rw [View.read_apply]
  show V c main_v16 _ = V c main_v16 _
  congr 1
  funext a
  apply Fin.ext
  match a with
  | ⟨0, _⟩ => show win3_3.index t (0 : Fin 2) * 512 + 1 * p.val = r.val; rw [e0, hr]; omega
  | ⟨1, _⟩ => show win3_3.index t (1 : Fin 2) * 128 + 1 * k.val = k.val; rw [e1]; omega

theorem scBlk_apply (c : Dev nD) (t : Fin cfg3.N) (q : Fin 256) :
    scBlk V c t (ix2 (0 : Fin 1) q) = mat (V c main_v11) 0 q := by
  obtain ⟨-, -, -, -, -, -, -, -, e0, e1, -⟩ := idx3 t
  unfold scBlk iblk3
  rw [View.read_apply]
  show V c main_v11 _ = V c main_v11 _
  congr 1
  funext a
  apply Fin.ext
  match a with
  | ⟨0, _⟩ => show win3_4.index t (0 : Fin 2) * 1 + 1 * 0 = 0; rw [e0]
  | ⟨1, _⟩ => show win3_4.index t (1 : Fin 2) * 256 + 1 * q.val = q.val; rw [e1]; omega

theorem shBlk_apply (c : Dev nD) (t : Fin cfg3.N) (q : Fin 256) :
    shBlk V c t (ix2 (0 : Fin 1) q) = mat (V c main_v12) 0 q := by
  obtain ⟨-, -, -, -, -, -, -, -, -, -, e0, e1, -⟩ := idx3 t
  unfold shBlk iblk3
  rw [View.read_apply]
  show V c main_v12 _ = V c main_v12 _
  congr 1
  funext a
  apply Fin.ext
  match a with
  | ⟨0, _⟩ => show win3_5.index t (0 : Fin 2) * 1 + 1 * 0 = 0; rw [e0]
  | ⟨1, _⟩ => show win3_5.index t (1 : Fin 2) * 256 + 1 * q.val = q.val; rw [e1]; omega

/-! ## The structure output: 64 tiles of the Gram matrix of the rows of s1 -/

theorem lt_N3 {n : ℕ} (h : n < 64) : n < cfg3.N := by rw [N3]; exact h

/-- The Gram matrix of the rows of s1, as contents of the structure output's array. -/
abbrev gramArr (c : Dev nD) : S4096x4096.Idx → EReal := fun i =>
  ∑ k : Fin 128, mat (V c main_v16) ⟨(i 0).val, idx2_lt0 i⟩ k * mat (V c main_v16) ⟨(i 1).val, idx2_lt1 i⟩ k

/-- What point t writes back to the structure output is tile (t / 8, t % 8) of the Gram matrix: entry (p, q) of the
    tile multiplies rows 512·(t / 8) + p and 512·(t % 8) + q of s1. -/
theorem flushed7_eq (c : Dev nD) (t : Fin cfg3.N) :
    (dat3 (F := Ideal) V c).flushed 7 t = ((cfg3.win 7).blk t).view.read (Elt Ideal) (gramArr V c) := by
  show (cfg3.win 7).cut (grid3.coords t) ((dat3 (F := Ideal) V c).after 7 t) = _
  rw [after3_7]
  obtain ⟨-, -, -, -, -, -, -, -, -, -, -, -, -, -, e0, e1⟩ := idx3 t
  funext y
  have hy0 : (y 0).val < 512 := (y 0).isLt
  have hy1 : (y 1).val < 512 := (y 1).isLt
  have hx : ((cfg3.win 7).xinj (grid3.coords t) y : S512x512.Idx) = ix2 ⟨(y 0).val, hy0⟩ ⟨(y 1).val, hy1⟩ :=
    funext fun a => by match a with | ⟨0, _⟩ => rfl | ⟨1, _⟩ => rfl
  refine (congrArg (k3_pay3 (s1rBlk V c t) (s1cBlk V c t)) hx).trans ?_
  refine (k3pay3_apply _ _ _ _).trans ?_
  show _ = gramArr V c (((cfg3.win 7).blk t).view.emb y)
  refine Finset.sum_congr rfl fun k _ => ?_
  have h0 : ((((cfg3.win 7).blk t).view.emb y) 0).val = 512 * (t.val / 8) + (y 0).val := by
    show win3_7.index t (0 : Fin 2) * 512 + 1 * (y 0).val = _; rw [e0]; omega
  have h1 : ((((cfg3.win 7).blk t).view.emb y) 1).val = 512 * (t.val % 8) + (y 1).val := by
    show win3_7.index t (1 : Fin 2) * 512 + 1 * (y 1).val = _; rw [e1]; omega
  exact congrArg₂ (· * ·) (s1rBlk_apply V c t _ k _ h0) (s1cBlk_apply V c t _ k _ h1)

/-- An entry of the array is in point t's tile iff each coordinate is in the tile's range. -/
theorem mem_blk7 (t : Fin cfg3.N) (i : S4096x4096.Idx) :
    i ∈ ((cfg3.win 7).blk t).view.set ↔ ∀ a : Fin 2, win3_7.index t a * S512x512.size a ≤ (i a).val ∧ (i a).val < win3_7.index t a * S512x512.size a + S512x512.size a := by
  show i ∈ ((View.whole main_v18_1).slice (win3_7.rect t)).set ↔ _
  rw [View.set_slice_whole, Rect.mem_set_unit]
  exact Iff.rfl

/-- Entry (r, s) lies in the tile of point 8·(r / 512) + s / 512, and every point writes its tile back. -/
theorem cover7 (i : S4096x4096.Idx) :
    ∃ t : Fin cfg3.N, (cfg3.win 7).flush t = true ∧ i ∈ ((cfg3.win 7).blk t).view.set := by
  have hi0 : (i 0).val < 4096 := idx2_lt0 i
  have hi1 : (i 1).val < 4096 := idx2_lt1 i
  have hlt : 8 * ((i 0).val / 512) + (i 1).val / 512 < 64 := by omega
  refine ⟨⟨8 * ((i 0).val / 512) + (i 1).val / 512, lt_N3 hlt⟩, flush3_7 _, ?_⟩
  rw [mem_blk7]
  obtain ⟨-, -, -, -, -, -, -, -, -, -, -, -, -, -, e0, e1⟩ := idx3 ⟨8 * ((i 0).val / 512) + (i 1).val / 512, lt_N3 hlt⟩
  have e0' : win3_7.index ⟨8 * ((i 0).val / 512) + (i 1).val / 512, lt_N3 hlt⟩ (0 : Fin 2) = (8 * ((i 0).val / 512) + (i 1).val / 512) / 8 := e0
  have e1' : win3_7.index ⟨8 * ((i 0).val / 512) + (i 1).val / 512, lt_N3 hlt⟩ (1 : Fin 2) = (8 * ((i 0).val / 512) + (i 1).val / 512) % 8 := e1
  intro a
  match a with
  | ⟨0, _⟩ =>
    show win3_7.index _ (0 : Fin 2) * 512 ≤ (i 0).val ∧ (i 0).val < win3_7.index _ (0 : Fin 2) * 512 + 512
    rw [e0']; omega
  | ⟨1, _⟩ =>
    show win3_7.index _ (1 : Fin 2) * 512 ≤ (i 1).val ∧ (i 1).val < win3_7.index _ (1 : Fin 2) * 512 + 512
    rw [e1']; omega

/-- The structure output after the last point: the Gram matrix of the rows of s1. -/
theorem final3_struct (c : Dev nD) (r s : Fin 4096) :
    ((dat3 (F := Ideal) V c).arrAt 7 cfg3.N : S4096x4096.Idx → EReal) (ix2 r s)
      = ∑ k : Fin 128, mat (V c main_v16) r k * mat (V c main_v16) s k := by
  have h := (dat3 (F := Ideal) V c).arrAt_eq_of_cover 7 (gramArr V c) (fun t _ => flushed7_eq V c t) cover7
  exact congrFun h (ix2 r s)

/-! ## The accumulator's step and the feature tile at an index -/

theorem lhs_acc_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_acc_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_acc_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_acc_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The zero tile the accumulator restarts from. -/
theorem k3pay1_apply (p : Fin 512) (q : Fin 256) : (k3_pay1 (F := Ideal)) (ix2 p q) = 0 := by
  unfold k3_pay1
  simp only [shapeCast_self]
  show Ideal.ofBits .f32 0x00000000#32 = 0
  exact Ideal.ofBits_zero_f32

/-- One step of the accumulator at row p and column q: what it held plus row p of the adjacency tile times column q
    of the tile of u. -/
theorem k3pay2_apply (a : Vec Ideal S512x256 .f32) (x : Vec Ideal S512x512 .f32) (u : Vec Ideal S512x256 .f32)
    (p : Fin 512) (q : Fin 256) :
    k3_pay2 a x u (ix2 p q) = a (ix2 p q) + ∑ k : Fin 512, x (ix2 p k) * u (ix2 k q) := by
  unfold k3_pay2
  simp only [shapeCast_self]
  refine (addf_apply _ _ _).trans ?_
  refine congrArg (a (ix2 p q) + ·) ?_
  refine (Ideal.matmul_constant_zero_apply dot_S512x512_S512x256_S512x256_1_0_0_1_n_n none x u (ix2 p q)).trans ?_
  rw [← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p q) ((ValueIdx.contrEquiv1 dot_S512x512_S512x256_S512x256_1_0_0_1_n_n 512 rfl rfl).symm k) = ix2 p k := funext fun a => Fin.ext (by
    match a with
    | ⟨0, _⟩ => exact lhs_acc_0 _ _
    | ⟨1, _⟩ => exact (lhs_acc_1 _ _).trans hk)
  have er : dot_S512x512_S512x256_S512x256_1_0_0_1_n_n.rhsIdx (ix2 p q) ((ValueIdx.contrEquiv1 dot_S512x512_S512x256_S512x256_1_0_0_1_n_n 512 rfl rfl).symm k) = ix2 k q := funext fun a => Fin.ext (by
    match a with
    | ⟨0, _⟩ => exact (rhs_acc_0 _ _).trans hk
    | ⟨1, _⟩ => exact rhs_acc_1 _ _)
  rw [el, er]

/-- The feature tile at row p and column q: the accumulator rectified, times the scale row at q, plus the shift row
    at q. -/
theorem k3pay4_apply (a : Vec Ideal S512x256 .f32) (sc sh : Vec Ideal S1x256 .f32) (p : Fin 512) (q : Fin 256) :
    k3_pay4 a sc sh (ix2 p q) = relu (a (ix2 p q)) * sc (ix2 (0 : Fin 1) q) + sh (ix2 (0 : Fin 1) q) := by
  unfold k3_pay4
  simp only [shapeCast_self]
  show max (a (ix2 p q)) (Ideal.ofBits .f32 0x00000000#32) * broadcastTo S512x256 sc broadcasts_S1x256_S512x256 (ix2 p q)
      + broadcastTo S512x256 sh broadcasts_S1x256_S512x256 (ix2 p q) = _
  rw [broadcastTo_1b_ab_apply, broadcastTo_1b_ab_apply, Ideal.ofBits_zero_f32]
  rfl

/-! ## The accumulator: partial products of a row of the adjacency with a column of u -/

/-- What column block s of the adjacency contributes to entry (r, q) of adj · u: the 512 terms with column
    512·s + k. -/
def part (c : Dev nD) (r : Fin 4096) (q : Fin 256) (s : ℕ) : EReal :=
  if h : s < 8 then
    ∑ k : Fin 512, mat (V c main_arg1) r ⟨512 * s + k.val, by have := k.isLt; omega⟩
      * mat (V c main_v17) ⟨512 * s + k.val, by have := k.isLt; omega⟩ q
  else 0

/-- At point t the adjacency tile times the tile of u, at row p and column q, is that contribution of column block
    t % 8 to row 512·(t / 8) + p. -/
theorem block_term (c : Dev nD) (t : Fin cfg3.N) (p : Fin 512) (q : Fin 256) (r : Fin 4096)
    (hr : r.val = 512 * (t.val / 8) + p.val) :
    ∑ k : Fin 512, adjBlk V c t (ix2 p k) * uBlk V c t (ix2 k q) = part V c r q (t.val % 8) := by
  have h8 : t.val % 8 < 8 := Nat.mod_lt _ (by decide)
  unfold part
  rw [dif_pos h8]
  refine Finset.sum_congr rfl fun k _ => ?_
  have hk : k.val < 512 := k.isLt
  rw [adjBlk_apply V c t p k r ⟨512 * (t.val % 8) + k.val, by omega⟩ hr rfl,
    uBlk_apply V c t k q ⟨512 * (t.val % 8) + k.val, by omega⟩ rfl]

/-- After point n = 8·i + j the accumulator holds, at row p and column q, the contributions of column blocks 0 … j to
    row 512·i + p: by induction on the point, restarting from zero where j = 0 and adding one block's contribution
    elsewhere. -/
theorem acc3_at (c : Dev nD) (p : Fin 512) (q : Fin 256) (r : Fin 4096) :
    ∀ (n : ℕ) (hn : n < cfg3.N), r.val = 512 * (n / 8) + p.val →
      (acc3 V c n hn : Vec Ideal S512x256 .f32) (ix2 p q) = ∑ s ∈ Finset.range (n % 8 + 1), part V c r q s
  | 0, hn, hr => by
    refine (congrFun (acc3_reset V c ⟨0, hn⟩ rfl) (ix2 p q)).trans ?_
    refine (k3pay2_apply _ (adjBlk V c ⟨0, hn⟩) (uBlk V c ⟨0, hn⟩) p q).trans ?_
    rw [k3pay1_apply, zero_add, block_term V c ⟨0, hn⟩ p q r hr]
    exact (Finset.sum_range_one _).symm
  | n + 1, hn, hr => by
    by_cases h8 : (n + 1) % 8 = 0
    · refine (congrFun (acc3_reset V c ⟨n + 1, hn⟩ h8) (ix2 p q)).trans ?_
      refine (k3pay2_apply _ (adjBlk V c ⟨n + 1, hn⟩) (uBlk V c ⟨n + 1, hn⟩) p q).trans ?_
      rw [k3pay1_apply, zero_add, block_term V c ⟨n + 1, hn⟩ p q r hr]
      show part V c r q ((n + 1) % 8) = _
      rw [h8]
      exact (Finset.sum_range_one _).symm
    · refine (congrFun (acc3_step V c ⟨n + 1, hn⟩ h8) (ix2 p q)).trans ?_
      refine (k3pay2_apply _ (adjBlk V c ⟨n + 1, hn⟩) (uBlk V c ⟨n + 1, hn⟩) p q).trans ?_
      rw [block_term V c ⟨n + 1, hn⟩ p q r hr]
      have ih := acc3_at c p q r n (Nat.lt_of_succ_lt hn) (by omega)
      have e : (n + 1) % 8 = n % 8 + 1 := by omega
      show acc3 V c n _ (ix2 p q) + part V c r q ((n + 1) % 8) = _
      rw [ih, e, Finset.sum_range_succ _ (n % 8 + 1)]

/-- The 8 contributions are the whole sum over the 4096 columns: 4096 = 8 · 512, reassociated. -/
theorem sum_parts (c : Dev nD) (r : Fin 4096) (q : Fin 256) :
    ∑ s ∈ Finset.range 8, part V c r q s = mm (mat (V c main_arg1)) (mat (V c main_v17)) r q := by
  rw [Finset.sum_range]
  show _ = ∑ l : Fin (8 * 512), mat (V c main_arg1) r l * mat (V c main_v17) l q
  rw [← Equiv.sum_comp finProdFinEquiv, Fintype.sum_prod_type]
  refine Finset.sum_congr rfl fun s _ => ?_
  unfold part
  rw [dif_pos s.isLt]
  refine Finset.sum_congr rfl fun k _ => ?_
  have hk : k.val < 512 := k.isLt
  have hs : s.val < 8 := s.isLt
  have e : (finProdFinEquiv (s, k) : Fin (8 * 512)) = ⟨512 * s.val + k.val, by omega⟩ :=
    Fin.ext (by show k.val + 512 * s.val = 512 * s.val + k.val; omega)
  rw [e]

/-! ## The feature output: 8 row blocks of the rectified, scaled and shifted product -/

/-- The rectified product adj · u, scaled and shifted column by column, as contents of the feature output's array. -/
abbrev featArr (c : Dev nD) : S4096x256.Idx → EReal := fun i =>
  relu (mm (mat (V c main_arg1)) (mat (V c main_v17)) ⟨(i 0).val, idx2_lt0 i⟩ ⟨(i 1).val, idx2_lt1 i⟩)
    * mat (V c main_v11) 0 ⟨(i 1).val, idx2_lt1 i⟩ + mat (V c main_v12) 0 ⟨(i 1).val, idx2_lt1 i⟩

/-- A point that writes the feature block back is the last column block of its row block (t % 8 = 7): the
    accumulator there is the whole product for rows 512·(t / 8) + p, and the block is its rectified, scaled and
    shifted value. -/
theorem flushed6_eq (c : Dev nD) (t : Fin cfg3.N) (hf : (cfg3.win 6).flush t = true) :
    (dat3 (F := Ideal) V c).flushed 6 t = ((cfg3.win 6).blk t).view.read (Elt Ideal) (featArr V c) := by
  have h7 : t.val % 8 = 7 := (flush3_6 t).mp hf
  show (cfg3.win 6).cut (grid3.coords t) ((dat3 (F := Ideal) V c).after 6 t) = _
  rw [after3_6]
  obtain ⟨-, -, -, -, -, -, -, -, -, -, -, -, e0, e1, -⟩ := idx3 t
  funext y
  have hy0 : (y 0).val < 512 := (y 0).isLt
  have hy1 : (y 1).val < 256 := (y 1).isLt
  have hx : ((cfg3.win 6).xinj (grid3.coords t) y : S512x256.Idx) = ix2 ⟨(y 0).val, hy0⟩ ⟨(y 1).val, hy1⟩ :=
    funext fun a => by match a with | ⟨0, _⟩ => rfl | ⟨1, _⟩ => rfl
  refine (congrArg (k3_pay4 (acc3 V c t.val t.isLt) (scBlk V c t) (shBlk V c t)) hx).trans ?_
  refine (k3pay4_apply _ _ _ _ _).trans ?_
  show _ = featArr V c (((cfg3.win 6).blk t).view.emb y)
  have h0 : ((((cfg3.win 6).blk t).view.emb y) 0).val = 512 * (t.val / 8) + (y 0).val := by
    show win3_6.index t (0 : Fin 2) * 512 + 1 * (y 0).val = _; rw [e0]; omega
  have h1 : ((((cfg3.win 6).blk t).view.emb y) 1).val = (y 1).val := by
    show win3_6.index t (1 : Fin 2) * 256 + 1 * (y 1).val = _; rw [e1]; omega
  have hq : (⟨((((cfg3.win 6).blk t).view.emb y) 1).val, idx2_lt1 (((cfg3.win 6).blk t).view.emb y)⟩ : Fin 256) = ⟨(y 1).val, hy1⟩ :=
    Fin.ext h1
  show _ = relu (mm (mat (V c main_arg1)) (mat (V c main_v17)) ⟨((((cfg3.win 6).blk t).view.emb y) 0).val, _⟩ ⟨((((cfg3.win 6).blk t).view.emb y) 1).val, _⟩)
    * mat (V c main_v11) 0 ⟨((((cfg3.win 6).blk t).view.emb y) 1).val, _⟩ + mat (V c main_v12) 0 ⟨((((cfg3.win 6).blk t).view.emb y) 1).val, _⟩
  rw [hq, scBlk_apply, shBlk_apply,
    acc3_at V c ⟨(y 0).val, hy0⟩ ⟨(y 1).val, hy1⟩ ⟨((((cfg3.win 6).blk t).view.emb y) 0).val, idx2_lt0 _⟩ t.val t.isLt h0,
    h7, sum_parts]

/-- An entry of the array is in point t's block iff each coordinate is in the block's range. -/
theorem mem_blk6 (t : Fin cfg3.N) (i : S4096x256.Idx) :
    i ∈ ((cfg3.win 6).blk t).view.set ↔ ∀ a : Fin 2, win3_6.index t a * S512x256.size a ≤ (i a).val ∧ (i a).val < win3_6.index t a * S512x256.size a + S512x256.size a := by
  show i ∈ ((View.whole main_v18_0).slice (win3_6.rect t)).set ↔ _
  rw [View.set_slice_whole, Rect.mem_set_unit]
  exact Iff.rfl

/-- Row r lies in the block of point 8·(r / 512) + 7, a point that writes its block back. -/
theorem cover6 (i : S4096x256.Idx) :
    ∃ t : Fin cfg3.N, (cfg3.win 6).flush t = true ∧ i ∈ ((cfg3.win 6).blk t).view.set := by
  have hi0 : (i 0).val < 4096 := idx2_lt0 i
  have hi1 : (i 1).val < 256 := idx2_lt1 i
  have hlt : 8 * ((i 0).val / 512) + 7 < 64 := by omega
  refine ⟨⟨8 * ((i 0).val / 512) + 7, lt_N3 hlt⟩, (flush3_6 _).mpr (by show (8 * ((i 0).val / 512) + 7) % 8 = 7; omega), ?_⟩
  rw [mem_blk6]
  obtain ⟨-, -, -, -, -, -, -, -, -, -, -, -, e0, e1, -⟩ := idx3 ⟨8 * ((i 0).val / 512) + 7, lt_N3 hlt⟩
  have e0' : win3_6.index ⟨8 * ((i 0).val / 512) + 7, lt_N3 hlt⟩ (0 : Fin 2) = (8 * ((i 0).val / 512) + 7) / 8 := e0
  intro a
  match a with
  | ⟨0, _⟩ =>
    show win3_6.index _ (0 : Fin 2) * 512 ≤ (i 0).val ∧ (i 0).val < win3_6.index _ (0 : Fin 2) * 512 + 512
    rw [e0']; omega
  | ⟨1, _⟩ =>
    show win3_6.index _ (1 : Fin 2) * 256 ≤ (i 1).val ∧ (i 1).val < win3_6.index _ (1 : Fin 2) * 256 + 256
    rw [e1]; omega

/-- The feature output after the last point: relu (adj · u) scaled and shifted by the two rows. -/
theorem final3_feat (c : Dev nD) (n : Fin 4096) (j : Fin 256) :
    ((dat3 (F := Ideal) V c).arrAt 6 cfg3.N : S4096x256.Idx → EReal) (ix2 n j)
      = relu (mm (mat (V c main_arg1)) (mat (V c main_v17)) n j) * mat (V c main_v11) 0 j + mat (V c main_v12) 0 j := by
  have h := (dat3 (F := Ideal) V c).arrAt_eq_of_cover 6 (featArr V c) (flushed6_eq V c) cover6
  exact congrFun h (ix2 n j)

end Cert.KernelIdeal.HandVal

end
-- ==== Proof.KI.HostVals.lean ====
/-
  What the host operations of the program write, read at an index, at the ideal instance.

  Before the first two kernel regions the host forms the scalar `1 / √c`, joins the two branches' first-layer
  weights side by side, joins their scales and shifts end to end, multiplies every scale by the scalar, and
  presents each vector as a `1 × 256` row.  Between the second and the third region it cuts the second region's
  output into its left and right halves of 128 columns.  Each statement below reads one of these arrays at a
  coordinate: a reshape keeps the row-major position, a broadcast of a scalar is that scalar everywhere, a product
  is the product of the entries, a two-piece concatenation reads the first piece below the seam and the second
  piece, shifted by the first's extent, from the seam on, and a slice reads the source shifted by its offset.
-/
import proofs.«137728_g481036337837_cont_8to1_c_49_2_alg».proof.Proof.Gen.KernelIdeal.Regions
import proofs.«137728_g481036337837_cont_8to1_c_49_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandVal

open Cert.KernelIdeal Cert.KernelIdeal.Gen Cert.Spec
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal))

/-! ## The scalar `1 / √c` -/

/-- The scalar the host forms: the constant one divided by the square root of the constant `c`. -/
abbrev ivS : FVec Ideal S_ .f32 :=
  Host.divf (constant (F := Ideal) S_ .f32 0x3F800000#32) (Host.sqrt (constant (F := Ideal) S_ .f32 0x3F800054#32))

/-- At its one index the scalar is `iv`: the host quotient is the ideal quotient, the host square root the ideal
    square root, and a constant is the real its bits denote. -/
theorem ivS_apply (i : S_.Idx) : ivS i = iv := rfl

/-- The scalar broadcast to a vector of 256 entries is `iv` at every entry. -/
theorem bcast_iv (j : Fin 256) : broadcastInDim S256 ![] bcast_S_S256 ivS (ix1 j) = iv :=
  (broadcastInDim_apply _ _ _ _ ix0 (fun a => a.elim0)).trans (ivS_apply _)

/-! ## Two pieces of 128 joined -/

/-- Two vectors of 128 entries joined end to end: below the seam the first, from the seam on the second, shifted. -/
theorem cat1_apply {α : Type} (x₁ x₂ : S128.Idx → α) (j : Fin 256) :
    concatenate S256 0 [⟨S128, x₁⟩, ⟨S128, x₂⟩] concatenates_S128_S128_S256_d0 (ix1 j)
      = if h : j.val < 128 then x₁ (ix1 ⟨j.val, h⟩) else x₂ (ix1 ⟨j.val - 128, by have := j.isLt; omega⟩) := by
  by_cases h : j.val < 128
  · rw [dif_pos h]
    exact concatenate_pair_apply_left 0 x₁ x₂ _ (ix1 j) rfl (ix1 ⟨j.val, h⟩) (fun b => match b with | ⟨0, _⟩ => rfl)
  · rw [dif_neg h]
    exact concatenate_pair_apply_right 0 x₁ x₂ _ (ix1 j) rfl rfl (ix1 ⟨j.val - 128, by have := j.isLt; omega⟩)
      (fun b => match b with | ⟨0, _⟩ => fun hb => absurd rfl hb)
      (by show j.val - 128 + 128 = j.val; omega)

/-- Two `64 × 128` matrices joined side by side: left of the seam the first, from the seam on the second, its
    column shifted; the row is kept. -/
theorem cat2_apply {α : Type} (x₁ x₂ : S64x128.Idx → α) (k : Fin 64) (j : Fin 256) :
    concatenate S64x256 1 [⟨S64x128, x₁⟩, ⟨S64x128, x₂⟩] concatenates_S64x128_S64x128_S64x256_d1 (ix2 k j)
      = if h : j.val < 128 then x₁ (ix2 k ⟨j.val, h⟩) else x₂ (ix2 k ⟨j.val - 128, by have := j.isLt; omega⟩) := by
  by_cases h : j.val < 128
  · rw [dif_pos h]
    exact concatenate_pair_apply_left 1 x₁ x₂ _ (ix2 k j) rfl (ix2 k ⟨j.val, h⟩)
      (fun b => match b with | ⟨0, _⟩ => rfl | ⟨1, _⟩ => rfl)
  · rw [dif_neg h]
    exact concatenate_pair_apply_right 1 x₁ x₂ _ (ix2 k j) rfl rfl (ix2 k ⟨j.val - 128, by have := j.isLt; omega⟩)
      (fun b => match b with | ⟨0, _⟩ => fun _ => rfl | ⟨1, _⟩ => fun hb => absurd rfl hb)
      (by show j.val - 128 + 128 = j.val; omega)

/-! ## The arrays as terms over the launch contents -/

/-- The joined first-layer weights. -/
theorem term_v2 (c : Dev nD) :
    (V1 m c main_v2 : S64x256.Idx → EReal) =
      concatenate S64x256 1 [⟨S64x128, (m ((c : Thread nD τ).loc main_arg2) : S64x128.Idx → EReal)⟩,
        ⟨S64x128, (m ((c : Thread nD τ).loc main_arg4) : S64x128.Idx → EReal)⟩] concatenates_S64x128_S64x128_S64x256_d1 := by
  dsimp only [V1, hostOps0]; after_results; all_goals rfl

/-- The joined first-layer scales, each times the scalar, as a row. -/
theorem term_v6 (c : Dev nD) :
    (V1 m c main_v6 : S1x256.Idx → EReal) =
      shapeCast S1x256 (mulf (F := Ideal) (φ := .f32)
        (concatenate S256 0 [⟨S128, (m ((c : Thread nD τ).loc main_arg5) : S128.Idx → EReal)⟩,
          ⟨S128, (m ((c : Thread nD τ).loc main_arg9) : S128.Idx → EReal)⟩] concatenates_S128_S128_S256_d0)
        (broadcastInDim S256 ![] bcast_S_S256 ivS)) shapeCasts_S256_S1x256 := by
  dsimp only [V1, hostOps0]; after_results; all_goals rfl

/-- The joined first-layer shifts, as a row. -/
theorem term_v8 (c : Dev nD) :
    (V1 m c main_v8 : S1x256.Idx → EReal) =
      shapeCast S1x256
        (concatenate S256 0 [⟨S128, (m ((c : Thread nD τ).loc main_arg6) : S128.Idx → EReal)⟩,
          ⟨S128, (m ((c : Thread nD τ).loc main_arg10) : S128.Idx → EReal)⟩] concatenates_S128_S128_S256_d0)
        shapeCasts_S256_S1x256 := by
  dsimp only [V1, hostOps0]; after_results; all_goals rfl

/-- The second-layer scale times the scalar, as a row. -/
theorem term_v11 (c : Dev nD) :
    (V1 m c main_v11 : S1x256.Idx → EReal) =
      shapeCast S1x256 (mulf (F := Ideal) (φ := .f32) (m ((c : Thread nD τ).loc main_arg7) : S256.Idx → EReal)
        (broadcastInDim S256 ![] bcast_S_S256 ivS)) shapeCasts_S256_S1x256 := by
  dsimp only [V1, hostOps0]; after_results; all_goals rfl

/-- The second-layer shift, as a row. -/
theorem term_v12 (c : Dev nD) :
    (V1 m c main_v12 : S1x256.Idx → EReal) =
      shapeCast S1x256 (m ((c : Thread nD τ).loc main_arg8) : S256.Idx → EReal) shapeCasts_S256_S1x256 := by
  dsimp only [V1, hostOps0]; after_results; all_goals rfl

/-- The left half of the second region's output. -/
theorem term_v15 (c : Dev nD) :
    (V4 m outs c main_v15 : S4096x128.Idx → EReal) =
      extractStridedSlice S4096x128 ![0, 0] (V3 m outs c main_v14 : S4096x256.Idx → EReal) slices_S4096x256_S4096x128_0_0 := by
  dsimp only [V4, hostOps2]; after_results; all_goals rfl

/-- The right half of the second region's output. -/
theorem term_v16 (c : Dev nD) :
    (V4 m outs c main_v16 : S4096x128.Idx → EReal) =
      extractStridedSlice S4096x128 ![0, 128] (V3 m outs c main_v14 : S4096x256.Idx → EReal) slices_S4096x256_S4096x128_0_128 := by
  dsimp only [V4, hostOps2]; after_results; all_goals rfl

/-! ## The arrays read at a coordinate -/

/-- The joined weights: columns below 128 are the first branch's, the others the second branch's. -/
theorem hv_v2 (c : Dev nD) (k : Fin 64) (j : Fin 256) :
    mat (V1 m c main_v2 : (⟨2, ![64, 256]⟩ : Shape).Idx → EReal) k j
      = if h : j.val < 128 then mat (m ((c : Thread nD τ).loc main_arg2) : (⟨2, ![64, 128]⟩ : Shape).Idx → EReal) k ⟨j.val, h⟩
        else mat (m ((c : Thread nD τ).loc main_arg4) : (⟨2, ![64, 128]⟩ : Shape).Idx → EReal) k ⟨j.val - 128, by have := j.isLt; omega⟩ := by
  show (V1 m c main_v2 : S64x256.Idx → EReal) (ix2 k j) = _
  rw [term_v2, cat2_apply]

/-- The first-layer scale row: the joined scales, each times `iv`. -/
theorem hv_v6 (c : Dev nD) (j : Fin 256) :
    mat (V1 m c main_v6 : (⟨2, ![1, 256]⟩ : Shape).Idx → EReal) 0 j
      = (if h : j.val < 128 then vec (m ((c : Thread nD τ).loc main_arg5) : (⟨1, ![128]⟩ : Shape).Idx → EReal) ⟨j.val, h⟩
        else vec (m ((c : Thread nD τ).loc main_arg9) : (⟨1, ![128]⟩ : Shape).Idx → EReal) ⟨j.val - 128, by have := j.isLt; omega⟩) * iv := by
  show (V1 m c main_v6 : S1x256.Idx → EReal) (ix2 0 j) = _
  rw [term_v6, shapeCast_a_1a_apply, mulf_apply, bcast_iv, cat1_apply]

/-- The first-layer shift row: the joined shifts. -/
theorem hv_v8 (c : Dev nD) (j : Fin 256) :
    mat (V1 m c main_v8 : (⟨2, ![1, 256]⟩ : Shape).Idx → EReal) 0 j
      = if h : j.val < 128 then vec (m ((c : Thread nD τ).loc main_arg6) : (⟨1, ![128]⟩ : Shape).Idx → EReal) ⟨j.val, h⟩
        else vec (m ((c : Thread nD τ).loc main_arg10) : (⟨1, ![128]⟩ : Shape).Idx → EReal) ⟨j.val - 128, by have := j.isLt; omega⟩ := by
  show (V1 m c main_v8 : S1x256.Idx → EReal) (ix2 0 j) = _
  rw [term_v8, shapeCast_a_1a_apply, cat1_apply]

/-- The second-layer scale row: the scale times `iv`. -/
theorem hv_v11 (c : Dev nD) (j : Fin 256) :
    mat (V1 m c main_v11 : (⟨2, ![1, 256]⟩ : Shape).Idx → EReal) 0 j
      = vec (m ((c : Thread nD τ).loc main_arg7) : (⟨1, ![256]⟩ : Shape).Idx → EReal) j * iv := by
  show (V1 m c main_v11 : S1x256.Idx → EReal) (ix2 0 j) = _
  rw [term_v11, shapeCast_a_1a_apply, mulf_apply, bcast_iv]

/-- The second-layer shift row: the shift. -/
theorem hv_v12 (c : Dev nD) (j : Fin 256) :
    mat (V1 m c main_v12 : (⟨2, ![1, 256]⟩ : Shape).Idx → EReal) 0 j
      = vec (m ((c : Thread nD τ).loc main_arg8) : (⟨1, ![256]⟩ : Shape).Idx → EReal) j := by
  show (V1 m c main_v12 : S1x256.Idx → EReal) (ix2 0 j) = _
  rw [term_v12, shapeCast_a_1a_apply]

/-- The left half: column `j` of the second region's output. -/
theorem hv_v15 (c : Dev nD) (n : Fin 4096) (j : Fin 128) :
    mat (V4 m outs c main_v15 : (⟨2, ![4096, 128]⟩ : Shape).Idx → EReal) n j
      = mat (V3 m outs c main_v14 : (⟨2, ![4096, 256]⟩ : Shape).Idx → EReal) n ⟨j.val, by have := j.isLt; omega⟩ := by
  show (V4 m outs c main_v15 : S4096x128.Idx → EReal) (ix2 n j) = _
  rw [term_v15]
  exact slice2_axis1_apply 0 _ _ n j ⟨j.val, by have := j.isLt; omega⟩ (Nat.zero_add _).symm

/-- The right half: column `j + 128` of the second region's output. -/
theorem hv_v16 (c : Dev nD) (n : Fin 4096) (j : Fin 128) :
    mat (V4 m outs c main_v16 : (⟨2, ![4096, 128]⟩ : Shape).Idx → EReal) n j
      = mat (V3 m outs c main_v14 : (⟨2, ![4096, 256]⟩ : Shape).Idx → EReal) n ⟨j.val + 128, by have := j.isLt; omega⟩ := by
  show (V4 m outs c main_v16 : S4096x128.Idx → EReal) (ix2 n j) = _
  rw [term_v16]
  exact slice2_axis1_apply 128 _ _ n j ⟨j.val + 128, by have := j.isLt; omega⟩ (Nat.add_comm _ _)

end Cert.KernelIdeal.HandVal

end
-- ==== Proof.KI.KIValue.lean ====
/-
  What the kernel program leaves in its two result arrays, at the ideal instance, as the mathematics of Spec.lean:
  the four calls' values composed through the host operations between them. The joined first layer is one layer on
  the joined weights, scales and shifts; its left half of columns is the feature branch's hidden layer and its right
  half the structure branch's, because a matrix product's column depends on that column of the right factor only.
-/
import proofs.«137728_g481036337837_cont_8to1_c_49_2_alg».proof.Proof.KI.Chain
import proofs.«137728_g481036337837_cont_8to1_c_49_2_alg».proof.Proof.KI.R0Val
import proofs.«137728_g481036337837_cont_8to1_c_49_2_alg».proof.Proof.KI.R1Val
import proofs.«137728_g481036337837_cont_8to1_c_49_2_alg».proof.Proof.KI.R2Val
import proofs.«137728_g481036337837_cont_8to1_c_49_2_alg».proof.Proof.KI.R3Val
import proofs.«137728_g481036337837_cont_8to1_c_49_2_alg».proof.Proof.KI.HostVals

noncomputable section

open scoped BigOperators

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ)

/-! ## Buffers no item writes keep their contents -/

theorem W4_keep (c : Dev nD) (r : Ref sig .tc) (h : r ∉ hostOps2_W) : W4 m c r = W3 m c r :=
  StableHlo.after_of_writes_sub hostOps2 _ hostOps2_writes h

/-- A buffer that neither the first two calls nor the two slices write holds before the third call what it held before the first. -/
theorem keep4 (c : Dev nD) (r : Ref sig .tc) (h13 : r ≠ main_v13) (h14 : r ≠ main_v14) (h2 : r ∉ hostOps2_W) :
    U4 m c r = U1 m c r :=
  (W4_keep m c r h2).trans ((W3_of_ne m c r h14).trans (W2_of_ne m c r h13))
/-- The same before the last call. -/
theorem keep5 (c : Dev nD) (r : Ref sig .tc) (h13 : r ≠ main_v13) (h14 : r ≠ main_v14) (h2 : r ∉ hostOps2_W) (h17 : r ≠ main_v17) :
    U5 m c r = U1 m c r :=
  (W5_of_ne m c r h17).trans (keep4 m c r h13 h14 h2)
/-- An argument holds its launch contents before the first call. -/
theorem U1_arg (c : Dev nD) (r : Ref sig .tc) (h : r ∉ hostOps0_W) : U1 m c r = m ((c : Thread nD τ).loc r) :=
  V1_of m c r h

/-! ## The first two calls: one layer on the joined weights -/

/-- The first call's output: the product of the features with the joined weights. -/
theorem t_eq (c : Dev nD) (l : Fin 4096) (j : Fin 256) :
    mat (U2 m c main_v13) l j = mm (mat (m ((c : Thread nD τ).loc main_arg0))) (mat (U1 m c main_v2)) l j := by
  show (W2 m c main_v13 : S4096x256.Idx → EReal) (ix2 l j) = _
  rw [W2_self, final0 (U1 m) c l j, U1_arg m c main_arg0 (by decide)]

/-- The second call's output: the joined layer. -/
theorem hs_eq (c : Dev nD) (n : Fin 4096) (j : Fin 256) :
    mat (U3 m c main_v14) n j
      = relu (mm (mat (m ((c : Thread nD τ).loc main_arg1))) (mat (U2 m c main_v13)) n j) * mat (U1 m c main_v6) 0 j + mat (U1 m c main_v8) 0 j := by
  show (W3 m c main_v14 : S4096x256.Idx → EReal) (ix2 n j) = _
  rw [W3_self, final1 (U2 m) c n j,
    show U2 m c main_arg1 = m ((c : Thread nD τ).loc main_arg1) from (W2_of_ne m c main_arg1 (by decide)).trans (U1_arg m c main_arg1 (by decide)),
    show U2 m c main_v6 = U1 m c main_v6 from W2_of_ne m c main_v6 (by decide),
    show U2 m c main_v8 = U1 m c main_v8 from W2_of_ne m c main_v8 (by decide)]

/-- The left half of the joined layer's columns is the feature branch's hidden layer. -/
theorem h_eq (c : Dev nD) (n : Fin 4096) (q : Fin 128) :
    mat (U4 m c main_v15) n q
      = layer (mat (m ((c : Thread nD τ).loc main_arg1))) (mat (m ((c : Thread nD τ).loc main_arg0))) (mat (m ((c : Thread nD τ).loc main_arg2)))
          (vec (m ((c : Thread nD τ).loc main_arg5))) (vec (m ((c : Thread nD τ).loc main_arg6))) n q := by
  have hq : (q.val : ℕ) < 128 := q.isLt
  have h15 := hv_v15 m (outsK m) c n q
  rw [V4_eq, V3_eq] at h15
  refine h15.trans ?_
  refine (hs_eq m c n ⟨q.val, by omega⟩).trans ?_
  rw [hv_v6 m c ⟨q.val, by omega⟩, hv_v8 m c ⟨q.val, by omega⟩]
  unfold layer mm
  simp only [t_eq m c, hv_v2 m c, dif_pos hq, mm]

/-- The right half is the structure branch's layer. -/
theorem s1_eq (c : Dev nD) (n : Fin 4096) (q : Fin 128) :
    mat (U4 m c main_v16) n q
      = layer (mat (m ((c : Thread nD τ).loc main_arg1))) (mat (m ((c : Thread nD τ).loc main_arg0))) (mat (m ((c : Thread nD τ).loc main_arg4)))
          (vec (m ((c : Thread nD τ).loc main_arg9))) (vec (m ((c : Thread nD τ).loc main_arg10))) n q := by
  have hq : ¬((q.val + 128 : ℕ) < 128) := by omega
  have h16 := hv_v16 m (outsK m) c n q
  rw [V4_eq, V3_eq] at h16
  refine h16.trans ?_
  refine (hs_eq m c n ⟨q.val + 128, by have := q.isLt; omega⟩).trans ?_
  rw [hv_v6 m c ⟨q.val + 128, by have := q.isLt; omega⟩, hv_v8 m c ⟨q.val + 128, by have := q.isLt; omega⟩]
  unfold layer mm
  simp only [t_eq m c, hv_v2 m c, dif_neg hq, mm, Nat.add_sub_cancel]

/-! ## The last two calls -/

/-- The third call's output: the hidden layer times the second weights. -/
theorem u_eq (c : Dev nD) (k : Fin 4096) (j : Fin 256) :
    mat (U5 m c main_v17) k j = mm (mat (U4 m c main_v15)) (mat (m ((c : Thread nD τ).loc main_arg3))) k j := by
  show (W5 m c main_v17 : S4096x256.Idx → EReal) (ix2 k j) = _
  rw [W5_self, final2 (U4 m) c k j,
    show U4 m c main_arg3 = m ((c : Thread nD τ).loc main_arg3) from (keep4 m c main_arg3 (by decide) (by decide) (by decide)).trans (U1_arg m c main_arg3 (by decide))]

/-- THE FEATURE RESULT. -/
theorem kernel_feat (c : Dev nD) (n : Fin 4096) (j : Fin 256) :
    mat (U6 m c main_v18_0) n j
      = feat (mat (m ((c : Thread nD τ).loc main_arg1))) (mat (m ((c : Thread nD τ).loc main_arg0))) (mat (m ((c : Thread nD τ).loc main_arg2)))
          (mat (m ((c : Thread nD τ).loc main_arg3))) (vec (m ((c : Thread nD τ).loc main_arg5))) (vec (m ((c : Thread nD τ).loc main_arg6)))
          (vec (m ((c : Thread nD τ).loc main_arg7))) (vec (m ((c : Thread nD τ).loc main_arg8))) n j := by
  show (W6 m c main_v18_0 : S4096x256.Idx → EReal) (ix2 n j) = _
  rw [W6_v18_0, final3_feat (U5 m) c n j,
    show U5 m c main_arg1 = m ((c : Thread nD τ).loc main_arg1) from (keep5 m c main_arg1 (by decide) (by decide) (by decide) (by decide)).trans (U1_arg m c main_arg1 (by decide)),
    show U5 m c main_v11 = U1 m c main_v11 from keep5 m c main_v11 (by decide) (by decide) (by decide) (by decide),
    show U5 m c main_v12 = U1 m c main_v12 from keep5 m c main_v12 (by decide) (by decide) (by decide) (by decide),
    hv_v11 m c j, hv_v12 m c j]
  unfold feat
  conv_rhs => unfold layer
  unfold mm
  simp only [u_eq m c, h_eq m c, mm]
  rfl

/-- THE STRUCTURE RESULT. -/
theorem kernel_struct (c : Dev nD) (r s : Fin 4096) :
    mat (U6 m c main_v18_1) r s
      = struct (mat (m ((c : Thread nD τ).loc main_arg1))) (mat (m ((c : Thread nD τ).loc main_arg0))) (mat (m ((c : Thread nD τ).loc main_arg4)))
          (vec (m ((c : Thread nD τ).loc main_arg9))) (vec (m ((c : Thread nD τ).loc main_arg10))) r s := by
  show (W6 m c main_v18_1 : S4096x4096.Idx → EReal) (ix2 r s) = _
  rw [W6_v18_1, final3_struct (U5 m) c r s,
    show U5 m c main_v16 = U4 m c main_v16 from W5_of_ne m c main_v16 (by decide)]
  unfold struct
  simp only [s1_eq m c]

end Cert.KernelIdeal.HandVal

end
-- ==== Proof.SpecLaw.lean ====
/-
  The reference's spelling of a layer agrees with the kernel's on every extended real.

  The constant `c` is the float32 word 0x3F800054, the real (2²³ + 84) · 2⁻²³ = 1 + 84 · 2⁻²³, which is positive;
  so `√c` is a positive real `r`, division by it is the product with the real `1 / r` at every extended real
  (the infinities included), and `iv = 1 / √c` is that real `1 / r`.  The product of extended reals is
  commutative and associative, hence `(x / √c) · g = x · (g · iv)` with no finiteness asked of `x` or `g`.
-/
import proofs.«137728_g481036337837_cont_8to1_c_49_2_alg».proof.Proof.Spec
import Idealize.ShloMosaic.PureOps.Ideal
import Mathlib.Analysis.Real.Sqrt
import Mathlib.Data.EReal.Inv

noncomputable section

open scoped BigOperators

namespace Cert.Spec

open Idealize.ShloMosaic

/-- The word 0x3F800054 denotes the real `(2²³ + 84) / 2²³`. -/
theorem ofBits_c : Ideal.ofBits .f32 0x3F800054#32 = ((8388692 / 8388608 : ℝ) : EReal) := by
  simp [Ideal.ofBits, Ideal.ieee, -EReal.coe_mul]; norm_num

/-- The word 0x3F800000 denotes `1`. -/
theorem ofBits_one : Ideal.ofBits .f32 0x3F800000#32 = 1 := by
  simp [Ideal.ofBits, Ideal.ieee, -EReal.coe_mul]; norm_num

/-- `√c` is a positive real. -/
theorem sC_eq : ∃ r : ℝ, 0 < r ∧ sC = (r : EReal) := by
  refine ⟨Real.sqrt (8388692 / 8388608), Real.sqrt_pos.mpr (by norm_num), ?_⟩
  rw [sC, ofBits_c, Ideal.sqrt_coe, if_neg (by norm_num)]

/-- `iv` is the reciprocal of that positive real. -/
theorem iv_eq : ∃ r : ℝ, 0 < r ∧ sC = (r : EReal) ∧ iv = ((1 / r : ℝ) : EReal) := by
  obtain ⟨r, hr, hs⟩ := sC_eq
  refine ⟨r, hr, hs, ?_⟩
  rw [iv, hs, ofBits_one, Ideal.div_coe (ne_of_gt hr), one_mul]

/-- Dividing by `√c` and then scaling by `g` is scaling by `g · iv`, at every pair of extended reals. -/
theorem div_sC_mul (x g : EReal) : Ideal.div x sC * g = x * (g * iv) := by
  obtain ⟨r, hr, hs, hi⟩ := iv_eq
  rw [hi, hs, Ideal.div_coe (ne_of_gt hr), mul_assoc, mul_comm ((1 / r : ℝ) : EReal) g]

/-- The two spellings of a layer are one function. -/
theorem layerRef_eq {K N : ℕ} (adj : Mat 4096 4096) (x : Mat 4096 K) (W : Mat K N) (g b : Fin N → EReal) :
    layerRef adj x W g b = layer adj x W g b := by
  funext n j
  simp only [layerRef, layer]
  rw [div_sC_mul]

end Cert.Spec

end
-- ==== Proof.RefValue.lean ====
/-
  The reference program computes the specification, entry by entry, on the extended reals.

  Each stage of the reference is read at an index given by its coordinates: a product of matrices is the sum over
  the contracted coordinate of the products of the entries, a broadcast of a vector along the rows reads the vector
  at the column, the rectifier is the maximum with zero, and the scalar stages are the square root `√c` of the
  constant.  So a layer of the reference is `max (adj · (x · W)) 0 / √c · g + b`, which is the specification's
  layer with the scale `g · (1 / √c)` folded (the law of the two spellings); the feature output is two layers, and
  the structure output, the product of one layer with its own transpose, is the Gram matrix of that layer's rows.
-/
import proofs.«137728_g481036337837_cont_8to1_c_49_2_alg».proof.Proof.Gen.ReferenceIdeal.Run
import proofs.«137728_g481036337837_cont_8to1_c_49_2_alg».proof.Proof.Gen.ReferenceIdeal.Read
import proofs.«137728_g481036337837_cont_8to1_c_49_2_alg».proof.Proof.Spec
import proofs.«137728_g481036337837_cont_8to1_c_49_2_alg».proof.Proof.SpecLaw
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Cert.Spec

/-! ## The index functions of the reference's reads, at an index given by its coordinates -/

/-- First layer of the feature branch: the operands of `y · W₁` and of `adj · (y · W₁)`, the two affine vectors. -/
theorem lidx_v0 (l : Fin 4096) (j : Fin 128) (k : Fin 64) : Read.lidx_main_v0 (ix2 l j) k = ix2 l k :=
  funext fun a => Fin.ext (by match a with | ⟨0, _⟩ => rfl | ⟨1, _⟩ => rfl)
theorem ridx_v0 (l : Fin 4096) (j : Fin 128) (k : Fin 64) : Read.ridx_main_v0 (ix2 l j) k = ix2 k j :=
  funext fun a => Fin.ext (by match a with | ⟨0, _⟩ => rfl | ⟨1, _⟩ => rfl)
theorem lidx_v1 (n : Fin 4096) (j : Fin 128) (k : Fin 4096) : Read.lidx_main_v1 (ix2 n j) k = ix2 n k :=
  funext fun a => Fin.ext (by match a with | ⟨0, _⟩ => rfl | ⟨1, _⟩ => rfl)
theorem ridx_v1 (n : Fin 4096) (j : Fin 128) (k : Fin 4096) : Read.ridx_main_v1 (ix2 n j) k = ix2 k j :=
  funext fun a => Fin.ext (by match a with | ⟨0, _⟩ => rfl | ⟨1, _⟩ => rfl)
theorem idx_v7 (n : Fin 4096) (j : Fin 128) : Read.idx_main_v7 (Read.idx_main_v8 (ix2 n j)) = ix1 j :=
  funext fun a => Fin.ext (by match a with | ⟨0, _⟩ => rfl)
theorem idx_v10 (n : Fin 4096) (j : Fin 128) : Read.idx_main_v10 (Read.idx_main_v11 (ix2 n j)) = ix1 j :=
  funext fun a => Fin.ext (by match a with | ⟨0, _⟩ => rfl)

/-- Second layer of the feature branch. -/
theorem lidx_v13 (l : Fin 4096) (j : Fin 256) (k : Fin 128) : Read.lidx_main_v13 (ix2 l j) k = ix2 l k :=
  funext fun a => Fin.ext (by match a with | ⟨0, _⟩ => rfl | ⟨1, _⟩ => rfl)
theorem ridx_v13 (l : Fin 4096) (j : Fin 256) (k : Fin 128) : Read.ridx_main_v13 (ix2 l j) k = ix2 k j :=
  funext fun a => Fin.ext (by match a with | ⟨0, _⟩ => rfl | ⟨1, _⟩ => rfl)
theorem lidx_v14 (n : Fin 4096) (j : Fin 256) (k : Fin 4096) : Read.lidx_main_v14 (ix2 n j) k = ix2 n k :=
  funext fun a => Fin.ext (by match a with | ⟨0, _⟩ => rfl | ⟨1, _⟩ => rfl)
theorem ridx_v14 (n : Fin 4096) (j : Fin 256) (k : Fin 4096) : Read.ridx_main_v14 (ix2 n j) k = ix2 k j :=
  funext fun a => Fin.ext (by match a with | ⟨0, _⟩ => rfl | ⟨1, _⟩ => rfl)
theorem idx_v20 (n : Fin 4096) (j : Fin 256) : Read.idx_main_v20 (Read.idx_main_v21 (ix2 n j)) = ix1 j :=
  funext fun a => Fin.ext (by match a with | ⟨0, _⟩ => rfl)
theorem idx_v23 (n : Fin 4096) (j : Fin 256) : Read.idx_main_v23 (Read.idx_main_v24 (ix2 n j)) = ix1 j :=
  funext fun a => Fin.ext (by match a with | ⟨0, _⟩ => rfl)

/-- The layer of the structure branch, the transposition and the Gram product. -/
theorem lidx_v26 (l : Fin 4096) (j : Fin 128) (k : Fin 64) : Read.lidx_main_v26 (ix2 l j) k = ix2 l k :=
  funext fun a => Fin.ext (by match a with | ⟨0, _⟩ => rfl | ⟨1, _⟩ => rfl)
theorem ridx_v26 (l : Fin 4096) (j : Fin 128) (k : Fin 64) : Read.ridx_main_v26 (ix2 l j) k = ix2 k j :=
  funext fun a => Fin.ext (by match a with | ⟨0, _⟩ => rfl | ⟨1, _⟩ => rfl)
theorem lidx_v27 (n : Fin 4096) (j : Fin 128) (k : Fin 4096) : Read.lidx_main_v27 (ix2 n j) k = ix2 n k :=
  funext fun a => Fin.ext (by match a with | ⟨0, _⟩ => rfl | ⟨1, _⟩ => rfl)
theorem ridx_v27 (n : Fin 4096) (j : Fin 128) (k : Fin 4096) : Read.ridx_main_v27 (ix2 n j) k = ix2 k j :=
  funext fun a => Fin.ext (by match a with | ⟨0, _⟩ => rfl | ⟨1, _⟩ => rfl)
theorem idx_v33 (n : Fin 4096) (j : Fin 128) : Read.idx_main_v33 (Read.idx_main_v34 (ix2 n j)) = ix1 j :=
  funext fun a => Fin.ext (by match a with | ⟨0, _⟩ => rfl)
theorem idx_v36 (n : Fin 4096) (j : Fin 128) : Read.idx_main_v36 (Read.idx_main_v37 (ix2 n j)) = ix1 j :=
  funext fun a => Fin.ext (by match a with | ⟨0, _⟩ => rfl)
theorem lidx_v40 (r s : Fin 4096) (k : Fin 128) : Read.lidx_main_v40 (ix2 r s) k = ix2 r k :=
  funext fun a => Fin.ext (by match a with | ⟨0, _⟩ => rfl | ⟨1, _⟩ => rfl)
theorem idx_v39 (r s : Fin 4096) (k : Fin 128) : Read.idx_main_v39 (Read.ridx_main_v40 (ix2 r s) k) = ix2 s k :=
  funext fun a => Fin.ext (by match a with | ⟨0, _⟩ => rfl | ⟨1, _⟩ => rfl)

/-! ## The feature branch -/

/-- `y · W₁` at a row and a column. -/
theorem v0_at (x0 : (⟨S4096x64, .f32⟩ : BufTy).Contents (Elt Ideal)) (x2 : (⟨S64x128, .f32⟩ : BufTy).Contents (Elt Ideal))
    (l : Fin 4096) (j : Fin 128) :
    Read.val_main_v0 (F := Ideal) x0 x2 (ix2 l j) = mm (mat x0) (mat x2) l j := by
  rw [Read.val_main_v0_apply]
  refine Finset.sum_congr rfl fun k _ => ?_
  rw [lidx_v0, ridx_v0]

/-- `adj · (y · W₁)` at a row and a column. -/
theorem v1_at (x0 : (⟨S4096x64, .f32⟩ : BufTy).Contents (Elt Ideal)) (x1 : (⟨S4096x4096, .f32⟩ : BufTy).Contents (Elt Ideal)) (x2 : (⟨S64x128, .f32⟩ : BufTy).Contents (Elt Ideal))
    (n : Fin 4096) (j : Fin 128) :
    Read.val_main_v1 (F := Ideal) x0 x1 x2 (ix2 n j) = mm (mat x1) (mm (mat x0) (mat x2)) n j := by
  rw [Read.val_main_v1_apply]
  refine Finset.sum_congr rfl fun k _ => ?_
  rw [lidx_v1, ridx_v1, v0_at]

/-- The first layer in the reference's spelling: rectify, divide by `√c`, scale by `g₁`, shift by `b₁`. -/
theorem v12_ref (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x5 x6 : (⟨S128, .f32⟩ : BufTy).Contents (Elt Ideal))
    (n : Fin 4096) (j : Fin 128) :
    Read.val_main_v12 (F := Ideal) x0 x1 x2 x5 x6 (ix2 n j)
      = layerRef (mat x1) (mat x0) (mat x2) (vec x5) (vec x6) n j := by
  rw [Read.val_main_v12_apply, Read.val_main_v9_apply, Read.val_main_v6_apply, Read.val_main_v2_apply,
    Read.val_main_call0_v0_apply, Read.val_main_call0_cst_apply, Read.val_main_v5_apply, Read.val_main_v4_apply,
    Read.val_main_v3_apply, Read.val_main_cst_apply, Read.val_main_v8_apply, Read.val_main_v7_apply,
    Read.val_main_v11_apply, Read.val_main_v10_apply, v1_at, idx_v7, idx_v10]
  simp only [Ideal.addf_def, Ideal.mulf_def, Ideal.hostDivf_def, Ideal.maximumf_def, Ideal.hostUnary_sqrt_def,
    Ideal.ofBits_def, Ideal.ofBits_zero_f32]
  rfl

/-- The first layer is the hidden layer `h` of the specification. -/
theorem v12_at (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x5 x6 : (⟨S128, .f32⟩ : BufTy).Contents (Elt Ideal))
    (n : Fin 4096) (j : Fin 128) :
    Read.val_main_v12 (F := Ideal) x0 x1 x2 x5 x6 (ix2 n j)
      = layer (mat x1) (mat x0) (mat x2) (vec x5) (vec x6) n j :=
  (v12_ref x0 x1 x2 x5 x6 n j).trans
    (congrFun (congrFun (layerRef_eq (mat x1) (mat x0) (mat x2) (vec x5) (vec x6)) n) j)

/-- `h · W₂` at a row and a column. -/
theorem v13_at (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x3 : (⟨S128x256, .f32⟩ : BufTy).Contents (Elt Ideal)) (x5 x6 : (⟨S128, .f32⟩ : BufTy).Contents (Elt Ideal))
    (l : Fin 4096) (j : Fin 256) :
    Read.val_main_v13 (F := Ideal) x0 x1 x2 x3 x5 x6 (ix2 l j)
      = mm (layer (mat x1) (mat x0) (mat x2) (vec x5) (vec x6)) (mat x3) l j := by
  rw [Read.val_main_v13_apply]
  refine Finset.sum_congr rfl fun k _ => ?_
  rw [lidx_v13, ridx_v13, v12_at]

/-- `adj · (h · W₂)` at a row and a column. -/
theorem v14_at (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x3 : (⟨S128x256, .f32⟩ : BufTy).Contents (Elt Ideal)) (x5 x6 : (⟨S128, .f32⟩ : BufTy).Contents (Elt Ideal))
    (n : Fin 4096) (j : Fin 256) :
    Read.val_main_v14 (F := Ideal) x0 x1 x2 x3 x5 x6 (ix2 n j)
      = mm (mat x1) (mm (layer (mat x1) (mat x0) (mat x2) (vec x5) (vec x6)) (mat x3)) n j := by
  rw [Read.val_main_v14_apply]
  refine Finset.sum_congr rfl fun k _ => ?_
  rw [lidx_v14, ridx_v14, v13_at]

/-- The second layer in the reference's spelling, over the hidden layer. -/
theorem v25_ref (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x3 : (⟨S128x256, .f32⟩ : BufTy).Contents (Elt Ideal)) (x5 x6 : (⟨S128, .f32⟩ : BufTy).Contents (Elt Ideal)) (x7 x8 : (⟨S256, .f32⟩ : BufTy).Contents (Elt Ideal))
    (n : Fin 4096) (j : Fin 256) :
    Read.val_main_v25 (F := Ideal) x0 x1 x2 x3 x5 x6 x7 x8 (ix2 n j)
      = layerRef (mat x1) (layer (mat x1) (mat x0) (mat x2) (vec x5) (vec x6)) (mat x3) (vec x7) (vec x8) n j := by
  rw [Read.val_main_v25_apply, Read.val_main_v22_apply, Read.val_main_v19_apply, Read.val_main_v15_apply,
    Read.val_main_call1_v0_apply, Read.val_main_call1_cst_apply, Read.val_main_v18_apply, Read.val_main_v17_apply,
    Read.val_main_v16_apply, Read.val_main_cst_0_apply, Read.val_main_v21_apply, Read.val_main_v20_apply,
    Read.val_main_v24_apply, Read.val_main_v23_apply, v14_at, idx_v20, idx_v23]
  simp only [Ideal.addf_def, Ideal.mulf_def, Ideal.hostDivf_def, Ideal.maximumf_def, Ideal.hostUnary_sqrt_def,
    Ideal.ofBits_def, Ideal.ofBits_zero_f32]
  rfl

/-- The reference's feature output is the specification's, entry by entry. -/
theorem ref_feat (x0 : (⟨S4096x64, .f32⟩ : BufTy).Contents (Elt Ideal)) (x1 : (⟨S4096x4096, .f32⟩ : BufTy).Contents (Elt Ideal)) (x2 : (⟨S64x128, .f32⟩ : BufTy).Contents (Elt Ideal)) (x3 : (⟨S128x256, .f32⟩ : BufTy).Contents (Elt Ideal)) (x5 x6 : (⟨S128, .f32⟩ : BufTy).Contents (Elt Ideal)) (x7 x8 : (⟨S256, .f32⟩ : BufTy).Contents (Elt Ideal)) (n : Fin 4096) (j : Fin 256) :
    Cert.ReferenceIdeal.Read.val_main_v25 (F := Ideal) x0 x1 x2 x3 x5 x6 x7 x8 (ix2 n j) = Cert.Spec.feat (mat x1) (mat x0) (mat x2) (mat x3) (vec x5) (vec x6) (vec x7) (vec x8) n j :=
  (v25_ref x0 x1 x2 x3 x5 x6 x7 x8 n j).trans
    (congrFun (congrFun (layerRef_eq (mat x1) (layer (mat x1) (mat x0) (mat x2) (vec x5) (vec x6)) (mat x3) (vec x7) (vec x8)) n) j)

/-! ## The structure branch -/

/-- `y · W₃` at a row and a column. -/
theorem v26_at (x0 : (⟨S4096x64, .f32⟩ : BufTy).Contents (Elt Ideal)) (x4 : (⟨S64x128, .f32⟩ : BufTy).Contents (Elt Ideal))
    (l : Fin 4096) (j : Fin 128) :
    Read.val_main_v26 (F := Ideal) x0 x4 (ix2 l j) = mm (mat x0) (mat x4) l j := by
  rw [Read.val_main_v26_apply]
  refine Finset.sum_congr rfl fun k _ => ?_
  rw [lidx_v26, ridx_v26]

/-- `adj · (y · W₃)` at a row and a column. -/
theorem v27_at (x0 : (⟨S4096x64, .f32⟩ : BufTy).Contents (Elt Ideal)) (x1 : (⟨S4096x4096, .f32⟩ : BufTy).Contents (Elt Ideal)) (x4 : (⟨S64x128, .f32⟩ : BufTy).Contents (Elt Ideal))
    (n : Fin 4096) (j : Fin 128) :
    Read.val_main_v27 (F := Ideal) x0 x1 x4 (ix2 n j) = mm (mat x1) (mm (mat x0) (mat x4)) n j := by
  rw [Read.val_main_v27_apply]
  refine Finset.sum_congr rfl fun k _ => ?_
  rw [lidx_v27, ridx_v27, v26_at]

/-- The structure layer in the reference's spelling. -/
theorem v38_ref (x0 : (⟨S4096x64, .f32⟩ : BufTy).Contents (Elt Ideal)) (x1 : (⟨S4096x4096, .f32⟩ : BufTy).Contents (Elt Ideal)) (x4 : (⟨S64x128, .f32⟩ : BufTy).Contents (Elt Ideal)) (x9 x10 : (⟨S128, .f32⟩ : BufTy).Contents (Elt Ideal))
    (n : Fin 4096) (j : Fin 128) :
    Read.val_main_v38 (F := Ideal) x0 x1 x4 x9 x10 (ix2 n j)
      = layerRef (mat x1) (mat x0) (mat x4) (vec x9) (vec x10) n j := by
  rw [Read.val_main_v38_apply, Read.val_main_v35_apply, Read.val_main_v32_apply, Read.val_main_v28_apply,
    Read.val_main_call2_v0_apply, Read.val_main_call2_cst_apply, Read.val_main_v31_apply, Read.val_main_v30_apply,
    Read.val_main_v29_apply, Read.val_main_cst_1_apply, Read.val_main_v34_apply, Read.val_main_v33_apply,
    Read.val_main_v37_apply, Read.val_main_v36_apply, v27_at, idx_v33, idx_v36]
  simp only [Ideal.addf_def, Ideal.mulf_def, Ideal.hostDivf_def, Ideal.maximumf_def, Ideal.hostUnary_sqrt_def,
    Ideal.ofBits_def, Ideal.ofBits_zero_f32]
  rfl

/-- The structure layer is the specification's layer `s₁`. -/
theorem v38_at (x0 : (⟨S4096x64, .f32⟩ : BufTy).Contents (Elt Ideal)) (x1 : (⟨S4096x4096, .f32⟩ : BufTy).Contents (Elt Ideal)) (x4 : (⟨S64x128, .f32⟩ : BufTy).Contents (Elt Ideal)) (x9 x10 : (⟨S128, .f32⟩ : BufTy).Contents (Elt Ideal))
    (n : Fin 4096) (j : Fin 128) :
    Read.val_main_v38 (F := Ideal) x0 x1 x4 x9 x10 (ix2 n j)
      = layer (mat x1) (mat x0) (mat x4) (vec x9) (vec x10) n j :=
  (v38_ref x0 x1 x4 x9 x10 n j).trans
    (congrFun (congrFun (layerRef_eq (mat x1) (mat x0) (mat x4) (vec x9) (vec x10)) n) j)

/-- The reference's structure output is the Gram matrix of the rows of `s₁`: the transposed operand read at
    `(k, s)` is `s₁` at `(s, k)`. -/
theorem ref_struct (x0 : (⟨S4096x64, .f32⟩ : BufTy).Contents (Elt Ideal)) (x1 : (⟨S4096x4096, .f32⟩ : BufTy).Contents (Elt Ideal)) (x4 : (⟨S64x128, .f32⟩ : BufTy).Contents (Elt Ideal)) (x9 x10 : (⟨S128, .f32⟩ : BufTy).Contents (Elt Ideal)) (r s : Fin 4096) :
    Cert.ReferenceIdeal.Read.val_main_v40 (F := Ideal) x0 x1 x4 x9 x10 (ix2 r s) = Cert.Spec.struct (mat x1) (mat x0) (mat x4) (vec x9) (vec x10) r s := by
  rw [Read.val_main_v40_apply]
  refine Finset.sum_congr rfl fun k _ => ?_
  rw [Read.val_main_v39_apply, lidx_v40, idx_v39, v38_at, v38_at]

end Cert.ReferenceIdeal.RefValue

end
-- ==== Proof.lean ====
/-
  The certificate: the kernel program (a fused two-branch graph-convolution decoder in four TensorCore pallas_calls)
  against its jnp reference.

  Frames. Each kernel program runs as the chain of its calls and host stretches (Proof/KI, Proof/K): every call is a
  pipeline whose body obligation is proved once for any float instance, the last call carrying an accumulator in a
  scratch buffer between grid points and reading one array through two windows at complementary shares. The
  reference is a host program: its frame is its run with the results dropped.

  Values, on the extended reals. The kernel joins the two first-layer branches into one matrix product on
  concatenated weights (a product's column depends on that column of the right factor only), accumulates the second
  adjacency product block by block (a reassociated sum), and folds the normalisation's `1/√c` into the affine scale;
  the reference divides by `√c` and then scales. Division by a positive real is the product with its reciprocal
  on every extended real, and the product is commutative and associative, so both programs compute `Spec.feat` and
  `Spec.struct` of the arguments, whatever the arguments: the precondition is not used.
-/
import proofs.«137728_g481036337837_cont_8to1_c_49_2_alg».proof.Defs
import proofs.«137728_g481036337837_cont_8to1_c_49_2_alg».proof.Proof.Gen.Kernel
import proofs.«137728_g481036337837_cont_8to1_c_49_2_alg».proof.Proof.Gen.KernelIdeal
import proofs.«137728_g481036337837_cont_8to1_c_49_2_alg».proof.Proof.Gen.ReferenceIdeal
import proofs.«137728_g481036337837_cont_8to1_c_49_2_alg».proof.Proof.Gen.Pre_finite_inputs
import proofs.«137728_g481036337837_cont_8to1_c_49_2_alg».proof.Proof.Gen.ReferenceIdeal.Run
import proofs.«137728_g481036337837_cont_8to1_c_49_2_alg».proof.Proof.Gen.ReferenceIdeal.Read
import proofs.«137728_g481036337837_cont_8to1_c_49_2_alg».proof.Proof.K.Main
import proofs.«137728_g481036337837_cont_8to1_c_49_2_alg».proof.Proof.KI.Main
import proofs.«137728_g481036337837_cont_8to1_c_49_2_alg».proof.Proof.KI.KIValue
import proofs.«137728_g481036337837_cont_8to1_c_49_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

open Cert.KernelIdeal Cert.KernelIdeal.Gen Cert.KernelIdeal.Hand Cert.KernelIdeal.HandVal in
/-- Both idealized programs end with the feature array at `Spec.feat` and the structure array at `Spec.struct` of
    the arguments they agree on. -/
theorem algebraic : Cert.algebraic_KernelIdeal_ReferenceIdeal := by
  intro m ρ m' ρ' _ hagree
  refine ⟨fun c => W6 m c main_v18_0, fun c => W6 m c main_v18_1, ?_, ?_⟩
  · exact (θ_run Cert.KernelIdeal.defs _ _).mono (fun _ h c =>
      ⟨h c _ (mem_uc main_v18_0 (by decide)), h c _ (mem_uc main_v18_1 (by decide)),
        (h c _ (mem_uc main_arg0 (by decide))).trans (W6_main_arg0 m c),
        (h c _ (mem_uc main_arg1 (by decide))).trans (W6_main_arg1 m c),
        (h c _ (mem_uc main_arg2 (by decide))).trans (W6_main_arg2 m c),
        (h c _ (mem_uc main_arg3 (by decide))).trans (W6_main_arg3 m c),
        (h c _ (mem_uc main_arg4 (by decide))).trans (W6_main_arg4 m c),
        (h c _ (mem_uc main_arg5 (by decide))).trans (W6_main_arg5 m c),
        (h c _ (mem_uc main_arg6 (by decide))).trans (W6_main_arg6 m c),
        (h c _ (mem_uc main_arg7 (by decide))).trans (W6_main_arg7 m c),
        (h c _ (mem_uc main_arg8 (by decide))).trans (W6_main_arg8 m c),
        (h c _ (mem_uc main_arg9 (by decide))).trans (W6_main_arg9 m c),
        (h c _ (mem_uc main_arg10 (by decide))).trans (W6_main_arg10 m c)⟩)
      (run_main m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v25_eq]
      funext i
      obtain ⟨n, j, rfl⟩ : ∃ (n : Fin 4096) (j : Fin 256), i = ix2 n j := ⟨i 0, i 1, eq_ix2 i⟩
      rw [Cert.ReferenceIdeal.RefValue.ref_feat]
      rw [(hagree c).1, (hagree c).2.1, (hagree c).2.2.1, (hagree c).2.2.2.1, (hagree c).2.2.2.2.2.1, (hagree c).2.2.2.2.2.2.1,
        (hagree c).2.2.2.2.2.2.2.1, (hagree c).2.2.2.2.2.2.2.2.1]
      exact (kernel_feat m c n j).symm
    · rw [Cert.ReferenceIdeal.Read.val_main_v40_eq]
      funext i
      obtain ⟨r, s, rfl⟩ : ∃ (r s : Fin 4096), i = ix2 r s := ⟨i 0, i 1, eq_ix2 i⟩
      rw [Cert.ReferenceIdeal.RefValue.ref_struct]
      rw [(hagree c).1, (hagree c).2.1, (hagree c).2.2.2.2.1, (hagree c).2.2.2.2.2.2.2.2.2.1, (hagree c).2.2.2.2.2.2.2.2.2.2]
      exact (kernel_struct m c r s).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
